-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x2 : Shape := ⟨2, ![50000, 2]⟩
abbrev S500000 : Shape := ⟨1, ![500000]⟩
abbrev S2x128 : Shape := ⟨2, ![2, 128]⟩
abbrev S128 : Shape := ⟨1, ![128]⟩
abbrev S128x128 : Shape := ⟨2, ![128, 128]⟩
abbrev S384x128 : Shape := ⟨2, ![384, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x2 : S_.BroadcastsInDim S50000x2 (![] : Fin 0 → Fin S50000x2.rank)
  reducesTo_S50000x2_S_d0_1 : S50000x2.ReducesTo [0, 1] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_

variable [Facts]

def fn_part6 {F : FTy → Type} [FloatOps F] (main_arg23 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  main_v108

def fn_part5 {F : FTy → Type} [FloatOps F] (main_arg20 : FVec F S128 .f32) (main_arg21 : FVec F S128x128 .f32) (main_arg22 : FVec F S128 .f32) (main_arg23 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S128 .f32) (main_arg17 : FVec F S128x128 .f32) (main_arg18 : FVec F S128x128 .f32) (main_arg19 : FVec F S128 .f32) (main_arg20 : FVec F S128 .f32) (main_arg21 : FVec F S128x128 .f32) (main_arg22 : FVec F S128 .f32) (main_arg23 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S128 .f32) (main_arg14 : FVec F S384x128 .f32) (main_arg15 : FVec F S128 .f32) (main_arg16 : FVec F S128 .f32) (main_arg17 : FVec F S128x128 .f32) (main_arg18 : FVec F S128x128 .f32) (main_arg19 : FVec F S128 .f32) (main_arg20 : FVec F S128 .f32) (main_arg21 : FVec F S128x128 .f32) (main_arg22 : FVec F S128 .f32) (main_arg23 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S384x128 .f32 := Host.absf main_arg14
  let main_cst_22 : FVec F S_ .f32 := constant S_ .f32 0x7F800000#32
  let main_v60 : FVec F S384x128 .f32 := broadcastInDim S384x128 ![] bcast_S_S384x128 main_cst_22
  let main_v61 : IVec S384x128 1 := cmpf .olt main_v59 main_v60
  let main_c_23 : IVec S_ 1 := constantI S_ 1 1#1
  let main_v62 : IVec S_ 1 := (fun x v => Host.reduce IntOp.andi x v reducesTo_S384x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S128 .f32) (main_arg10 : FVec F S128 .f32) (main_arg11 : FVec F S128x128 .f32) (main_arg12 : FVec F S128 .f32) (main_arg13 : FVec F S128 .f32) (main_arg14 : FVec F S384x128 .f32) (main_arg15 : FVec F S128 .f32) (main_arg16 : FVec F S128 .f32) (main_arg17 : FVec F S128x128 .f32) (main_arg18 : FVec F S128x128 .f32) (main_arg19 : FVec F S128 .f32) (main_arg20 : FVec F S128 .f32) (main_arg21 : FVec F S128x128 .f32) (main_arg22 : FVec F S128 .f32) (main_arg23 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S2x128 .f32) (main_arg7 : FVec F S128 .f32) (main_arg8 : FVec F S128x128 .f32) (main_arg9 : FVec F S128 .f32) (main_arg10 : FVec F S128 .f32) (main_arg11 : FVec F S128x128 .f32) (main_arg12 : FVec F S128 .f32) (main_arg13 : FVec F S128 .f32) (main_arg14 : FVec F S384x128 .f32) (main_arg15 : FVec F S128 .f32) (main_arg16 : FVec F S128 .f32) (main_arg17 : FVec F S128x128 .f32) (main_arg18 : FVec F S128x128 .f32) (main_arg19 : FVec F S128 .f32) (main_arg20 : FVec F S128 .f32) (main_arg21 : FVec F S128x128 .f32) (main_arg22 : FVec F S128 .f32) (main_arg23 : FVec F S128 .f32) (main_v13 : IVec S_ 1) (main_v16 : IVec S50000x2 1) : IVec S_ 1 :=
  let main_c_5 : IVec S_ 1 := constantI S_ 1 1#1
  let main_v17 : IVec S_ 1 := (fun x v => Host.reduce IntOp.andi x v reducesTo_S50000x2_S_d0_1 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x128 .f32) (main_arg1 : FVec F S50000x128 .f32) (main_arg2 : FVec F S50000x2 .f32) (main_arg3 : FVec F S50000x2 .f32) (main_arg4 : IVec S500000 32) (main_arg5 : IVec S500000 32) (main_arg6 : FVec F S2x128 .f32) (main_arg7 : FVec F S128 .f32) (main_arg8 : FVec F S128x128 .f32) (main_arg9 : FVec F S128 .f32) (main_arg10 : FVec F S128 .f32) (main_arg11 : FVec F S128x128 .f32) (main_arg12 : FVec F S128 .f32) (main_arg13 : FVec F S128 .f32) (main_arg14 : FVec F S384x128 .f32) (main_arg15 : FVec F S128 .f32) (main_arg16 : FVec F S128 .f32) (main_arg17 : FVec F S128x128 .f32) (main_arg18 : FVec F S128x128 .f32) (main_arg19 : FVec F S128 .f32) (main_arg20 : FVec F S128 .f32) (main_arg21 : FVec F S128x128 .f32) (main_arg22 : FVec F S128 .f32) (main_arg23 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x2 .f32 := Host.absf main_arg2
  let main_cst_2 : FVec F S_ .f32 := constant S_ .f32 0x7F800000#32
  let main_v10 : FVec F S50000x2 .f32 := broadcastInDim S50000x2 ![] bcast_S_S50000x2 main_cst_2
  let main_v11 : IVec S50000x2 1 := cmpf .olt main_v9 main_v10
  let main_c_3 : IVec S_ 1 := constantI S_ 1 1#1
  let main_v12 : IVec S_ 1 := (fun x v => Host.reduce IntOp.andi x v reducesTo_S50000x2_S_d0_1 h_S_) main_v11 main_c_3
  let main_v13 : IVec S_ 1 := andi main_v8 main_v12
  let main_v14 : FVec F S50000x2 .f32 := Host.absf main_arg3
  let main_cst_4 : FVec F S_ .f32 := constant S_ .f32 0x7F800000#32
  let main_v15 : FVec F S50000x2 .f32 := broadcastInDim S50000x2 ![] bcast_S_S50000x2 main_cst_4
  let main_v16 : IVec S50000x2 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x128 : Shape := ⟨2, ![50000, 128]⟩
abbrev S50000x2 : Shape := ⟨2, ![50000, 2]⟩
abbrev S500000 : Shape := ⟨1, ![500000]⟩
abbrev S2x128 : Shape := ⟨2, ![2, 128]⟩
abbrev S128 : Shape := ⟨1, ![128]⟩
abbrev S128x128 : Shape := ⟨2, ![128, 128]⟩
abbrev S384x128 : Shape := ⟨2, ![384, 128]⟩
abbrev S_ : Shape := ⟨0, ![]⟩
abbrev S500000x1 : Shape := ⟨2, ![500000, 1]⟩
abbrev S500000x2 : Shape := ⟨2, ![500000, 2]⟩
abbrev S500000x128 : Shape := ⟨2, ![500000, 128]⟩
abbrev S5000x2 : Shape := ⟨2, ![5000, 2]⟩
abbrev S5000x128 : Shape := ⟨2, ![5000, 128]⟩
abbrev S5000x1 : Shape := ⟨2, ![5000, 1]⟩
abbrev S1x128 : Shape := ⟨2, ![1, 128]⟩
abbrev S5000 : Shape := ⟨1, ![5000]⟩

abbrev nBuf : Space → Nat
  | .hbm => 74
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x2, .f32⟩
  | .hbm, ⟨3, _⟩ => ⟨S50000x2, .f32⟩
  | .hbm, ⟨4, _⟩ => ⟨S500000, .i32⟩
  | .hbm, ⟨5, _⟩ => ⟨S500000, .i32⟩
  | .hbm, ⟨6, _⟩ => ⟨S2x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S384x128, .f32⟩
  | .hbm, ⟨15, _⟩ => ⟨S128, .f32⟩
  | .hbm, ⟨16, _⟩ => ⟨S128, .f32⟩
  | .hbm, ⟨17, _⟩ => ⟨S128x128, .f32⟩
  | .hbm, ⟨18, _⟩ => ⟨S128x128, .f32⟩
  | .hbm, ⟨19, _⟩ => ⟨S128, .f32⟩
  | .hbm, ⟨20, _⟩ => ⟨S128, .f32⟩
  | .hbm, ⟨21, _⟩ => ⟨S128x128, .f32⟩
  | .hbm, ⟨22, _⟩ => ⟨S128, .f32⟩
  | .hbm, ⟨23, _⟩ => ⟨S128, .f32⟩
  | .hbm, ⟨24, _⟩ => ⟨S_, .i32⟩
  | .hbm, ⟨25, _⟩ => ⟨S500000, .i32⟩
  | .hbm, ⟨26, _⟩ => ⟨S500000, .i1⟩
  | .hbm, ⟨27, _⟩ => ⟨S_, .i32⟩
  | .hbm, ⟨28, _⟩ => ⟨S500000, .i32⟩
  | .hbm, ⟨29, _⟩ => ⟨S500000, .i32⟩
  | .hbm, ⟨30, _⟩ => ⟨S500000, .i32⟩
  | .hbm, ⟨31, _⟩ => ⟨S500000x1, .i32⟩
  | .hbm, ⟨32, _⟩ => ⟨S500000x2, .f32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S500000x2, .f32⟩
  | .hbm, ⟨42, _⟩ => ⟨S500000x2, .f32⟩
  | .hbm, ⟨43, _⟩ => ⟨S_, .i32⟩
  | .hbm, ⟨44, _⟩ => ⟨S500000, .i32⟩
  | .hbm, ⟨45, _⟩ => ⟨S500000, .i1⟩
  | .hbm, ⟨46, _⟩ => ⟨S_, .i32⟩
  | .hbm, ⟨47, _⟩ => ⟨S500000, .i32⟩
  | .hbm, ⟨48, _⟩ => ⟨S500000, .i32⟩
  | .hbm, ⟨49, _⟩ => ⟨S500000, .i32⟩
  | .hbm, ⟨50, _⟩ => ⟨S500000x1, .i32⟩
  | .hbm, ⟨51, _⟩ => ⟨S500000x128, .f32⟩
  | .hbm, ⟨52, _⟩ => ⟨S_, .i32⟩
  | .hbm, ⟨53, _⟩ => ⟨S500000, .i32⟩
  | .hbm, ⟨54, _⟩ => ⟨S500000, .i1⟩
  | .hbm, ⟨55, _⟩ => ⟨S_, .i32⟩
  | .hbm, ⟨56, _⟩ => ⟨S500000, .i32⟩
  | .hbm, ⟨57, _⟩ => ⟨S500000, .i32⟩
  | .hbm, ⟨58, _⟩ => ⟨S500000, .i32⟩
  | .hbm, ⟨59, _⟩ => ⟨S500000x1, .i32⟩
  | .hbm, ⟨60, _⟩ => ⟨S500000x128, .f32⟩
  | .hbm, ⟨61, _⟩ => ⟨S500000x128, .f32⟩
  | .hbm, ⟨62, _⟩ => ⟨S_, .f32⟩
  | .hbm, ⟨63, _⟩ => ⟨S50000x128, .f32⟩
  | .hbm, ⟨64, _⟩ => ⟨S_, .i32⟩
  | .hbm, ⟨65, _⟩ => ⟨S500000, .i32⟩
  | .hbm, ⟨66, _⟩ => ⟨S500000, .i1⟩
  | .hbm, ⟨67, _⟩ => ⟨S_, .i32⟩
  | .hbm, ⟨68, _⟩ => ⟨S500000, .i32⟩
  | .hbm, ⟨69, _⟩ => ⟨S500000, .i32⟩
  | .hbm, ⟨70, _⟩ => ⟨S500000, .i32⟩
  | .hbm, ⟨71, _⟩ => ⟨S500000x1, .i32⟩
  | .hbm, ⟨72, _⟩ => ⟨S50000x128, .f32⟩
  | .hbm, ⟨73, _⟩ => ⟨S50000x128, .f32⟩
  | .local _ .vmem, ⟨0, _⟩ => ⟨S5000x2, .f32⟩
  | .local _ .vmem, ⟨1, _⟩ => ⟨S5000x2, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S2x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128, .f32⟩
  | .local _ .vmem, ⟨11, _⟩ => ⟨S128x128, .f32⟩
  | .local _ .vmem, ⟨12, _⟩ => ⟨S128, .f32⟩
  | .local _ .vmem, ⟨13, _⟩ => ⟨S128, .f32⟩
  | .local _ .vmem, ⟨14, _⟩ => ⟨S384x128, .f32⟩
  | .local _ .vmem, ⟨15, _⟩ => ⟨S128, .f32⟩
  | .local _ .vmem, ⟨16, _⟩ => ⟨S128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S128, .f32⟩
  | .local _ .vmem, ⟨26, _⟩ => ⟨S128, .f32⟩
  | .local _ .vmem, ⟨27, _⟩ => ⟨S128x128, .f32⟩
  | .local _ .vmem, ⟨28, _⟩ => ⟨S128, .f32⟩
  | .local _ .vmem, ⟨29, _⟩ => ⟨S128, .f32⟩
  | .local _ .vmem, ⟨30, _⟩ => ⟨S5000x128, .f32⟩
  | .local _ .vmem, ⟨31, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_3 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_c_5 : Ref sig .tc := ⟨.hbm, 52, rfl⟩
abbrev main_v22 : Ref sig .tc := ⟨.hbm, 53, rfl⟩
abbrev main_v23 : Ref sig .tc := ⟨.hbm, 54, rfl⟩
abbrev main_c_6 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst : Ref sig .tc := ⟨.hbm, 62, rfl⟩
abbrev main_v30 : Ref sig .tc := ⟨.hbm, 63, rfl⟩
abbrev main_c_7 : Ref sig .tc := ⟨.hbm, 64, rfl⟩
abbrev main_v31 : Ref sig .tc := ⟨.hbm, 65, rfl⟩
abbrev main_v32 : Ref sig .tc := ⟨.hbm, 66, rfl⟩
abbrev main_c_8 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg8_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem8_1 : DmaSem sig := 31

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S5000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  slices_S5000x2_o0_1_S5000x1 : S5000x2.Slices ![0, 1] S5000x1
  inb_S2x128_S1x128_0_0 : ∀ a, (![0, 0] : Fin 2 → Nat) a + S1x128.size a ≤ S2x128.size a
  h_S1x128 : 0 < S1x128.numel
  inb_S2x128_S1x128_1_0 : ∀ a, (![1, 0] : Fin 2 → Nat) a + S1x128.size a ≤ S2x128.size a
  broadcasts_S5000x1_S5000x128 : S5000x1.Broadcasts S5000x128
  broadcasts_S1x128_S5000x128 : S1x128.Broadcasts S5000x128
  inb_S128_S128_0 : ∀ a, (![0] : Fin 1 → Nat) a + S128.size a ≤ S128.size a
  h_S128 : 0 < S128.numel
  shapeCasts_S128_S1x128 : S128.ShapeCasts S1x128
  inb_S128x128_S128x128_0_0 : ∀ a, (![0, 0] : Fin 2 → Nat) a + S128x128.size a ≤ S128x128.size a
  h_S128x128 : 0 < S128x128.numel
  reduces_S5000x128_S5000 : S5000x128.Reduces [1] S5000
  shapeCasts_S5000_S5000x1 : S5000.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S384x128_S128x128_0_0 : ∀ a, (![0, 0] : Fin 2 → Nat) a + S128x128.size a ≤ S384x128.size a
  inb_S384x128_S128x128_128_0 : ∀ a, (![128, 0] : Fin 2 → Nat) a + S128x128.size a ≤ S384x128.size a
  inb_S384x128_S128x128_256_0 : ∀ a, (![256, 0] : Fin 2 → Nat) a + S128x128.size a ≤ S384x128.size a
  bcast_S_S50000x128 : S_.BroadcastsInDim S50000x128 (![] : Fin 0 → Fin S50000x128.rank)
  gather_S50000x2_S500000x1_S500000x2_1_0_n_n_0_1_12_wf : GatherDims.WF S50000x2 S500000x1 S500000x2 [1] [0] [] [0] [] 1 ![1, 2]
  gather_S50000x128_S500000x1_S500000x128_1_0_n_n_0_1_1128_wf : GatherDims.WF S50000x128 S500000x1 S500000x128 [1] [0] [] [0] [] 1 ![1, 128]
  dot_S5000x128_S128x128_S5000x128_1_0_0_1_n_n_wf : DotDims.WF S5000x128 S128x128 S5000x128 [1] [0] [0] [1] [] []
  scatter_S50000x128_S500000x1_S500000x128_1_0_0_1_wf : ScatterDims.WF S50000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S500000x2.size a
  hwx0_0 : ∀ i : grid0.Coords, EltTy.bits .f32 = 32 ∨ (Rect.block (s := S500000x2) S5000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S500000x128.size a
  hwx0_2 : ∀ i : grid0.Coords, EltTy.bits .f32 = 32 ∨ (Rect.block (s := S500000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x128.size a
  hwx0_3 : ∀ i : grid0.Coords, EltTy.bits .f32 = 32 ∨ (Rect.block (s := S2x128) S2x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S384x128.size a ≤ S384x128.size a
  hwx0_11 : ∀ i : grid0.Coords, EltTy.bits .f32 = 32 ∨ (Rect.block (s := S384x128) S384x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .f32 = 32 ∨ (Rect.block (s := S128x128) S128x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S5000x128.size a ≤ S500000x128.size a
  hwx0_15 : ∀ i : grid0.Coords, EltTy.bits .f32 = 32 ∨ (Rect.block (s := S500000x128) S5000x128.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S50000x128.size a
  hwx1_8 : ∀ i : grid1.Coords, EltTy.bits .f32 = 32 ∨ (Rect.block (s := S50000x128) S5000x128.size (cc1_transform_8 i) (hinb1_8 i)).WholeWords (EltTy.packing .f32)

variable [Facts₀]

def gather_S50000x2_S500000x1_S500000x2_1_0_n_n_0_1_12 : GatherDims S50000x2 S500000x1 S500000x2 where
  offsetDims := [1]
  collapsedSliceDims := [0]
  operandBatchingDims := []
  startIndicesBatchingDims := []
  startIndexMap := [0]
  indexVectorDim := 1
  sliceSizes := ![1, 2]
  wf := gather_S50000x2_S500000x1_S500000x2_1_0_n_n_0_1_12_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

abbrev win0_0 : Pipeline.Window sig grid0 :=
  Pipeline.Window.ofSpec (Memref.whole main_v14) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S2x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S384x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg15) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg16) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg17) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v29) S5000x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg18) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg19) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg20) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg21) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg22) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg23) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v38) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x2 : Shape := ⟨2, ![50000, 2]⟩
abbrev S500000 : Shape := ⟨1, ![500000]⟩
abbrev S2x128 : Shape := ⟨2, ![2, 128]⟩
abbrev S128 : Shape := ⟨1, ![128]⟩
abbrev S128x128 : Shape := ⟨2, ![128, 128]⟩
abbrev S384x128 : Shape := ⟨2, ![384, 128]⟩
abbrev S_ : Shape := ⟨0, ![]⟩
abbrev S500000x1 : Shape := ⟨2, ![500000, 1]⟩
abbrev S500000x2 : Shape := ⟨2, ![500000, 2]⟩
abbrev S500000x128 : Shape := ⟨2, ![500000, 128]⟩
abbrev S1x128 : Shape := ⟨2, ![1, 128]⟩
abbrev S500000x384 : Shape := ⟨2, ![500000, 384]⟩
abbrev S50000 : Shape := ⟨1, ![50000]⟩
abbrev S50000x1 : Shape := ⟨2, ![50000, 1]⟩

abbrev nBuf : Space → Nat
  | .hbm => 245
  | .vmem => 0
  | .smem => 0
  | _ => 0

abbrev hbmTy0_0 (i : Nat) : BufTy := match i % 128 with
  | 0 => ⟨S50000x128, .f32⟩
  | 1 => ⟨S50000x128, .f32⟩
  | 2 => ⟨S50000x2, .f32⟩
  | 3 => ⟨S50000x2, .f32⟩
  | 4 => ⟨S500000, .i32⟩
  | 5 => ⟨S500000, .i32⟩
  | 6 => ⟨S2x128, .f32⟩
  | 7 => ⟨S128, .f32⟩
  | 8 => ⟨S128x128, .f32⟩
  | 9 => ⟨S128, .f32⟩
  | 10 => ⟨S128, .f32⟩
  | 11 => ⟨S128x128, .f32⟩
  | 12 => ⟨S128, .f32⟩
  | 13 => ⟨S128, .f32⟩
  | 14 => ⟨S384x128, .f32⟩
  | 15 => ⟨S128, .f32⟩
  | 16 => ⟨S128, .f32⟩
  | 17 => ⟨S128x128, .f32⟩
  | 18 => ⟨S128x128, .f32⟩
  | 19 => ⟨S128, .f32⟩
  | 20 => ⟨S128, .f32⟩
  | 21 => ⟨S128x128, .f32⟩
  | 22 => ⟨S128, .f32⟩
  | 23 => ⟨S128, .f32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S500000x2, .f32⟩
  | 33 => ⟨S_, .i32⟩
  | 34 => ⟨S500000, .i32⟩
  | 35 => ⟨S500000, .i1⟩
  | 36 => ⟨S_, .i32⟩
  | 37 => ⟨S500000, .i32⟩
  | 38 => ⟨S500000, .i32⟩
  | 39 => ⟨S500000, .i32⟩
  | 40 => ⟨S500000x1, .i32⟩
  | 41 => ⟨S500000x2, .f32⟩
  | 42 => ⟨S500000x2, .f32⟩
  | 43 => ⟨S500000x128, .f32⟩
  | 44 => ⟨S1x128, .f32⟩
  | 45 => ⟨S500000x128, .f32⟩
  | 46 => ⟨S500000x128, .f32⟩
  | 47 => ⟨S_, .f32⟩
  | 48 => ⟨S500000x128, .f32⟩
  | 49 => ⟨S500000x128, .f32⟩
  | 50 => ⟨S500000x128, .f32⟩
  | 51 => ⟨S_, .f32⟩
  | 52 => ⟨S500000, .f32⟩
  | 53 => ⟨S500000x1, .f32⟩
  | 54 => ⟨S_, .f32⟩
  | 55 => ⟨S500000x1, .f32⟩
  | 56 => ⟨S500000x1, .f32⟩
  | 57 => ⟨S500000x128, .f32⟩
  | 58 => ⟨S500000x128, .f32⟩
  | 59 => ⟨S500000x128, .f32⟩
  | 60 => ⟨S_, .f32⟩
  | 61 => ⟨S500000, .f32⟩
  | 62 => ⟨S500000x1, .f32⟩
  | 63 => ⟨S_, .f32⟩
  | 64 => ⟨S500000x1, .f32⟩
  | 65 => ⟨S500000x1, .f32⟩
  | 66 => ⟨S500000x128, .f32⟩
  | 67 => ⟨S500000x128, .f32⟩
  | 68 => ⟨S_, .f32⟩
  | 69 => ⟨S500000x1, .f32⟩
  | 70 => ⟨S500000x1, .f32⟩
  | 71 => ⟨S500000x1, .f32⟩
  | 72 => ⟨S500000x128, .f32⟩
  | 73 => ⟨S500000x128, .f32⟩
  | 74 => ⟨S1x128, .f32⟩
  | 75 => ⟨S500000x128, .f32⟩
  | 76 => ⟨S500000x128, .f32⟩
  | 77 => ⟨S1x128, .f32⟩
  | 78 => ⟨S500000x128, .f32⟩
  | 79 => ⟨S500000x128, .f32⟩
  | 80 => ⟨S_, .f32⟩
  | 81 => ⟨S500000x128, .f32⟩
  | 82 => ⟨S500000x128, .f32⟩
  | 83 => ⟨S_, .i32⟩
  | 84 => ⟨S500000, .i32⟩
  | 85 => ⟨S500000, .i1⟩
  | 86 => ⟨S_, .i32⟩
  | 87 => ⟨S500000, .i32⟩
  | 88 => ⟨S500000, .i32⟩
  | 89 => ⟨S500000, .i32⟩
  | 90 => ⟨S500000x1, .i32⟩
  | 91 => ⟨S500000x128, .f32⟩
  | 92 => ⟨S500000x128, .f32⟩
  | 93 => ⟨S_, .f32⟩
  | 94 => ⟨S500000, .f32⟩
  | 95 => ⟨S500000x1, .f32⟩
  | 96 => ⟨S_, .f32⟩
  | 97 => ⟨S500000x1, .f32⟩
  | 98 => ⟨S500000x1, .f32⟩
  | 99 => ⟨S500000x128, .f32⟩
  | 100 => ⟨S500000x128, .f32⟩
  | 101 => ⟨S500000x128, .f32⟩
  | 102 => ⟨S_, .f32⟩
  | 103 => ⟨S500000, .f32⟩
  | 104 => ⟨S500000x1, .f32⟩
  | 105 => ⟨S_, .f32⟩
  | 106 => ⟨S500000x1, .f32⟩
  | 107 => ⟨S500000x1, .f32⟩
  | 108 => ⟨S500000x128, .f32⟩
  | 109 => ⟨S500000x128, .f32⟩
  | 110 => ⟨S_, .f32⟩
  | 111 => ⟨S500000x1, .f32⟩
  | 112 => ⟨S500000x1, .f32⟩
  | 113 => ⟨S500000x1, .f32⟩
  | 114 => ⟨S500000x128, .f32⟩
  | 115 => ⟨S500000x128, .f32⟩
  | 116 => ⟨S1x128, .f32⟩
  | 117 => ⟨S500000x128, .f32⟩
  | 118 => ⟨S500000x128, .f32⟩
  | 119 => ⟨S1x128, .f32⟩
  | 120 => ⟨S500000x128, .f32⟩
  | 121 => ⟨S500000x128, .f32⟩
  | 122 => ⟨S_, .f32⟩
  | 123 => ⟨S500000x128, .f32⟩
  | 124 => ⟨S500000x128, .f32⟩
  | 125 => ⟨S_, .i32⟩
  | 126 => ⟨S500000, .i32⟩
  | 127 => ⟨S500000, .i1⟩
  | _ => ⟨S50000x128, .f32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x128, .f32⟩
  | 6 => ⟨S500000x384, .f32⟩
  | 7 => ⟨S500000x128, .f32⟩
  | 8 => ⟨S_, .f32⟩
  | 9 => ⟨S500000, .f32⟩
  | 10 => ⟨S500000x1, .f32⟩
  | 11 => ⟨S_, .f32⟩
  | 12 => ⟨S500000x1, .f32⟩
  | 13 => ⟨S500000x1, .f32⟩
  | 14 => ⟨S500000x128, .f32⟩
  | 15 => ⟨S500000x128, .f32⟩
  | 16 => ⟨S500000x128, .f32⟩
  | 17 => ⟨S_, .f32⟩
  | 18 => ⟨S500000, .f32⟩
  | 19 => ⟨S500000x1, .f32⟩
  | 20 => ⟨S_, .f32⟩
  | 21 => ⟨S500000x1, .f32⟩
  | 22 => ⟨S500000x1, .f32⟩
  | 23 => ⟨S500000x128, .f32⟩
  | 24 => ⟨S500000x128, .f32⟩
  | 25 => ⟨S_, .f32⟩
  | 26 => ⟨S500000x1, .f32⟩
  | 27 => ⟨S500000x1, .f32⟩
  | 28 => ⟨S500000x1, .f32⟩
  | 29 => ⟨S500000x128, .f32⟩
  | 30 => ⟨S500000x128, .f32⟩
  | 31 => ⟨S1x128, .f32⟩
  | 32 => ⟨S500000x128, .f32⟩
  | 33 => ⟨S500000x128, .f32⟩
  | 34 => ⟨S1x128, .f32⟩
  | 35 => ⟨S500000x128, .f32⟩
  | 36 => ⟨S500000x128, .f32⟩
  | 37 => ⟨S_, .f32⟩
  | 38 => ⟨S500000x128, .f32⟩
  | 39 => ⟨S500000x128, .f32⟩
  | 40 => ⟨S500000x128, .f32⟩
  | 41 => ⟨S50000x128, .f32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S50000x128, .f32⟩
  | 51 => ⟨S_, .f32⟩
  | 52 => ⟨S50000, .f32⟩
  | 53 => ⟨S50000x1, .f32⟩
  | 54 => ⟨S_, .f32⟩
  | 55 => ⟨S50000x1, .f32⟩
  | 56 => ⟨S50000x1, .f32⟩
  | 57 => ⟨S50000x128, .f32⟩
  | 58 => ⟨S50000x128, .f32⟩
  | 59 => ⟨S50000x128, .f32⟩
  | 60 => ⟨S_, .f32⟩
  | 61 => ⟨S50000, .f32⟩
  | 62 => ⟨S50000x1, .f32⟩
  | 63 => ⟨S_, .f32⟩
  | 64 => ⟨S50000x1, .f32⟩
  | 65 => ⟨S50000x1, .f32⟩
  | 66 => ⟨S50000x128, .f32⟩
  | 67 => ⟨S50000x128, .f32⟩
  | 68 => ⟨S_, .f32⟩
  | 69 => ⟨S50000x1, .f32⟩
  | 70 => ⟨S50000x1, .f32⟩
  | 71 => ⟨S50000x1, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S50000x128, .f32⟩
  | 84 => ⟨S_, .f32⟩
  | 85 => ⟨S50000, .f32⟩
  | 86 => ⟨S50000x1, .f32⟩
  | 87 => ⟨S_, .f32⟩
  | 88 => ⟨S50000x1, .f32⟩
  | 89 => ⟨S50000x1, .f32⟩
  | 90 => ⟨S50000x128, .f32⟩
  | 91 => ⟨S50000x128, .f32⟩
  | 92 => ⟨S50000x128, .f32⟩
  | 93 => ⟨S_, .f32⟩
  | 94 => ⟨S50000, .f32⟩
  | 95 => ⟨S50000x1, .f32⟩
  | 96 => ⟨S_, .f32⟩
  | 97 => ⟨S50000x1, .f32⟩
  | 98 => ⟨S50000x1, .f32⟩
  | 99 => ⟨S50000x128, .f32⟩
  | 100 => ⟨S50000x128, .f32⟩
  | 101 => ⟨S_, .f32⟩
  | 102 => ⟨S50000x1, .f32⟩
  | 103 => ⟨S50000x1, .f32⟩
  | 104 => ⟨S50000x1, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S50000x128, .f32⟩
  | 114 => ⟨S_, .f32⟩
  | 115 => ⟨S50000x128, .f32⟩
  | 116 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_v0 : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_c_2 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_call0_cst : Ref sig .tc := ⟨.hbm, 47, rfl⟩
abbrev main_call0_v0 : Ref sig .tc := ⟨.hbm, 48, rfl⟩
abbrev main_v19 : Ref sig .tc := ⟨.hbm, 49, rfl⟩
abbrev main_v20 : Ref sig .tc := ⟨.hbm, 50, rfl⟩
abbrev main_cst : Ref sig .tc := ⟨.hbm, 51, rfl⟩
abbrev main_v21 : Ref sig .tc := ⟨.hbm, 52, rfl⟩
abbrev main_v22 : Ref sig .tc := ⟨.hbm, 53, rfl⟩
abbrev main_cst_3 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_4 : Ref sig .tc := ⟨.hbm, 60, rfl⟩
abbrev main_v28 : Ref sig .tc := ⟨.hbm, 61, rfl⟩
abbrev main_v29 : Ref sig .tc := ⟨.hbm, 62, rfl⟩
abbrev main_cst_5 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_6 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_call1_cst : Ref sig .tc := ⟨.hbm, 80, rfl⟩
abbrev main_call1_v0 : Ref sig .tc := ⟨.hbm, 81, rfl⟩
abbrev main_v45 : Ref sig .tc := ⟨.hbm, 82, rfl⟩
abbrev main_c_7 : Ref sig .tc := ⟨.hbm, 83, rfl⟩
abbrev main_v46 : Ref sig .tc := ⟨.hbm, 84, rfl⟩
abbrev main_v47 : Ref sig .tc := ⟨.hbm, 85, rfl⟩
abbrev main_c_8 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_9 : Ref sig .tc := ⟨.hbm, 93, rfl⟩
abbrev main_v54 : Ref sig .tc := ⟨.hbm, 94, rfl⟩
abbrev main_v55 : Ref sig .tc := ⟨.hbm, 95, rfl⟩
abbrev main_cst_10 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_11 : Ref sig .tc := ⟨.hbm, 102, rfl⟩
abbrev main_v61 : Ref sig .tc := ⟨.hbm, 103, rfl⟩
abbrev main_v62 : Ref sig .tc := ⟨.hbm, 104, rfl⟩
abbrev main_cst_12 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_13 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_call2_cst : Ref sig .tc := ⟨.hbm, 122, rfl⟩
abbrev main_call2_v0 : Ref sig .tc := ⟨.hbm, 123, rfl⟩
abbrev main_v78 : Ref sig .tc := ⟨.hbm, 124, rfl⟩
abbrev main_c_14 : Ref sig .tc := ⟨.hbm, 125, rfl⟩
abbrev main_v79 : Ref sig .tc := ⟨.hbm, 126, rfl⟩
abbrev main_v80 : Ref sig .tc := ⟨.hbm, 127, rfl⟩
abbrev main_c_15 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_16 : Ref sig .tc := ⟨.hbm, 136, rfl⟩
abbrev main_v88 : Ref sig .tc := ⟨.hbm, 137, rfl⟩
abbrev main_v89 : Ref sig .tc := ⟨.hbm, 138, rfl⟩
abbrev main_cst_17 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_18 : Ref sig .tc := ⟨.hbm, 145, rfl⟩
abbrev main_v95 : Ref sig .tc := ⟨.hbm, 146, rfl⟩
abbrev main_v96 : Ref sig .tc := ⟨.hbm, 147, rfl⟩
abbrev main_cst_19 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_20 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_call3_cst : Ref sig .tc := ⟨.hbm, 165, rfl⟩
abbrev main_call3_v0 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_c_21 : Ref sig .tc := ⟨.hbm, 170, rfl⟩
abbrev main_v115 : Ref sig .tc := ⟨.hbm, 171, rfl⟩
abbrev main_v116 : Ref sig .tc := ⟨.hbm, 172, rfl⟩
abbrev main_c_22 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_cst_23 : Ref sig .tc := ⟨.hbm, 179, rfl⟩
abbrev main_v122 : Ref sig .tc := ⟨.hbm, 180, rfl⟩
abbrev main_v123 : Ref sig .tc := ⟨.hbm, 181, rfl⟩
abbrev main_cst_24 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_cst_25 : Ref sig .tc := ⟨.hbm, 188, rfl⟩
abbrev main_v129 : Ref sig .tc := ⟨.hbm, 189, rfl⟩
abbrev main_v130 : Ref sig .tc := ⟨.hbm, 190, rfl⟩
abbrev main_cst_26 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_cst_27 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_call4_cst : Ref sig .tc := ⟨.hbm, 208, rfl⟩
abbrev main_call4_v0 : Ref sig .tc := ⟨.hbm, 209, rfl⟩
abbrev main_v146 : Ref sig .tc := ⟨.hbm, 210, rfl⟩
abbrev main_v147 : Ref sig .tc := ⟨.hbm, 211, rfl⟩
abbrev main_cst_28 : Ref sig .tc := ⟨.hbm, 212, rfl⟩
abbrev main_v148 : Ref sig .tc := ⟨.hbm, 213, rfl⟩
abbrev main_v149 : Ref sig .tc := ⟨.hbm, 214, rfl⟩
abbrev main_cst_29 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_cst_30 : Ref sig .tc := ⟨.hbm, 221, rfl⟩
abbrev main_v155 : Ref sig .tc := ⟨.hbm, 222, rfl⟩
abbrev main_v156 : Ref sig .tc := ⟨.hbm, 223, rfl⟩
abbrev main_cst_31 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_cst_32 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_call5_cst : Ref sig .tc := ⟨.hbm, 242, rfl⟩
abbrev main_call5_v0 : Ref sig .tc := ⟨.hbm, 243, rfl⟩
abbrev main_v173 : Ref sig .tc := ⟨.hbm, 244, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  reducesTo_S500000x128_S500000_d1 : S500000x128.ReducesTo [1] S500000
  h_S_ : 0 < S_.numel
  bcast_S_S500000x1 : S_.BroadcastsInDim S500000x1 (![] : Fin 0 → Fin S500000x1.rank)
  bcast_S500000x1_S500000x128_0_1 : S500000x1.BroadcastsInDim S500000x128 (![0, 1] : Fin 2 → Fin S500000x128.rank)
  concatenates_S500000x128_S500000x128_S500000x128_S500000x384_d1 : Shape.Concatenates [S500000x128, S500000x128, S500000x128] S500000x384 1
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S50000x2_S500000x1_S500000x2_1_0_n_n_0_1_12_wf : GatherDims.WF S50000x2 S500000x1 S500000x2 [1] [0] [] [0] [] 1 ![1, 2]
  dot_S500000x2_S2x128_S500000x128_1_0_0_1_n_n_wf : DotDims.WF S500000x2 S2x128 S500000x128 [1] [0] [0] [1] [] []
  dot_S500000x128_S128x128_S500000x128_1_0_0_1_n_n_wf : DotDims.WF S500000x128 S128x128 S500000x128 [1] [0] [0] [1] [] []
  gather_S50000x128_S500000x1_S500000x128_1_0_n_n_0_1_1128_wf : GatherDims.WF S50000x128 S500000x1 S500000x128 [1] [0] [] [0] [] 1 ![1, 128]
  dot_S500000x384_S384x128_S500000x128_1_0_0_1_n_n_wf : DotDims.WF S500000x384 S384x128 S500000x128 [1] [0] [0] [1] [] []
  dot_S50000x128_S128x128_S50000x128_1_0_0_1_n_n_wf : DotDims.WF S50000x128 S128x128 S50000x128 [1] [0] [0] [1] [] []
  scatter_S50000x128_S500000x1_S500000x128_1_0_0_1_wf : ScatterDims.WF S50000x128 S500000x1 S500000x128 [1] [0] [0] 1

variable [Facts₀]

def gather_S50000x2_S500000x1_S500000x2_1_0_n_n_0_1_12 : GatherDims S50000x2 S500000x1 S500000x2 where
  offsetDims := [1]
  collapsedSliceDims := [0]
  operandBatchingDims := []
  startIndicesBatchingDims := []
  startIndexMap := [0]
  indexVectorDim := 1
  sliceSizes := ![1, 2]
  wf := gather_S50000x2_S500000x1_S500000x2_1_0_n_n_0_1_12_wf
def dot_S500000x2_S2x128_S500000x128_1_0_0_1_n_n : DotDims S500000x2 S2x128 S500000x128 where
  lhsContracting := [1]
  rhsContracting := [0]
  lhsNonContracting := [0]
  rhsNonContracting := [1]
  lhsBatch := []
  rhsBatch := []
  wf := dot_S500000x2_S2x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf

class Facts : Prop extends Facts₀ where

variable [Facts]
-- ==== Proof.LibNary3.lean ====
/-
  A host operation of three operands given as a literal family of references (a concatenation of three arrays): its
  result with each operand's contents read at its own reference, so that the rewriting of a host run goes on into the
  three operands. The library states this for four references; this is the same fact for three.
-/
import Idealize.ShloMosaic.Lib.StableHlo.Run

noncomputable section

namespace Cert.Nary3

open Idealize.ShloMosaic Idealize.ShloMosaic.StableHlo

variable {nD : Nat} {τ : Topo} {sig : RefSig} {Val : EltTy → Type}
variable {x a b y : Ref sig .tc}

/-- The result of an operation over the three references x, a, b, written to y: its function of the three contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference left out of the rewriting index, for use in one simplifier pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.Nary3

end
-- ==== Proof.Spec.lean ====
/-
  What both programs compute, on the extended reals, one row at a time.

  An edge e carries a distance row d (2 entries), an agent row a and a context row c (128 entries each). Its message
  is   lin (relu (gn (lin [e2 | q | c] Wc1) gc1 bc1)) Wc2   with
    e1 = relu (lin d Wd1 + bd1),  e2 = relu (gn (lin e1 Wd2) gd2 bd2),  q = relu (gn (lin a Wq) gq bq),
  where lin x W j = sum over k of x k * W k j, and gn normalises a row of 128 entries by its mean and variance
  (divisor 128, epsilon the f32 word of 1e-5, both kept as their words), then scales by g and shifts by b.
  A node n with agent row x and received sum s (the messages of the edges that name n, added up) ends at
    relu (gn (lin (relu (gn (lin x Wa + s) gn bn)) Wl) gl bl + x).
  The one law used between the two programs' arrangements is that a sum over 384 joined entries is the sum of the three
  sums over 128 entries: addition on the extended reals is commutative and associative, so no finiteness is needed.
-/
import Idealize.ShloMosaic.PureOps.Ideal
import Idealize.ShloMosaic.Lib.ValueIdx

noncomputable section

open scoped BigOperators

namespace Cert.Spec

open Idealize.ShloMosaic Idealize.ShloMosaic.ValueIdx

/-- The divisor 128 and the epsilon, as the programs' f32 words read at Ideal (never evaluated). -/
abbrev c128 : EReal := Ideal.ofBits .f32 0x43000000#32
abbrev ceps : EReal := Ideal.ofBits .f32 0x3727C5AC#32

/-- max with zero. -/
def relu (x : EReal) : EReal := max x 0

/-- A row times a matrix of 128 columns, at column j. -/
def lin {K : Nat} (x : Fin K → EReal) (W : Fin K → Fin 128 → EReal) (j : Fin 128) : EReal := ∑ k : Fin K, x k * W k j

/-- The mean of a row of 128 entries. -/
def mean (x : Fin 128 → EReal) : EReal := Ideal.div (∑ k : Fin 128, x k) c128

/-- Its variance about that mean. -/
def var (x : Fin 128 → EReal) : EReal := Ideal.div (∑ k : Fin 128, (x k - mean x) * (x k - mean x)) c128

/-- The row normalised, scaled by g and shifted by b. -/
def gn (x g b : Fin 128 → EReal) (j : Fin 128) : EReal :=
  (x j - mean x) * Ideal.rsqrt (var x + ceps) * g j + b j

/-- Three rows of 128 entries joined into one of 384. -/
def cat3 (a b c : Fin 128 → EReal) (k : Fin 384) : EReal :=
  if h : k.val < 128 then a ⟨k.val, h⟩
  else if h2 : k.val < 256 then b ⟨k.val - 128, by omega⟩
  else c ⟨k.val - 256, by omega⟩

/-- Rows 0..127, 128..255, 256..383 of a matrix of 384 rows. -/
def top (W : Fin 384 → Fin 128 → EReal) : Fin 128 → Fin 128 → EReal := fun k j => W ⟨k.val, by omega⟩ j
def mid (W : Fin 384 → Fin 128 → EReal) : Fin 128 → Fin 128 → EReal := fun k j => W ⟨k.val + 128, by omega⟩ j
def bot (W : Fin 384 → Fin 128 → EReal) : Fin 128 → Fin 128 → EReal := fun k j => W ⟨k.val + 256, by omega⟩ j

/-- The joined row times the tall matrix is the sum of the three products. -/
theorem lin_cat3 (a b c : Fin 128 → EReal) (W : Fin 384 → Fin 128 → EReal) (j : Fin 128) :
    lin (cat3 a b c) W j = lin a (top W) j + lin b (mid W) j + lin c (bot W) j := by
  unfold lin
  have e : (∑ k : Fin 384, cat3 a b c k * W k j)
      = ∑ k : Fin (128 + 128 + 128), cat3 a b c ⟨k.val, by omega⟩ * W ⟨k.val, by omega⟩ j := rfl
  rw [e, Fin.sum_univ_add, Fin.sum_univ_add]
  refine congrArg₂ (· + ·) (congrArg₂ (· + ·) ?_ ?_) ?_
  · refine Finset.sum_congr rfl fun k _ => ?_
    have hk : k.val < 128 := k.isLt
    simp only [cat3, top, Fin.val_castAdd, dif_pos hk]
  · refine Finset.sum_congr rfl fun k _ => ?_
    have hk : k.val < 128 := k.isLt
    have h1 : ¬ (128 + k.val < 128) := by omega
    have h2 : 128 + k.val < 256 := by omega
    simp only [cat3, mid, Fin.val_castAdd, Fin.val_natAdd, dif_neg h1, dif_pos h2]
    congr 2 <;> first | (apply Fin.ext; simp only []; omega) | (apply Fin.ext; show 128 + k.val - 128 = k.val; omega)
  · refine Finset.sum_congr rfl fun k _ => ?_
    have hk : k.val < 128 := k.isLt
    have h1 : ¬ (128 + 128 + k.val < 128) := by omega
    have h2 : ¬ (128 + 128 + k.val < 256) := by omega
    simp only [cat3, bot, Fin.val_natAdd, dif_neg h1, dif_neg h2]
    congr 2 <;> (apply Fin.ext; simp only []; omega)

/-- A product with a matrix of two rows is the two terms. -/
theorem lin_two (d : Fin 2 → EReal) (W : Fin 2 → Fin 128 → EReal) (j : Fin 128) :
    lin d W j = d 0 * W 0 j + d 1 * W 1 j := by
  unfold lin; exact Fin.sum_univ_two _

/-- The message of one edge, at column j. -/
def msgRow (d : Fin 2 → EReal) (a c : Fin 128 → EReal)
    (Wd1 : Fin 2 → Fin 128 → EReal) (bd1 : Fin 128 → EReal)
    (Wd2 : Fin 128 → Fin 128 → EReal) (gd2 bd2 : Fin 128 → EReal)
    (Wq : Fin 128 → Fin 128 → EReal) (gq bq : Fin 128 → EReal)
    (Wc1 : Fin 384 → Fin 128 → EReal) (gc1 bc1 : Fin 128 → EReal)
    (Wc2 : Fin 128 → Fin 128 → EReal) (j : Fin 128) : EReal :=
  lin (fun k => relu (gn (fun k' =>
        lin (fun k'' => relu (gn (lin (fun k''' => relu (d 0 * Wd1 0 k''' + d 1 * Wd1 1 k''' + bd1 k''')) Wd2) gd2 bd2 k'')) (top Wc1) k'
        + lin (fun k'' => relu (gn (lin a Wq) gq bq k'')) (mid Wc1) k'
        + lin c (bot Wc1) k') gc1 bc1 k)) Wc2 j

/-- What a node ends at, from its agent row x and the sum s of the messages it received, at column j. -/
def finRow (x s : Fin 128 → EReal)
    (Wa : Fin 128 → Fin 128 → EReal) (gn_ bn : Fin 128 → EReal)
    (Wl : Fin 128 → Fin 128 → EReal) (gl bl : Fin 128 → EReal) (j : Fin 128) : EReal :=
  relu (gn (lin (fun k => relu (gn (fun k' => lin x Wa k' + s k') gn_ bn k)) Wl) gl bl j + x j)

/-! ## Whole arrays -/

/-- Row r of an array of two axes, a matrix by its entries, a vector by its entries. -/
abbrev row {N D : Nat} (A : (⟨2, ![N, D]⟩ : Shape).Idx → EReal) (r : Fin N) : Fin D → EReal := fun k => A (ix2 r k)
abbrev mat {K D : Nat} (W : (⟨2, ![K, D]⟩ : Shape).Idx → EReal) : Fin K → Fin D → EReal := fun k j => W (ix2 k j)
abbrev vec {D : Nat} (g : (⟨1, ![D]⟩ : Shape).Idx → EReal) : Fin D → EReal := fun j => g (ix1 j)

/-- The messages of all E edges: row e from rows e of the gathered distances, agents and contexts. -/
def MSG {E : Nat} (D : (⟨2, ![E, 2]⟩ : Shape).Idx → EReal) (A C : (⟨2, ![E, 128]⟩ : Shape).Idx → EReal)
    (Wd1 : (⟨2, ![2, 128]⟩ : Shape).Idx → EReal) (bd1 : (⟨1, ![128]⟩ : Shape).Idx → EReal)
    (Wd2 : (⟨2, ![128, 128]⟩ : Shape).Idx → EReal) (gd2 bd2 : (⟨1, ![128]⟩ : Shape).Idx → EReal)
    (Wq : (⟨2, ![128, 128]⟩ : Shape).Idx → EReal) (gq bq : (⟨1, ![128]⟩ : Shape).Idx → EReal)
    (Wc1 : (⟨2, ![384, 128]⟩ : Shape).Idx → EReal) (gc1 bc1 : (⟨1, ![128]⟩ : Shape).Idx → EReal)
    (Wc2 : (⟨2, ![128, 128]⟩ : Shape).Idx → EReal) : (⟨2, ![E, 128]⟩ : Shape).Idx → EReal :=
  fun i => msgRow (row D (i 0)) (row A (i 0)) (row C (i 0)) (mat Wd1) (vec bd1) (mat Wd2) (vec gd2) (vec bd2)
    (mat Wq) (vec gq) (vec bq) (mat Wc1) (vec gc1) (vec bc1) (mat Wc2) (i 1)

/-- What node r receives at column b: the sum, over the edges k whose row number (entry k of the column of row numbers,
    read signed) is r, of entry b of message row k. -/
def SCAT {E N : Nat} (idx : (⟨2, ![E, 1]⟩ : Shape).Idx → BitVec 32) (U : (⟨2, ![E, 128]⟩ : Shape).Idx → EReal) :
    (⟨2, ![N, 128]⟩ : Shape).Idx → EReal :=
  fun i => ∑ k ∈ Finset.univ.filter (fun k : Fin E => (idx (ix2 k 0)).toInt = (((i 0 : Fin N)).val : Int)), U (ix2 k (i 1))

/-- All N nodes' results. -/
def FIN {N : Nat} (X S : (⟨2, ![N, 128]⟩ : Shape).Idx → EReal)
    (Wa : (⟨2, ![128, 128]⟩ : Shape).Idx → EReal) (gn_ bn : (⟨1, ![128]⟩ : Shape).Idx → EReal)
    (Wl : (⟨2, ![128, 128]⟩ : Shape).Idx → EReal) (gl bl : (⟨1, ![128]⟩ : Shape).Idx → EReal) :
    (⟨2, ![N, 128]⟩ : Shape).Idx → EReal :=
  fun i => finRow (row X (i 0)) (row S (i 0)) (mat Wa) (vec gn_) (vec bn) (mat Wl) (vec gl) (vec bl) (i 1)

/-- The whole computation, from the agents, the three gathered edge arrays, the column of row numbers and the weights. -/
def OUT {E N : Nat} (X : (⟨2, ![N, 128]⟩ : Shape).Idx → EReal)
    (D : (⟨2, ![E, 2]⟩ : Shape).Idx → EReal) (A C : (⟨2, ![E, 128]⟩ : Shape).Idx → EReal)
    (idx : (⟨2, ![E, 1]⟩ : Shape).Idx → BitVec 32)
    (Wd1 : (⟨2, ![2, 128]⟩ : Shape).Idx → EReal) (bd1 : (⟨1, ![128]⟩ : Shape).Idx → EReal)
    (Wd2 : (⟨2, ![128, 128]⟩ : Shape).Idx → EReal) (gd2 bd2 : (⟨1, ![128]⟩ : Shape).Idx → EReal)
    (Wq : (⟨2, ![128, 128]⟩ : Shape).Idx → EReal) (gq bq : (⟨1, ![128]⟩ : Shape).Idx → EReal)
    (Wc1 : (⟨2, ![384, 128]⟩ : Shape).Idx → EReal) (gc1 bc1 : (⟨1, ![128]⟩ : Shape).Idx → EReal)
    (Wc2 : (⟨2, ![128, 128]⟩ : Shape).Idx → EReal)
    (Wa : (⟨2, ![128, 128]⟩ : Shape).Idx → EReal) (gn_ bn : (⟨1, ![128]⟩ : Shape).Idx → EReal)
    (Wl : (⟨2, ![128, 128]⟩ : Shape).Idx → EReal) (gl bl : (⟨1, ![128]⟩ : Shape).Idx → EReal) :
    (⟨2, ![N, 128]⟩ : Shape).Idx → EReal :=
  FIN X (SCAT idx (MSG D A C Wd1 bd1 Wd2 gd2 bd2 Wq gq bq Wc1 gc1 bc1 Wc2)) Wa gn_ bn Wl gl bl

end Cert.Spec

end
-- ==== Proof.EdgePay.lean ====
/- The edge kernel's body at one entry of its output block: the message of the block's row, from the same rows of the three edge blocks and the weights. -/
import proofs.«420649_j32882269618299_3_alg».proof.Proof.Gen.KernelIdeal.Frame
import proofs.«420649_j32882269618299_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgePay

open Cert.KernelIdeal Cert.KernelIdeal.Gen Idealize.ShloMosaic Idealize.ShloMosaic.TcCoe Idealize.SL.Sem Idealize.ShloMosaic.ValueIdx
open Idealize.ShloMosaic.Pipeline (Dat Cfg Window)
open scoped BigOperators

/-! ## Layout operations read at an entry, over variables -/

section Layout
variable {α : Type}

/-- A vector of `a` entries cast to a column `[a, 1]` reads, at `(p, u)`, entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, q)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A load through the rectangle of `m` whole rows from row `o` reads, at `(a, b)`, the array at `(o + a, b)`. -/
theorem ld_rows_apply {Val : EltTy → Type} {e : EltTy} {n0 n1 m : ℕ} (o : ℕ) (X : (⟨2, ![n0, n1]⟩ : Shape).Idx → Val e)
    (inb : ∀ ax, (![o, 0] : Fin 2 → ℕ) ax + (⟨2, ![m, n1]⟩ : Shape).size ax ≤ (⟨2, ![n0, n1]⟩ : Shape).size ax)
    (a : Fin m) (b : Fin n1) (k : Fin n0) (hk : k.val = o + a.val) :
    View.ld X (Rect.unit (s := ⟨2, ![n0, n1]⟩) ![o, 0] (⟨2, ![m, n1]⟩ : Shape).size inb) (ix2 a b) = X (ix2 k b) := by
  show X _ = X _
  refine congrArg X (funext fun ax => Fin.ext ?_)
  match ax with
  | ⟨0, _⟩ => show o + 1 * a.val = k.val; omega
  | ⟨1, _⟩ => show 0 + 1 * b.val = b.val; omega

end Layout

/-! ## A lane sum and a product with a square matrix, read at an entry -/

/-- The sum over the lanes of a block of 128 columns, at row `p`, is the sum of the row's 128 entries. -/
theorem laneSum_apply (v : FVec Ideal S5000x128 .f32) (h : S5000x128.Reduces [1] S5000) (hφ : FKind.Formats .f32)
    (hacc : (0x00000000#32 : BitVec 32) = FKind.add.neutral .f32 hφ) (p : Fin 5000) :
    multiReduction (F := Ideal) .add [1] S5000 v 0x00000000#32 h hφ hacc (ix1 p) = ∑ k : Fin 128, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- The product's operand indices at output index `i` and contraction index `q`, axis by axis: the left operand's are
    `(i 0, q)`, the right operand's `(q, i 1)`. -/
theorem lhs_prod_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_prod_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_prod_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_prod_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a block of 128 columns with a square matrix, accumulated into zero: at `(p, q)` the sum over `k` of
    the block's `(p, k)` times the matrix's `(k, q)`. -/
theorem matmul_pq (a : FVec Ideal S5000x128 .f32) (b : FVec Ideal S128x128 .f32) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ => exact lhs_prod_0 _ _
    | ⟨1, _⟩ => exact (lhs_prod_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (rhs_prod_0 _ _).trans hk
    | ⟨1, _⟩ => exact rhs_prod_1 _ _)
  rw [el, er]

/-! ## The body's stages as functions of blocks, each read at an entry -/

/-- The sum of each row's 128 entries, kept as a column. -/
def rowSum (v : FVec Ideal S5000x128 .f32) : FVec Ideal S5000x1 .f32 :=
  shapeCast S5000x1 (multiReduction .add [1] S5000 v 0x00000000#32 reduces_S5000x128_S5000 (.inl rfl) rfl) shapeCasts_S5000_S5000x1

theorem rowSum_apply (v : FVec Ideal S5000x128 .f32) (p : Fin 5000) (u : Fin 1) :
    rowSum v (ix2 p u) = ∑ k : Fin 128, v (ix2 p k) :=
  (shapeCast_a_a1_apply _ _ p u).trans (laneSum_apply v _ _ _ p)

/-- Each row's mean, as a column. -/
def meanCol (v : FVec Ideal S5000x128 .f32) : FVec Ideal S5000x1 .f32 :=
  divf (rowSum v) (broadcast S5000x1 (Scalar.ofBits (F := Ideal) .f32 0x43000000#32))

theorem meanCol_apply (v : FVec Ideal S5000x128 .f32) (p : Fin 5000) (u : Fin 1) :
    meanCol v (ix2 p u) = Spec.mean (fun k => v (ix2 p k)) := by
  show Ideal.div (rowSum v (ix2 p u)) (Ideal.ofBits .f32 0x43000000#32) = _
  rw [rowSum_apply]; rfl

/-- Each entry less its row's mean. -/
def centred (v : FVec Ideal S5000x128 .f32) : FVec Ideal S5000x128 .f32 :=
  subf v (broadcastTo S5000x128 (meanCol v) broadcasts_S5000x1_S5000x128)

theorem centred_apply (v : FVec Ideal S5000x128 .f32) (p : Fin 5000) (q : Fin 128) :
    centred v (ix2 p q) = v (ix2 p q) - Spec.mean (fun k => v (ix2 p k)) :=
  congrArg (v (ix2 p q) - ·) ((broadcastTo_a1_ab_apply _ _ p q).trans (meanCol_apply v p 0))

/-- Each row's variance about its mean, as a column. -/
def varCol (v : FVec Ideal S5000x128 .f32) : FVec Ideal S5000x1 .f32 :=
  divf (rowSum (mulf (centred v) (centred v))) (broadcast S5000x1 (Scalar.ofBits (F := Ideal) .f32 0x43000000#32))

theorem varCol_apply (v : FVec Ideal S5000x128 .f32) (p : Fin 5000) (u : Fin 1) :
    varCol v (ix2 p u) = Spec.var (fun k => v (ix2 p k)) := by
  show Ideal.div (rowSum (mulf (centred v) (centred v)) (ix2 p u)) (Ideal.ofBits .f32 0x43000000#32) = _
  rw [rowSum_apply]
  unfold Spec.var
  refine congrArg (fun s => Ideal.div s Spec.c128) (Finset.sum_congr rfl fun k _ => ?_)
  show centred v (ix2 p k) * centred v (ix2 p k) = _
  rw [centred_apply]

/-- Each row normalised by its mean and variance (not yet scaled or shifted). -/
def normed (v : FVec Ideal S5000x128 .f32) : FVec Ideal S5000x128 .f32 :=
  mulf (centred v) (broadcastTo S5000x128 (rsqrt (addf (varCol v) (broadcast S5000x1 (Scalar.ofBits (F := Ideal) .f32 0x3727C5AC#32)))) broadcasts_S5000x1_S5000x128)

theorem normed_apply (v : FVec Ideal S5000x128 .f32) (p : Fin 5000) (q : Fin 128) :
    normed v (ix2 p q)
      = (v (ix2 p q) - Spec.mean (fun k => v (ix2 p k))) * Ideal.rsqrt (Spec.var (fun k => v (ix2 p k)) + Spec.ceps) := by
  refine congrArg₂ (· * ·) (centred_apply v p q) ((broadcastTo_a1_ab_apply _ _ p q).trans ?_)
  show Ideal.rsqrt (varCol v (ix2 p 0) + Ideal.ofBits .f32 0x3727C5AC#32) = _
  rw [varCol_apply]

/-- A vector of 128 entries laid as a row over every row. -/
def overRows (g : FVec Ideal S128 .f32) : FVec Ideal S5000x128 .f32 :=
  broadcastTo S5000x128 (shapeCast S1x128 g shapeCasts_S128_S1x128) broadcasts_S1x128_S5000x128

theorem overRows_apply (g : FVec Ideal S128 .f32) (p : Fin 5000) (q : Fin 128) : overRows g (ix2 p q) = g (ix1 q) :=
  (broadcastTo_1b_ab_apply _ _ p q).trans (shapeCast_a_1a_apply g _ 0 q)

/-- Scaled by `g` and shifted by `b`, column by column. -/
def scaleShift (v : FVec Ideal S5000x128 .f32) (g b : FVec Ideal S128 .f32) : FVec Ideal S5000x128 .f32 :=
  addf (mulf v (overRows g)) (overRows b)

theorem scaleShift_apply (v : FVec Ideal S5000x128 .f32) (g b : FVec Ideal S128 .f32) (p : Fin 5000) (q : Fin 128) :
    scaleShift v g b (ix2 p q) = v (ix2 p q) * g (ix1 q) + b (ix1 q) :=
  congrArg₂ (· + ·) (congrArg (v (ix2 p q) * ·) (overRows_apply g p q)) (overRows_apply b p q)

/-- The scaled and shifted normalisation of a block is the group norm of each row. -/
theorem scaleShift_normed_apply (v : FVec Ideal S5000x128 .f32) (g b : FVec Ideal S128 .f32) (p : Fin 5000) (q : Fin 128) :
    scaleShift (normed v) g b (ix2 p q) = Spec.gn (fun k => v (ix2 p k)) (fun k => g (ix1 k)) (fun k => b (ix1 k)) q := by
  rw [scaleShift_apply, normed_apply]; rfl

/-- The larger of each entry and zero. -/
def reluB (v : FVec Ideal S5000x128 .f32) : FVec Ideal S5000x128 .f32 :=
  maximumf v (broadcast S5000x128 (Scalar.ofBits (F := Ideal) .f32 0x00000000#32))

theorem reluB_apply (v : FVec Ideal S5000x128 .f32) (i : S5000x128.Idx) : reluB v i = Spec.relu (v i) := by
  show max (v i) (Ideal.ofBits .f32 0x00000000#32) = max (v i) 0
  rw [Ideal.ofBits_zero_f32]

/-- The product with a square matrix. -/
def prod (a : FVec Ideal S5000x128 .f32) (b : FVec Ideal S128x128 .f32) : FVec Ideal S5000x128 .f32 :=
  matmul dot_S5000x128_S128x128_S5000x128_1_0_0_1_n_n none a b (constant (F := Ideal) S5000x128 .f32 0x00000000#32)

theorem prod_apply (a : FVec Ideal S5000x128 .f32) (b : FVec Ideal S128x128 .f32) (p : Fin 5000) (q : Fin 128) :
    prod a b (ix2 p q) = Spec.lin (fun k => a (ix2 p k)) (fun k j => b (ix2 k j)) q :=
  matmul_pq a b p q

/-- Column `c` of the block of two columns, laid over 128 columns. -/
theorem col_apply (v0 : FVec Ideal S5000x2 .f32) (o : ℕ) (c : Fin 2) (hc : c.val = o) (hcast : S5000x2.ShapeCasts S5000x2)
    (hs : S5000x2.Slices ![0, o] S5000x1) (hb : S5000x1.Broadcasts S5000x128) (p : Fin 5000) (q : Fin 128) :
    broadcastTo S5000x128 (extractStridedSlice S5000x1 ![0, o] (shapeCast S5000x2 v0 hcast) hs) hb (ix2 p q) = v0 (ix2 p c) := by
  refine (broadcastTo_a1_ab_apply _ hb p q).trans ?_
  refine (slice2_axis1_apply o _ hs p (0 : Fin 1) c (by rw [hc]; rfl)).trans ?_
  rw [shapeCast_self]

/-- The distance layer before its relu: the two distance columns times the two weight rows, plus the bias. -/
def distLayer (v0 : FVec Ideal S5000x2 .f32) (v4 v5 : FVec Ideal S1x128 .f32) (v13 : FVec Ideal S128 .f32) : FVec Ideal S5000x128 .f32 :=
  addf (addf
      (mulf (broadcastTo S5000x128 (extractStridedSlice S5000x1 ![0, 0] (shapeCast S5000x2 v0 shapeCasts_S5000x2_S5000x2) slices_S5000x2_o0_0_S5000x1) broadcasts_S5000x1_S5000x128)
        (broadcastTo S5000x128 v4 broadcasts_S1x128_S5000x128))
      (mulf (broadcastTo S5000x128 (extractStridedSlice S5000x1 ![0, 1] (shapeCast S5000x2 v0 shapeCasts_S5000x2_S5000x2) slices_S5000x2_o0_1_S5000x1) broadcasts_S5000x1_S5000x128)
        (broadcastTo S5000x128 v5 broadcasts_S1x128_S5000x128)))
    (overRows v13)

theorem distLayer_apply (v0 : FVec Ideal S5000x2 .f32) (v4 v5 : FVec Ideal S1x128 .f32) (v13 : FVec Ideal S128 .f32) (p : Fin 5000) (q : Fin 128) :
    distLayer v0 v4 v5 v13 (ix2 p q)
      = v0 (ix2 p 0) * v4 (ix2 (0 : Fin 1) q) + v0 (ix2 p 1) * v5 (ix2 (0 : Fin 1) q) + v13 (ix1 q) :=
  congrArg₂ (· + ·)
    (congrArg₂ (· + ·)
      (congrArg₂ (· * ·) (col_apply v0 0 0 rfl _ _ _ p q) (broadcastTo_1b_ab_apply v4 _ p q))
      (congrArg₂ (· * ·) (col_apply v0 1 1 rfl _ _ _ p q) (broadcastTo_1b_ab_apply v5 _ p q)))
    (overRows_apply v13 p q)

/-! ## The payloads as compositions of the stages -/

theorem k0_pay1_eq (v0 : Vec Ideal S5000x2 .f32) (v4 v5 : Vec Ideal S1x128 .f32) (v13 : Vec Ideal S128 .f32) (v19 : Vec Ideal S128x128 .f32) :
    k0_pay1 (F := Ideal) v0 v4 v5 v13 v19 = normed (prod (reluB (distLayer v0 v4 v5 v13)) v19) := rfl

theorem k0_pay2_eq (v21 v22 : Vec Ideal S128 .f32) (v40 : FVec Ideal S5000x128 .f32) :
    k0_pay2 (F := Ideal) v21 v22 v40 = reluB (scaleShift v40 v21 v22) := rfl

theorem k0_pay3_eq (v49 : Vec Ideal S5000x128 .f32) (v51 : Vec Ideal S128x128 .f32) (v53 v54 : Vec Ideal S128 .f32) :
    k0_pay3 (F := Ideal) v49 v51 v53 v54
      = reluB (scaleShift (normed (prod (shapeCast S5000x128 v49 shapeCasts_S5000x128_S5000x128) v51)) v53 v54) := rfl

theorem k0_pay4_eq (v81 : Vec Ideal S5000x128 .f32) : k0_pay4 (F := Ideal) v81 = v81 := by
  unfold k0_pay4; exact shapeCast_self _ _

theorem k0_pay5_eq (v48 v80 v82 : FVec Ideal S5000x128 .f32) (v83 v84 v85 : Vec Ideal S128x128 .f32) (v91 v92 : Vec Ideal S128 .f32)
    (v119 : Vec Ideal S128x128 .f32) :
    k0_pay5 (F := Ideal) v48 v80 v82 v83 v84 v85 v91 v92 v119
      = prod (reluB (scaleShift (normed (addf (addf (prod v48 v83) (prod v80 v84)) (prod v82 v85))) v91 v92)) v119 := rfl

/-! ## Each payload at an entry, from the rows it reads -/

/-- A row less its mean, over the root of its variance plus epsilon: the group norm before its scale and shift. -/
def normRow (x : Fin 128 → EReal) (j : Fin 128) : EReal := (x j - Spec.mean x) * Ideal.rsqrt (Spec.var x + Spec.ceps)

/-- The first payload at `(p, q)`: the distance layer of row `p`, its product with the second distance matrix, normalised. -/
theorem k0_pay1_apply (v0 : Vec Ideal S5000x2 .f32) (v4 v5 : Vec Ideal S1x128 .f32) (v13 : Vec Ideal S128 .f32) (v19 : Vec Ideal S128x128 .f32)
    (p : Fin 5000) (q : Fin 128) :
    k0_pay1 (F := Ideal) v0 v4 v5 v13 v19 (ix2 p q)
      = normRow (Spec.lin (fun k => Spec.relu (v0 (ix2 p 0) * v4 (ix2 (0 : Fin 1) k) + v0 (ix2 p 1) * v5 (ix2 (0 : Fin 1) k) + v13 (ix1 k)))
          (fun k j => v19 (ix2 k j))) q := by
  have hf : (fun k => prod (reluB (distLayer v0 v4 v5 v13)) v19 (ix2 p k))
      = Spec.lin (fun k => Spec.relu (v0 (ix2 p 0) * v4 (ix2 (0 : Fin 1) k) + v0 (ix2 p 1) * v5 (ix2 (0 : Fin 1) k) + v13 (ix1 k)))
          (fun k j => v19 (ix2 k j)) := funext fun k => by
    rw [prod_apply]
    refine congrArg (fun x => Spec.lin x _ k) (funext fun k' => ?_)
    rw [reluB_apply, distLayer_apply]
  rw [k0_pay1_eq, normed_apply, hf, congrFun hf q]
  rfl

/-- The second payload at `(p, q)`: scale, shift, relu of its operand's entry. -/
theorem k0_pay2_apply (v21 v22 : Vec Ideal S128 .f32) (v40 : FVec Ideal S5000x128 .f32) (p : Fin 5000) (q : Fin 128) :
    k0_pay2 (F := Ideal) v21 v22 v40 (ix2 p q) = Spec.relu (v40 (ix2 p q) * v21 (ix1 q) + v22 (ix1 q)) := by
  rw [k0_pay2_eq, reluB_apply, scaleShift_apply]

/-- The third payload at `(p, q)`: the query branch of row `p`. -/
theorem k0_pay3_apply (v49 : Vec Ideal S5000x128 .f32) (v51 : Vec Ideal S128x128 .f32) (v53 v54 : Vec Ideal S128 .f32)
    (p : Fin 5000) (q : Fin 128) :
    k0_pay3 (F := Ideal) v49 v51 v53 v54 (ix2 p q)
      = Spec.relu (Spec.gn (Spec.lin (fun k => v49 (ix2 p k)) (fun k j => v51 (ix2 k j))) (fun k => v53 (ix1 k)) (fun k => v54 (ix1 k)) q) := by
  have hf : (fun k => prod v49 v51 (ix2 p k)) = Spec.lin (fun k => v49 (ix2 p k)) (fun k j => v51 (ix2 k j)) :=
    funext fun k => prod_apply v49 v51 p k
  rw [k0_pay3_eq, reluB_apply, scaleShift_normed_apply, shapeCast_self, hf]

/-- The fifth payload at `(p, q)`: the three products with the row blocks of the tall matrix, summed, group norm, relu, the last
    product. -/
theorem k0_pay5_apply (v48 v80 v82 : FVec Ideal S5000x128 .f32) (v83 v84 v85 : Vec Ideal S128x128 .f32) (v91 v92 : Vec Ideal S128 .f32)
    (v119 : Vec Ideal S128x128 .f32) (p : Fin 5000) (q : Fin 128) :
    k0_pay5 (F := Ideal) v48 v80 v82 v83 v84 v85 v91 v92 v119 (ix2 p q)
      = Spec.lin (fun k => Spec.relu (Spec.gn (fun k' =>
            Spec.lin (fun k'' => v48 (ix2 p k'')) (fun a j => v83 (ix2 a j)) k'
            + Spec.lin (fun k'' => v80 (ix2 p k'')) (fun a j => v84 (ix2 a j)) k'
            + Spec.lin (fun k'' => v82 (ix2 p k'')) (fun a j => v85 (ix2 a j)) k') (fun a => v91 (ix1 a)) (fun a => v92 (ix1 a)) k))
          (fun a j => v119 (ix2 a j)) q := by
  rw [k0_pay5_eq, prod_apply]
  refine congrArg (fun x => Spec.lin x _ q) (funext fun k => ?_)
  rw [reluB_apply, scaleShift_normed_apply]
  refine congrArg (fun x => Spec.relu (Spec.gn x _ _ k)) (funext fun k' => ?_)
  show prod v48 v83 (ix2 p k') + prod v80 v84 (ix2 p k') + prod v82 v85 (ix2 p k') = _
  rw [prod_apply, prod_apply, prod_apply]

/-! ## The loads -/

theorem zeros1 : (![0] : Fin 1 → ℕ) = fun _ => 0 := funext fun a => by match a with | ⟨0, _⟩ => rfl
theorem zeros2 : (![0, 0] : Fin 2 → ℕ) = fun _ => 0 := funext fun a => by match a with | ⟨0, _⟩ => rfl | ⟨1, _⟩ => rfl

/-- The three loads of the tall matrix read its rows 0.., 128.., 256... -/
theorem ld_top (x11 : Vec Ideal S384x128 .f32) : (fun a j => View.ld x11 r0_6 (ix2 a j)) = Spec.top (Spec.mat x11) :=
  funext fun a => funext fun j => ld_rows_apply 0 x11 _ a j ⟨a.val, by omega⟩ (Nat.zero_add _).symm
theorem ld_mid (x11 : Vec Ideal S384x128 .f32) : (fun a j => View.ld x11 r0_7 (ix2 a j)) = Spec.mid (Spec.mat x11) :=
  funext fun a => funext fun j => ld_rows_apply 128 x11 _ a j ⟨a.val + 128, by omega⟩ (Nat.add_comm _ _)
theorem ld_bot (x11 : Vec Ideal S384x128 .f32) : (fun a j => View.ld x11 r0_8 (ix2 a j)) = Spec.bot (Spec.mat x11) :=
  funext fun a => funext fun j => ld_rows_apply 256 x11 _ a j ⟨a.val + 256, by omega⟩ (Nat.add_comm _ _)

/-- The two loads of the first distance matrix read its rows 0 and 1. -/
theorem ld_row0 (x3 : Vec Ideal S2x128 .f32) (j : Fin 128) : View.ld x3 r0_1 (ix2 (0 : Fin 1) j) = x3 (ix2 0 j) :=
  ld_rows_apply 0 x3 _ 0 j 0 rfl
theorem ld_row1 (x3 : Vec Ideal S2x128 .f32) (j : Fin 128) : View.ld x3 r0_2 (ix2 (0 : Fin 1) j) = x3 (ix2 1 j) :=
  ld_rows_apply 1 x3 _ 0 j 1 rfl

/-! ## The body's output block -/

/-- Entry (p, q) of what the edge kernel's body leaves in its output block is the message of row p, at column q. -/
theorem out0_15_apply (x0 : Vec Ideal S5000x2 .f32) (x1 x2 : Vec Ideal S5000x128 .f32) (x3 : Vec Ideal S2x128 .f32) (x4 : Vec Ideal S128 .f32)
    (x5 : Vec Ideal S128x128 .f32) (x6 x7 : Vec Ideal S128 .f32) (x8 : Vec Ideal S128x128 .f32) (x9 x10 : Vec Ideal S128 .f32)
    (x11 : Vec Ideal S384x128 .f32) (x12 x13 : Vec Ideal S128 .f32) (x14 : Vec Ideal S128x128 .f32) (p : Fin 5000) (q : Fin 128) :
    out0_15 (F := Ideal) x0 x1 x2 x3 x4 x5 x6 x7 x8 x9 x10 x11 x12 x13 x14 (ix2 p q)
      = Spec.msgRow (Spec.row x0 p) (Spec.row x1 p) (Spec.row x2 p) (Spec.mat x3) (Spec.vec x4) (Spec.mat x5) (Spec.vec x6) (Spec.vec x7)
          (Spec.mat x8) (Spec.vec x9) (Spec.vec x10) (Spec.mat x11) (Spec.vec x12) (Spec.vec x13) (Spec.mat x14) q := by
  unfold out0_15
  rw [View.canon_unit_zero zeros2]
  rw [View.ld_unit_zero zeros2 _ x0, View.ld_unit_zero zeros1 _ x4, View.ld_unit_zero zeros2 _ x5, View.ld_unit_zero zeros1 _ x6,
    View.ld_unit_zero zeros1 _ x7, View.ld_unit_zero zeros2 _ x1, View.ld_unit_zero zeros2 _ x8, View.ld_unit_zero zeros1 _ x9,
    View.ld_unit_zero zeros1 _ x10, View.ld_unit_zero zeros2 _ x2, View.ld_unit_zero zeros1 _ x12, View.ld_unit_zero zeros1 _ x13,
    View.ld_unit_zero zeros2 _ x14]
  rw [k0_pay5_apply, ld_top, ld_mid, ld_bot]
  unfold Spec.msgRow
  refine congrArg (fun x => Spec.lin x _ q) (funext fun k => ?_)
  refine congrArg (fun x => Spec.relu (Spec.gn x _ _ k)) (funext fun k' => ?_)
  refine congrArg₂ (· + ·) (congrArg₂ (· + ·) ?_ ?_) ?_
  · refine congrArg (fun x => Spec.lin x _ k') (funext fun k'' => ?_)
    rw [k0_pay2_apply, k0_pay1_apply]
    have hrow : ∀ k : Fin 128,
        Spec.relu (x0 (ix2 p 0) * View.ld x3 r0_1 (ix2 (0 : Fin 1) k) + x0 (ix2 p 1) * View.ld x3 r0_2 (ix2 (0 : Fin 1) k) + x4 (ix1 k))
          = Spec.relu (x0 (ix2 p 0) * x3 (ix2 0 k) + x0 (ix2 p 1) * x3 (ix2 1 k) + x4 (ix1 k)) := fun k =>
      congrArg Spec.relu (congrArg₂ (· + ·)
        (congrArg₂ (· + ·) (congrArg (x0 (ix2 p 0) * ·) (ld_row0 x3 k)) (congrArg (x0 (ix2 p 1) * ·) (ld_row1 x3 k))) rfl)
    rw [funext hrow]
    rfl
  · refine congrArg (fun x => Spec.lin x _ k') (funext fun k'' => ?_)
    rw [k0_pay3_apply]
  · rw [k0_pay4_eq]

end Cert.KernelIdeal.EdgePay

end
-- ==== Proof.EdgeValue.lean ====
/- Region 0 (the edge kernel): what its output array holds after the region, as the message function of the arrays the region finds. -/
import proofs.«420649_j32882269618299_3_alg».proof.Proof.Gen.KernelIdeal.Frame
import proofs.«420649_j32882269618299_3_alg».proof.Proof.Spec
import proofs.«420649_j32882269618299_3_alg».proof.Proof.EdgePay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Edge

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## Where the blocks sit

The grid has 100 points. At point t the three edge windows and the output window take the block of rows
5000 t .. 5000 t + 4999 (block index (t, 0)); each of the twelve weight windows takes its whole array (block index 0 on
every axis). An entry of a block sits in its array, on each axis, at block index × block size + its own coordinate. -/

/-- The index maps of the row windows over the grid: block index t on the row axis, 0 on the column axis. -/
theorem rowIndex : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_15.index t (0 : Fin 2) = t.val ∧ win0_15.index t (1 : Fin 2) = 0 :=
  (by decide +kernel : ∀ t : Fin grid0.N, _)

/-- The index maps of the weight windows over the grid: block index 0 on every axis. -/
theorem weightIndex : ∀ t : Fin cfg0.N,
      win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 1) = 0
    ∧ win0_11.index t (0 : Fin 2) = 0 ∧ win0_11.index t (1 : Fin 2) = 0
    ∧ win0_12.index t (0 : Fin 1) = 0
    ∧ win0_13.index t (0 : Fin 1) = 0
    ∧ win0_14.index t (0 : Fin 2) = 0 ∧ win0_14.index t (1 : Fin 2) = 0 :=
  (by decide +kernel : ∀ t : Fin grid0.N, _)

/-! ## The three edge blocks, row by row -/

/-- Row p of the distance block at point t is row 5000 t + p of the distance array. -/
theorem blk0_apply (c : Dev nD) (t : Fin cfg0.N) (p : Fin 5000) (k : Fin 2) (hr : 5000 * t.val + p.val < 500000) :
    (iblk0 V c 0 t : Vec Ideal S5000x2 .f32) (ix2 p k) = (V c main_v14 : S500000x2.Idx → EReal) (ix2 ⟨5000 * t.val + p.val, hr⟩ k) := by
  obtain ⟨e0, e1, -, -, -, -, -, -⟩ := rowIndex t
  unfold iblk0
  rw [View.read_apply]
  show V c main_v14 _ = V c main_v14 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 2 + 1 * k.val = k.val; rw [e1]; omega

/-- Row p of the agent block at point t is row 5000 t + p of the agent array. -/
theorem blk1_apply (c : Dev nD) (t : Fin cfg0.N) (p : Fin 5000) (k : Fin 128) (hr : 5000 * t.val + p.val < 500000) :
    (iblk0 V c 1 t : Vec Ideal S5000x128 .f32) (ix2 p k) = (V c main_v21 : S500000x128.Idx → EReal) (ix2 ⟨5000 * t.val + p.val, hr⟩ k) := by
  obtain ⟨-, -, e0, e1, -, -, -, -⟩ := rowIndex t
  unfold iblk0
  rw [View.read_apply]
  show V c main_v21 _ = V c main_v21 _
  congr 1
  funext a
  apply Fin.ext
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- Row p of the context block at point t is row 5000 t + p of the context array. -/
theorem blk2_apply (c : Dev nD) (t : Fin cfg0.N) (p : Fin 5000) (k : Fin 128) (hr : 5000 * t.val + p.val < 500000) :
    (iblk0 V c 2 t : Vec Ideal S5000x128 .f32) (ix2 p k) = (V c main_v28 : S500000x128.Idx → EReal) (ix2 ⟨5000 * t.val + p.val, hr⟩ k) := by
  obtain ⟨-, -, -, -, e0, e1, -, -⟩ := rowIndex t
  unfold iblk0
  rw [View.read_apply]
  show V c main_v28 _ = V c main_v28 _
  congr 1
  funext a
  apply Fin.ext
  match a with
  | ⟨0, _⟩ => show win0_2.index t (0 : Fin 2) * 5000 + 1 * p.val = 5000 * t.val + p.val; rw [e0]; omega
  | ⟨1, _⟩ => show win0_2.index t (1 : Fin 2) * 128 + 1 * k.val = k.val; rw [e1]; omega

/-! ## The twelve weight blocks (named as in the specification's message of one edge): each is its whole array at every point -/

/-- Wd1, the matrix of two rows. -/
theorem blk3_eq (c : Dev nD) (t : Fin cfg0.N) :
    (iblk0 V c 3 t : Vec Ideal S2x128 .f32) = (V c main_arg6 : S2x128.Idx → EReal) := by
  obtain ⟨e0, e1, -, -, -, -, -, -, -, -, -, -, -, -, -, -, -⟩ := weightIndex t
  funext j
  unfold iblk0
  rw [View.read_apply]
  show V c main_arg6 _ = V c main_arg6 _
  congr 1
  funext a
  apply Fin.ext
  match a with
  | ⟨0, _⟩ => show win0_3.index t (0 : Fin 2) * 2 + 1 * (j 0).val = (j 0).val; rw [e0]; omega
  | ⟨1, _⟩ => show win0_3.index t (1 : Fin 2) * 128 + 1 * (j 1).val = (j 1).val; rw [e1]; omega

/-- bd1. -/
theorem blk4_eq (c : Dev nD) (t : Fin cfg0.N) :
    (iblk0 V c 4 t : Vec Ideal S128 .f32) = (V c main_arg7 : S128.Idx → EReal) := by
  obtain ⟨-, -, e0, -, -, -, -, -, -, -, -, -, -, -, -, -, -⟩ := weightIndex t
  funext j
  unfold iblk0
  rw [View.read_apply]
  show V c main_arg7 _ = V c main_arg7 _
  congr 1
  funext a
  apply Fin.ext
  match a with
  | ⟨0, _⟩ => show win0_4.index t (0 : Fin 1) * 128 + 1 * (j 0).val = (j 0).val; rw [e0]; omega

/-- Wd2. -/
theorem blk5_eq (c : Dev nD) (t : Fin cfg0.N) :
    (iblk0 V c 5 t : Vec Ideal S128x128 .f32) = (V c main_arg8 : S128x128.Idx → EReal) := by
  obtain ⟨-, -, -, e0, e1, -, -, -, -, -, -, -, -, -, -, -, -⟩ := weightIndex t
  funext j
  unfold iblk0
  rw [View.read_apply]
  show V c main_arg8 _ = V c main_arg8 _
  congr 1
  funext a
  apply Fin.ext
  match a with
  | ⟨0, _⟩ => show win0_5.index t (0 : Fin 2) * 128 + 1 * (j 0).val = (j 0).val; rw [e0]; omega
  | ⟨1, _⟩ => show win0_5.index t (1 : Fin 2) * 128 + 1 * (j 1).val = (j 1).val; rw [e1]; omega

/-- gd2. -/
theorem blk6_eq (c : Dev nD) (t : Fin cfg0.N) :
    (iblk0 V c 6 t : Vec Ideal S128 .f32) = (V c main_arg9 : S128.Idx → EReal) := by
  obtain ⟨-, -, -, -, -, e0, -, -, -, -, -, -, -, -, -, -, -⟩ := weightIndex t
  funext j
  unfold iblk0
  rw [View.read_apply]
  show V c main_arg9 _ = V c main_arg9 _
  congr 1
  funext a
  apply Fin.ext
  match a with
  | ⟨0, _⟩ => show win0_6.index t (0 : Fin 1) * 128 + 1 * (j 0).val = (j 0).val; rw [e0]; omega

/-- bd2. -/
theorem blk7_eq (c : Dev nD) (t : Fin cfg0.N) :
    (iblk0 V c 7 t : Vec Ideal S128 .f32) = (V c main_arg10 : S128.Idx → EReal) := by
  obtain ⟨-, -, -, -, -, -, e0, -, -, -, -, -, -, -, -, -, -⟩ := weightIndex t
  funext j
  unfold iblk0
  rw [View.read_apply]
  show V c main_arg10 _ = V c main_arg10 _
  congr 1
  funext a
  apply Fin.ext
  match a with
  | ⟨0, _⟩ => show win0_7.index t (0 : Fin 1) * 128 + 1 * (j 0).val = (j 0).val; rw [e0]; omega

/-- Wq. -/
theorem blk8_eq (c : Dev nD) (t : Fin cfg0.N) :
    (iblk0 V c 8 t : Vec Ideal S128x128 .f32) = (V c main_arg11 : S128x128.Idx → EReal) := by
  obtain ⟨-, -, -, -, -, -, -, e0, e1, -, -, -, -, -, -, -, -⟩ := weightIndex t
  funext j
  unfold iblk0
  rw [View.read_apply]
  show V c main_arg11 _ = V c main_arg11 _
  congr 1
  funext a
  apply Fin.ext
  match a with
  | ⟨0, _⟩ => show win0_8.index t (0 : Fin 2) * 128 + 1 * (j 0).val = (j 0).val; rw [e0]; omega
  | ⟨1, _⟩ => show win0_8.index t (1 : Fin 2) * 128 + 1 * (j 1).val = (j 1).val; rw [e1]; omega

/-- gq. -/
theorem blk9_eq (c : Dev nD) (t : Fin cfg0.N) :
    (iblk0 V c 9 t : Vec Ideal S128 .f32) = (V c main_arg12 : S128.Idx → EReal) := by
  obtain ⟨-, -, -, -, -, -, -, -, -, e0, -, -, -, -, -, -, -⟩ := weightIndex t
  funext j
  unfold iblk0
  rw [View.read_apply]
  show V c main_arg12 _ = V c main_arg12 _
  congr 1
  funext a
  apply Fin.ext
  match a with
  | ⟨0, _⟩ => show win0_9.index t (0 : Fin 1) * 128 + 1 * (j 0).val = (j 0).val; rw [e0]; omega

/-- bq. -/
theorem blk10_eq (c : Dev nD) (t : Fin cfg0.N) :
    (iblk0 V c 10 t : Vec Ideal S128 .f32) = (V c main_arg13 : S128.Idx → EReal) := by
  obtain ⟨-, -, -, -, -, -, -, -, -, -, e0, -, -, -, -, -, -⟩ := weightIndex t
  funext j
  unfold iblk0
  rw [View.read_apply]
  show V c main_arg13 _ = V c main_arg13 _
  congr 1
  funext a
  apply Fin.ext
  match a with
  | ⟨0, _⟩ => show win0_10.index t (0 : Fin 1) * 128 + 1 * (j 0).val = (j 0).val; rw [e0]; omega

/-- Wc1, the matrix of 384 rows. -/
theorem blk11_eq (c : Dev nD) (t : Fin cfg0.N) :
    (iblk0 V c 11 t : Vec Ideal S384x128 .f32) = (V c main_arg14 : S384x128.Idx → EReal) := by
  obtain ⟨-, -, -, -, -, -, -, -, -, -, -, e0, e1, -, -, -, -⟩ := weightIndex t
  funext j
  unfold iblk0
  rw [View.read_apply]
  show V c main_arg14 _ = V c main_arg14 _
  congr 1
  funext a
  apply Fin.ext
  match a with
  | ⟨0, _⟩ => show win0_11.index t (0 : Fin 2) * 384 + 1 * (j 0).val = (j 0).val; rw [e0]; omega
  | ⟨1, _⟩ => show win0_11.index t (1 : Fin 2) * 128 + 1 * (j 1).val = (j 1).val; rw [e1]; omega

/-- gc1. -/
theorem blk12_eq (c : Dev nD) (t : Fin cfg0.N) :
    (iblk0 V c 12 t : Vec Ideal S128 .f32) = (V c main_arg15 : S128.Idx → EReal) := by
  obtain ⟨-, -, -, -, -, -, -, -, -, -, -, -, -, e0, -, -, -⟩ := weightIndex t
  funext j
  unfold iblk0
  rw [View.read_apply]
  show V c main_arg15 _ = V c main_arg15 _
  congr 1
  funext a
  apply Fin.ext
  match a with
  | ⟨0, _⟩ => show win0_12.index t (0 : Fin 1) * 128 + 1 * (j 0).val = (j 0).val; rw [e0]; omega

/-- bc1. -/
theorem blk13_eq (c : Dev nD) (t : Fin cfg0.N) :
    (iblk0 V c 13 t : Vec Ideal S128 .f32) = (V c main_arg16 : S128.Idx → EReal) := by
  obtain ⟨-, -, -, -, -, -, -, -, -, -, -, -, -, -, e0, -, -⟩ := weightIndex t
  funext j
  unfold iblk0
  rw [View.read_apply]
  show V c main_arg16 _ = V c main_arg16 _
  congr 1
  funext a
  apply Fin.ext
  match a with
  | ⟨0, _⟩ => show win0_13.index t (0 : Fin 1) * 128 + 1 * (j 0).val = (j 0).val; rw [e0]; omega

/-- Wc2. -/
theorem blk14_eq (c : Dev nD) (t : Fin cfg0.N) :
    (iblk0 V c 14 t : Vec Ideal S128x128 .f32) = (V c main_arg17 : S128x128.Idx → EReal) := by
  obtain ⟨-, -, -, -, -, -, -, -, -, -, -, -, -, -, -, e0, e1⟩ := weightIndex t
  funext j
  unfold iblk0
  rw [View.read_apply]
  show V c main_arg17 _ = V c main_arg17 _
  congr 1
  funext a
  apply Fin.ext
  match a with
  | ⟨0, _⟩ => show win0_14.index t (0 : Fin 2) * 128 + 1 * (j 0).val = (j 0).val; rw [e0]; omega
  | ⟨1, _⟩ => show win0_14.index t (1 : Fin 2) * 128 + 1 * (j 1).val = (j 1).val; rw [e1]; omega

/-! ## One point's output block -/

/-- Entry (p, q) of what point t leaves in its output block is entry (5000 t + p, q) of the message array: the body's
    result at a row is the message of that row of the three edge blocks, and those are rows 5000 t + p of the arrays. -/
theorem after_apply (c : Dev nD) (t : Fin cfg0.N) (p : Fin 5000) (q : Fin 128) (hr : 5000 * t.val + p.val < 500000) :
    out0_15 (F := Ideal) (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) (iblk0 V c 11 t) (iblk0 V c 12 t)
        (iblk0 V c 13 t) (iblk0 V c 14 t) (ix2 p q)
      = Spec.MSG (E := 500000) (V c main_v14) (V c main_v21) (V c main_v28) (V c main_arg6) (V c main_arg7) (V c main_arg8)
          (V c main_arg9) (V c main_arg10) (V c main_arg11) (V c main_arg12) (V c main_arg13) (V c main_arg14)
          (V c main_arg15) (V c main_arg16) (V c main_arg17) (ix2 ⟨5000 * t.val + p.val, hr⟩ q) := by
  refine (EdgePay.out0_15_apply (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t) (iblk0 V c 11 t) (iblk0 V c 12 t)
    (iblk0 V c 13 t) (iblk0 V c 14 t) p q).trans ?_
  have h0 : Spec.row (iblk0 V c 0 t : Vec Ideal S5000x2 .f32) p
      = Spec.row (V c main_v14 : S500000x2.Idx → EReal) ⟨5000 * t.val + p.val, hr⟩ :=
    funext fun k => blk0_apply V c t p k hr
  have h1 : Spec.row (iblk0 V c 1 t : Vec Ideal S5000x128 .f32) p
      = Spec.row (V c main_v21 : S500000x128.Idx → EReal) ⟨5000 * t.val + p.val, hr⟩ :=
    funext fun k => blk1_apply V c t p k hr
  have h2 : Spec.row (iblk0 V c 2 t : Vec Ideal S5000x128 .f32) p
      = Spec.row (V c main_v28 : S500000x128.Idx → EReal) ⟨5000 * t.val + p.val, hr⟩ :=
    funext fun k => blk2_apply V c t p k hr
  rw [h0, h1, h2, blk3_eq V c t, blk4_eq V c t, blk5_eq V c t, blk6_eq V c t, blk7_eq V c t, blk8_eq V c t, blk9_eq V c t,
    blk10_eq V c t, blk11_eq V c t, blk12_eq V c t, blk13_eq V c t, blk14_eq V c t]
  rfl

/-- What point t writes back is block t of the message array. -/
theorem flushed_eq (c : Dev nD) (t : Fin cfg0.N) :
    (dat0 (F := Ideal) V c).flushed 15 t
      = ((cfg0.win 15).blk t).view.read (Elt Ideal)
          (Spec.MSG (E := 500000) (V c main_v14) (V c main_v21) (V c main_v28) (V c main_arg6) (V c main_arg7) (V c main_arg8)
            (V c main_arg9) (V c main_arg10) (V c main_arg11) (V c main_arg12) (V c main_arg13) (V c main_arg14)
            (V c main_arg15) (V c main_arg16) (V c main_arg17)) := by
  show (cfg0.win 15).cut (grid0.coords t) ((dat0 V c).after 15 t) = _
  rw [after0_15]
  funext j
  obtain ⟨p, q, rfl⟩ : ∃ (p : Fin 5000) (q : Fin 128), j = ix2 p q := ⟨j 0, j 1, eq_ix2 j⟩
  have ht : t.val < 100 := lt_of_lt_of_eq t.isLt N_0
  have hr : 5000 * t.val + p.val < 500000 := by have := p.isLt; omega
  obtain ⟨-, -, -, -, -, -, e0, e1⟩ := rowIndex t
  -- the block is not cut at the array's end: its entry (p, q) is the staged entry (p, q)
  have hx : (cfg0.win 15).xinj (grid0.coords t) (ix2 p q) = ix2 p q :=
    funext fun a => by match a with | ⟨0, _⟩ => rfl | ⟨1, _⟩ => rfl
  -- and sits in the array at row 5000 t + p, column q
  have hemb : ((cfg0.win 15).blk t).view.emb (ix2 p q) = (ix2 ⟨5000 * t.val + p.val, hr⟩ q : S500000x128.Idx) := by
    funext a
    apply Fin.ext
    match a with
    | ⟨0, _⟩ => show win0_15.index t (0 : Fin 2) * 5000 + 1 * p.val = 5000 * t.val + p.val; rw [e0]; omega
    | ⟨1, _⟩ => show win0_15.index t (1 : Fin 2) * 128 + 1 * q.val = q.val; rw [e1]; omega
  rw [View.read_apply]
  show out0_15 (F := Ideal) (iblk0 V c 0 t) (iblk0 V c 1 t) (iblk0 V c 2 t) (iblk0 V c 3 t) (iblk0 V c 4 t) (iblk0 V c 5 t)
        (iblk0 V c 6 t) (iblk0 V c 7 t) (iblk0 V c 8 t) (iblk0 V c 9 t) (iblk0 V c 10 t) (iblk0 V c 11 t) (iblk0 V c 12 t)
        (iblk0 V c 13 t) (iblk0 V c 14 t) ((cfg0.win 15).xinj (grid0.coords t) (ix2 p q))
      = Spec.MSG (E := 500000) (V c main_v14) (V c main_v21) (V c main_v28) (V c main_arg6) (V c main_arg7) (V c main_arg8)
          (V c main_arg9) (V c main_arg10) (V c main_arg11) (V c main_arg12) (V c main_arg13) (V c main_arg14)
          (V c main_arg15) (V c main_arg16) (V c main_arg17) (((cfg0.win 15).blk t).view.emb (ix2 p q))
  rw [hx, hemb]
  exact after_apply V c t p q hr

/-! ## The 100 blocks tile the array -/

/-- An index of the array is in point t's block iff each coordinate is in the block's range on its axis. -/
theorem mem_blk (t : Fin cfg0.N) (i : S500000x128.Idx) :
    i ∈ ((cfg0.win 15).blk t).view.set
      ↔ ∀ a : Fin 2, win0_15.index t a * S5000x128.size a ≤ (i a).val
          ∧ (i a).val < win0_15.index t a * S5000x128.size a + S5000x128.size a := by
  show i ∈ ((View.whole main_v29).slice (win0_15.rect t)).set ↔ _
  rw [View.set_slice_whole, Rect.mem_set_unit]
  exact Iff.rfl

/-- Row r of the array lies in the block of point r / 5000, and every point writes its block back. -/
theorem covered (i : S500000x128.Idx) :
    ∃ t : Fin cfg0.N, (cfg0.win 15).flush t = true ∧ i ∈ ((cfg0.win 15).blk t).view.set := by
  have hi0 : (i 0).val < 500000 := (i 0).isLt
  have hi1 : (i 1).val < 128 := (i 1).isLt
  have hN : cfg0.N = 100 := N_0
  have hlt : (i 0).val / 5000 < cfg0.N := by rw [hN]; omega
  refine ⟨⟨(i 0).val / 5000, hlt⟩, flush0_15 _, ?_⟩
  rw [mem_blk]
  obtain ⟨-, -, -, -, -, -, e0, e1⟩ := rowIndex ⟨(i 0).val / 5000, hlt⟩
  intro a
  match a with
  | ⟨0, _⟩ =>
    show win0_15.index ⟨(i 0).val / 5000, hlt⟩ (0 : Fin 2) * 5000 ≤ (i 0).val
      ∧ (i 0).val < win0_15.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_15.index ⟨(i 0).val / 5000, hlt⟩ (1 : Fin 2) * 128 ≤ (i 1).val
      ∧ (i 1).val < win0_15.index ⟨(i 0).val / 5000, hlt⟩ (1 : Fin 2) * 128 + 128
    rw [e1]
    omega

/-- After region 0 its result array holds the messages of all edges, computed from the three edge arrays and the twelve
    weight arrays as the region finds them. -/
theorem final0 (c : Dev nD) :
    (dat0 (F := Ideal) V c).arrAt 15 cfg0.N
      = Spec.MSG (E := 500000) (V c main_v14) (V c main_v21) (V c main_v28) (V c main_arg6) (V c main_arg7) (V c main_arg8)
          (V c main_arg9) (V c main_arg10) (V c main_arg11) (V c main_arg12) (V c main_arg13) (V c main_arg14)
          (V c main_arg15) (V c main_arg16) (V c main_arg17) :=
  (dat0 V c).arrAt_eq_of_cover 15
    (Spec.MSG (E := 500000) (V c main_v14) (V c main_v21) (V c main_v28) (V c main_arg6) (V c main_arg7) (V c main_arg8)
      (V c main_arg9) (V c main_arg10) (V c main_arg11) (V c main_arg12) (V c main_arg13) (V c main_arg14)
      (V c main_arg15) (V c main_arg16) (V c main_arg17))
    (fun t _ => flushed_eq V c t) covered

end Cert.KernelIdeal.Edge

end
-- ==== Proof.FinishPay.lean ====
/- The finish kernel's body at one entry of its output block: the node function of the block's row of agents and of received sums, and the weights. -/
import proofs.«420649_j32882269618299_3_alg».proof.Proof.Gen.KernelIdeal.Frame
import proofs.«420649_j32882269618299_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FinishPay

open Cert.KernelIdeal Cert.KernelIdeal.Gen Idealize.ShloMosaic Idealize.ShloMosaic.TcCoe Idealize.SL.Sem Idealize.ShloMosaic.ValueIdx
open Idealize.ShloMosaic.Pipeline (Dat Cfg Window)
open scoped BigOperators

/-! ## Zero offsets: a load through a whole block reads the block, one store through it leaves its value -/

theorem zero2 : (![0, 0] : Fin 2 → Nat) = fun _ => 0 :=
  funext fun a => match a with | ⟨0, _⟩ => rfl | ⟨1, _⟩ => rfl
theorem zero1 : (![0] : Fin 1 → Nat) = fun _ => 0 :=
  funext fun a => match a with | ⟨0, _⟩ => rfl

/-! ## Layout operations at (p, q) -/

/-- A vector of 5000 entries viewed as a column reads, at (p, u), entry p. -/
theorem col_apply {α : Type} (x : S5000.Idx → α) (p : Fin 5000) (u : Fin 1) :
    shapeCast S5000x1 x shapeCasts_S5000_S5000x1 (ix2 p u) = x (ix1 p) :=
  shapeCast_apply x shapeCasts_S5000_S5000x1 _ _ (by
    have hu : u.val = 0 := by omega
    rw [Shape.rowMajor_val_two, Shape.rowMajor_val_one]
    show p.val = p.val * 1 + u.val
    rw [hu, Nat.mul_one, Nat.add_zero])

/-- A column spread over 128 columns reads, at (p, q), the column's entry p. -/
theorem spreadCol_apply {α : Type} (x : S5000x1.Idx → α) (p : Fin 5000) (q : Fin 128) :
    broadcastTo S5000x128 x broadcasts_S5000x1_S5000x128 (ix2 p q) = x (ix2 p (0 : Fin 1)) := by
  refine broadcastTo_apply x broadcasts_S5000x1_S5000x128 (ix2 p q) (ix2 p (0 : Fin 1)) fun ax => ?_
  match ax with
  | ⟨0, _⟩ => rfl
  | ⟨1, _⟩ => rfl

/-- A vector of 128 entries viewed as a row reads, at (u, q), entry q. -/
theorem rowOf_apply {α : Type} (x : S128.Idx → α) (u : Fin 1) (q : Fin 128) :
    shapeCast S1x128 x shapeCasts_S128_S1x128 (ix2 u q) = x (ix1 q) :=
  shapeCast_a_1a_apply x shapeCasts_S128_S1x128 u q

/-- A row spread over 5000 rows reads, at (p, q), the row's entry q. -/
theorem spreadRow_apply {α : Type} (x : S1x128.Idx → α) (p : Fin 5000) (q : Fin 128) :
    broadcastTo S5000x128 x broadcasts_S1x128_S5000x128 (ix2 p q) = x (ix2 (0 : Fin 1) q) :=
  broadcastTo_1b_ab_apply x broadcasts_S1x128_S5000x128 p q

/-- The sum along a row: the lane sum of a 5000 by 128 vector, at row p, is the sum of the row's 128 entries. -/
theorem rowSum_apply (v : FVec Ideal S5000x128 .f32) (p : Fin 5000) :
    multiReduction .add [1] S5000 v 0x00000000#32 reduces_S5000x128_S5000 (.inl rfl) rfl (ix1 p)
      = ∑ k : Fin 128, v (ix2 p k) := by
  refine (Ideal.multiReduction_add_single v 0x00000000#32 reduces_S5000x128_S5000 (.inl rfl) rfl (ix1 p)).trans ?_
  refine Finset.sum_congr rfl fun k _ => congrArg v ?_
  funext a
  match a with
  | ⟨0, _⟩ => rfl
  | ⟨1, _⟩ => rfl

/-! ## The product with a 128 by 128 matrix at (p, q) -/

theorem lhs_prod_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_prod_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem rhs_prod_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem rhs_prod_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero block, at (p, q): the sum over k of the left factor at (p, k) times the right one at (k, q). -/
theorem prod_apply (v : FVec Ideal S5000x128 .f32) (w : FVec Ideal S128x128 .f32) (p : Fin 5000) (q : Fin 128) :
    matmul dot_S5000x128_S128x128_S5000x128_1_0_0_1_n_n none v w (constant (F := Ideal) S5000x128 .f32 0x00000000#32) (ix2 p q)
      = ∑ k : Fin 128, v (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_prod_0 _ _
    | ⟨1, _⟩ => exact (lhs_prod_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_prod_0 _ _).trans hk
    | ⟨1, _⟩ => exact rhs_prod_1 _ _)
  rw [el, er]

/-! ## The normalisation along rows -/

/-- The reciprocal square root at an index is the reciprocal square root of the entry. -/
theorem rsqrt_apply {s : Shape} {φ : FTy} (a : FVec Ideal s φ) (i : s.Idx) : rsqrt a i = Ideal.rsqrt (a i) := rfl

/-- The column of row means of a 5000 by 128 vector: row sums, as a column, divided by the word of 128. -/
def meanCol (v : FVec Ideal S5000x128 .f32) : FVec Ideal S5000x1 .f32 :=
  divf (shapeCast S5000x1 (multiReduction .add [1] S5000 v 0x00000000#32 reduces_S5000x128_S5000 (.inl rfl) rfl) shapeCasts_S5000_S5000x1)
    (broadcast S5000x1 (Scalar.ofBits .f32 0x43000000#32))

/-- Its entry p is the mean of row p. -/
theorem meanCol_apply (v : FVec Ideal S5000x128 .f32) (p : Fin 5000) (u : Fin 1) :
    meanCol v (ix2 p u) = Spec.mean (fun k => v (ix2 p k)) := by
  unfold meanCol
  rw [divf_apply, col_apply, rowSum_apply, broadcast_apply]
  rfl

/-- The body's normalisation of a 5000 by 128 vector along its rows (mean and variance of each row, divisor the word of 128,
    epsilon the word of 1e-5), scaled by g and shifted by b. -/
def gnVec (v : FVec Ideal S5000x128 .f32) (g b : Vec Ideal S128 .f32) : FVec Ideal S5000x128 .f32 :=
  addf
    (mulf
      (mulf (subf v (broadcastTo S5000x128 (meanCol v) broadcasts_S5000x1_S5000x128))
        (broadcastTo S5000x128
          (rsqrt (addf
            (meanCol (mulf (subf v (broadcastTo S5000x128 (meanCol v) broadcasts_S5000x1_S5000x128))
                           (subf v (broadcastTo S5000x128 (meanCol v) broadcasts_S5000x1_S5000x128))))
            (broadcast S5000x1 (Scalar.ofBits .f32 0x3727C5AC#32))))
          broadcasts_S5000x1_S5000x128))
      (broadcastTo S5000x128 (shapeCast S1x128 g shapeCasts_S128_S1x128) broadcasts_S1x128_S5000x128))
    (broadcastTo S5000x128 (shapeCast S1x128 b shapeCasts_S128_S1x128) broadcasts_S1x128_S5000x128)

/-- At (p, q) it is the normalisation of row p, at column q. -/
theorem gnVec_apply (v : FVec Ideal S5000x128 .f32) (g b : Vec Ideal S128 .f32) (p : Fin 5000) (q : Fin 128) :
    gnVec v g b (ix2 p q) = Spec.gn (fun k => v (ix2 p k)) (Spec.vec g) (Spec.vec b) q := by
  unfold gnVec
  simp only [addf_apply, mulf_apply, subf_apply, rsqrt_apply, spreadCol_apply, spreadRow_apply, rowOf_apply, meanCol_apply,
    broadcast_apply]
  rfl

/-! ## The two payloads as compositions of the pieces -/

/-- The stored value: the second normalisation, plus the agents block, then max with zero. -/
theorem k1_pay1_eq (v0 : Vec Ideal S5000x128 .f32) (v35 : FVec Ideal S5000x128 .f32) (g b : Vec Ideal S128 .f32) :
    k1_pay1 (F := Ideal) v0 v35 g b
      = maximumf (addf (gnVec v35 g b) v0) (broadcast S5000x128 (Scalar.ofBits .f32 0x00000000#32)) := rfl

/-- The value carried to it: the product with the first matrix plus the sums block, normalised, max with zero, times the second matrix. -/
theorem k1_pay2_eq (v0 : FVec Ideal S5000x128 .f32) (v1 : FVec Ideal S128x128 .f32) (v3 : FVec Ideal S5000x128 .f32)
    (v6 v7 : Vec Ideal S128 .f32) (v34 : FVec Ideal S128x128 .f32) :
    k1_pay2 (F := Ideal) v0 v1 v3 v6 v7 v34
      = matmul dot_S5000x128_S128x128_S5000x128_1_0_0_1_n_n none
          (maximumf
            (gnVec
              (addf (matmul dot_S5000x128_S128x128_S5000x128_1_0_0_1_n_n none v0 v1 (constant (F := Ideal) S5000x128 .f32 0x00000000#32))
                (shapeCast S5000x128 v3 shapeCasts_S5000x128_S5000x128))
              v6 v7)
            (broadcast S5000x128 (Scalar.ofBits .f32 0x00000000#32)))
          v34 (constant (F := Ideal) S5000x128 .f32 0x00000000#32) := rfl

/-- Max with the zero word is max with zero. -/
theorem relu_word (x : EReal) : max x (Scalar.ofBits (F := Ideal) .f32 0x00000000#32) = Spec.relu x := by
  show max x (Ideal.ofBits .f32 0x00000000#32) = Spec.relu x
  rw [Ideal.ofBits_zero_f32]; rfl

/-- The carried value at (p, q). -/
theorem k1_pay2_apply (v0 : FVec Ideal S5000x128 .f32) (v1 : FVec Ideal S128x128 .f32) (v3 : FVec Ideal S5000x128 .f32)
    (v6 v7 : Vec Ideal S128 .f32) (v34 : FVec Ideal S128x128 .f32) (p : Fin 5000) (q : Fin 128) :
    k1_pay2 (F := Ideal) v0 v1 v3 v6 v7 v34 (ix2 p q)
      = Spec.lin (fun k => Spec.relu (Spec.gn (fun k' => Spec.lin (Spec.row v0 p) (Spec.mat v1) k' + Spec.row v3 p k')
          (Spec.vec v6) (Spec.vec v7) k)) (Spec.mat v34) q := by
  rw [k1_pay2_eq, prod_apply]
  unfold Spec.lin
  refine Finset.sum_congr rfl fun k _ => ?_
  rw [maximumf_apply, broadcast_apply, relu_word, gnVec_apply]
  refine congrArg (fun t => Spec.relu (Spec.gn t (Spec.vec v6) (Spec.vec v7) k) * v34 (ix2 k q)) ?_
  funext k'
  rw [addf_apply, prod_apply, shapeCast_self]

/-- The stored value at (p, q), from the carried value's row p. -/
theorem k1_pay1_apply (v0 : Vec Ideal S5000x128 .f32) (v35 : FVec Ideal S5000x128 .f32) (g b : Vec Ideal S128 .f32)
    (p : Fin 5000) (q : Fin 128) :
    k1_pay1 (F := Ideal) v0 v35 g b (ix2 p q)
      = Spec.relu (Spec.gn (fun k => v35 (ix2 p k)) (Spec.vec g) (Spec.vec b) q + v0 (ix2 p q)) := by
  rw [k1_pay1_eq, maximumf_apply, broadcast_apply, relu_word, addf_apply, gnVec_apply]

/-- Entry (p, q) of what the finish kernel's body leaves in its output block is the node function of row p, at column q. -/
theorem out1_8_apply (x0 x1 : Vec Ideal S5000x128 .f32) (x2 : Vec Ideal S128x128 .f32) (x3 x4 : Vec Ideal S128 .f32)
    (x5 : Vec Ideal S128x128 .f32) (x6 x7 : Vec Ideal S128 .f32) (p : Fin 5000) (q : Fin 128) :
    out1_8 (F := Ideal) x0 x1 x2 x3 x4 x5 x6 x7 (ix2 p q)
      = Spec.finRow (Spec.row x0 p) (Spec.row x1 p) (Spec.mat x2) (Spec.vec x3) (Spec.vec x4) (Spec.mat x5) (Spec.vec x6) (Spec.vec x7) q := by
  unfold out1_8
  rw [View.canon_unit_zero zero2]
  simp only [View.ld_unit_zero (S := S5000x128) zero2, View.ld_unit_zero (S := S128x128) zero2, View.ld_unit_zero (S := S128) zero1]
  rw [k1_pay1_apply]
  unfold Spec.finRow
  refine congrArg (fun t => Spec.relu (Spec.gn t (Spec.vec x6) (Spec.vec x7) q + x0 (ix2 p q))) ?_
  funext k
  exact k1_pay2_apply x0 x2 x1 x3 x4 x5 p k

end Cert.KernelIdeal.FinishPay

end
-- ==== Proof.FinishValue.lean ====
/- Region 1 (the finish kernel): what its output array holds after the region, as the node function of the arrays the region finds. -/
import proofs.«420649_j32882269618299_3_alg».proof.Proof.Gen.KernelIdeal.Frame
import proofs.«420649_j32882269618299_3_alg».proof.Proof.Spec
import proofs.«420649_j32882269618299_3_alg».proof.Proof.FinishPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Finish

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## Where the blocks sit

The grid has 10 points. At point t the agent window, the received-sum window and the output window take the block of rows
5000 t .. 5000 t + 4999 (block index (t, 0)); each of the six weight windows takes its whole array (block index 0 on every
axis). An entry of a block sits in its array, on each axis, at block index × block size + its own coordinate. -/

/-- The index maps of the row windows over the grid: block index t on the row axis, 0 on the column axis. -/
theorem rowIndex : ∀ t : Fin cfg1.N,
      win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0 :=
  (by decide +kernel : ∀ t : Fin grid1.N, _)

/-- The index maps of the weight windows over the grid: block index 0 on every axis. -/
theorem weightIndex : ∀ t : Fin cfg1.N,
      win1_2.index t (0 : Fin 2) = 0 ∧ win1_2.index t (1 : Fin 2) = 0
    ∧ win1_3.index t (0 : Fin 1) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 1) = 0 :=
  (by decide +kernel : ∀ t : Fin grid1.N, _)

/-! ## The two node blocks, row by row -/

/-- Row p of the agent block at point t is row 5000 t + p of the agent array. -/
theorem blk0_apply (c : Dev nD) (t : Fin cfg1.N) (p : Fin 5000) (k : Fin 128) (hr : 5000 * t.val + p.val < 50000) :
    (iblk1 V c 0 t : Vec Ideal S5000x128 .f32) (ix2 p k) = (V c main_arg0 : S50000x128.Idx → EReal) (ix2 ⟨5000 * t.val + p.val, hr⟩ k) := by
  obtain ⟨e0, e1, -, -, -, -⟩ := rowIndex t
  unfold iblk1
  rw [View.read_apply]
  show V c main_arg0 _ = V c main_arg0 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- Row p of the received-sum block at point t is row 5000 t + p of the received-sum array. -/
theorem blk1_apply (c : Dev nD) (t : Fin cfg1.N) (p : Fin 5000) (k : Fin 128) (hr : 5000 * t.val + p.val < 50000) :
    (iblk1 V c 1 t : Vec Ideal S5000x128 .f32) (ix2 p k) = (V c main_v37 : S50000x128.Idx → EReal) (ix2 ⟨5000 * t.val + p.val, hr⟩ k) := by
  obtain ⟨-, -, e0, e1, -, -⟩ := rowIndex t
  unfold iblk1
  rw [View.read_apply]
  show V c main_v37 _ = V c main_v37 _
  congr 1
  funext a
  apply Fin.ext
  match a with
  | ⟨0, _⟩ => show win1_1.index t (0 : Fin 2) * 5000 + 1 * p.val = 5000 * t.val + p.val; rw [e0]; omega
  | ⟨1, _⟩ => show win1_1.index t (1 : Fin 2) * 128 + 1 * k.val = k.val; rw [e1]; omega

/-! ## The six weight blocks (named as in the specification's result of one node): each is its whole array at every point -/

/-- Wa. -/
theorem blk2_eq (c : Dev nD) (t : Fin cfg1.N) :
    (iblk1 V c 2 t : Vec Ideal S128x128 .f32) = (V c main_arg18 : S128x128.Idx → EReal) := by
  obtain ⟨e0, e1, -, -, -, -, -, -⟩ := weightIndex t
  funext j
  unfold iblk1
  rw [View.read_apply]
  show V c main_arg18 _ = V c main_arg18 _
  congr 1
  funext a
  apply Fin.ext
  match a with
  | ⟨0, _⟩ => show win1_2.index t (0 : Fin 2) * 128 + 1 * (j 0).val = (j 0).val; rw [e0]; omega
  | ⟨1, _⟩ => show win1_2.index t (1 : Fin 2) * 128 + 1 * (j 1).val = (j 1).val; rw [e1]; omega

/-- gn_. -/
theorem blk3_eq (c : Dev nD) (t : Fin cfg1.N) :
    (iblk1 V c 3 t : Vec Ideal S128 .f32) = (V c main_arg19 : S128.Idx → EReal) := by
  obtain ⟨-, -, e0, -, -, -, -, -⟩ := weightIndex t
  funext j
  unfold iblk1
  rw [View.read_apply]
  show V c main_arg19 _ = V c main_arg19 _
  congr 1
  funext a
  apply Fin.ext
  match a with
  | ⟨0, _⟩ => show win1_3.index t (0 : Fin 1) * 128 + 1 * (j 0).val = (j 0).val; rw [e0]; omega

/-- bn. -/
theorem blk4_eq (c : Dev nD) (t : Fin cfg1.N) :
    (iblk1 V c 4 t : Vec Ideal S128 .f32) = (V c main_arg20 : S128.Idx → EReal) := by
  obtain ⟨-, -, -, e0, -, -, -, -⟩ := weightIndex t
  funext j
  unfold iblk1
  rw [View.read_apply]
  show V c main_arg20 _ = V c main_arg20 _
  congr 1
  funext a
  apply Fin.ext
  match a with
  | ⟨0, _⟩ => show win1_4.index t (0 : Fin 1) * 128 + 1 * (j 0).val = (j 0).val; rw [e0]; omega

/-- Wl. -/
theorem blk5_eq (c : Dev nD) (t : Fin cfg1.N) :
    (iblk1 V c 5 t : Vec Ideal S128x128 .f32) = (V c main_arg21 : S128x128.Idx → EReal) := by
  obtain ⟨-, -, -, -, e0, e1, -, -⟩ := weightIndex t
  funext j
  unfold iblk1
  rw [View.read_apply]
  show V c main_arg21 _ = V c main_arg21 _
  congr 1
  funext a
  apply Fin.ext
  match a with
  | ⟨0, _⟩ => show win1_5.index t (0 : Fin 2) * 128 + 1 * (j 0).val = (j 0).val; rw [e0]; omega
  | ⟨1, _⟩ => show win1_5.index t (1 : Fin 2) * 128 + 1 * (j 1).val = (j 1).val; rw [e1]; omega

/-- gl. -/
theorem blk6_eq (c : Dev nD) (t : Fin cfg1.N) :
    (iblk1 V c 6 t : Vec Ideal S128 .f32) = (V c main_arg22 : S128.Idx → EReal) := by
  obtain ⟨-, -, -, -, -, -, e0, -⟩ := weightIndex t
  funext j
  unfold iblk1
  rw [View.read_apply]
  show V c main_arg22 _ = V c main_arg22 _
  congr 1
  funext a
  apply Fin.ext
  match a with
  | ⟨0, _⟩ => show win1_6.index t (0 : Fin 1) * 128 + 1 * (j 0).val = (j 0).val; rw [e0]; omega

/-- bl. -/
theorem blk7_eq (c : Dev nD) (t : Fin cfg1.N) :
    (iblk1 V c 7 t : Vec Ideal S128 .f32) = (V c main_arg23 : S128.Idx → EReal) := by
  obtain ⟨-, -, -, -, -, -, -, e0⟩ := weightIndex t
  funext j
  unfold iblk1
  rw [View.read_apply]
  show V c main_arg23 _ = V c main_arg23 _
  congr 1
  funext a
  apply Fin.ext
  match a with
  | ⟨0, _⟩ => show win1_7.index t (0 : Fin 1) * 128 + 1 * (j 0).val = (j 0).val; rw [e0]; omega

/-! ## One point's output block -/

/-- Entry (p, q) of what point t leaves in its output block is entry (5000 t + p, q) of the node-result array: the body's
    result at a row is the node function of that row of the two node blocks, and those are rows 5000 t + p of the arrays. -/
theorem after_apply (c : Dev nD) (t : Fin cfg1.N) (p : Fin 5000) (q : Fin 128) (hr : 5000 * t.val + p.val < 50000) :
    out1_8 (F := Ideal) (iblk1 V c 0 t) (iblk1 V c 1 t) (iblk1 V c 2 t) (iblk1 V c 3 t) (iblk1 V c 4 t) (iblk1 V c 5 t)
        (iblk1 V c 6 t) (iblk1 V c 7 t) (ix2 p q)
      = Spec.FIN (N := 50000) (V c main_arg0) (V c main_v37) (V c main_arg18) (V c main_arg19) (V c main_arg20)
          (V c main_arg21) (V c main_arg22) (V c main_arg23) (ix2 ⟨5000 * t.val + p.val, hr⟩ q) := by
  refine (FinishPay.out1_8_apply (iblk1 V c 0 t) (iblk1 V c 1 t) (iblk1 V c 2 t) (iblk1 V c 3 t) (iblk1 V c 4 t) (iblk1 V c 5 t)
    (iblk1 V c 6 t) (iblk1 V c 7 t) p q).trans ?_
  have h0 : Spec.row (iblk1 V c 0 t : Vec Ideal S5000x128 .f32) p
      = Spec.row (V c main_arg0 : S50000x128.Idx → EReal) ⟨5000 * t.val + p.val, hr⟩ :=
    funext fun k => blk0_apply V c t p k hr
  have h1 : Spec.row (iblk1 V c 1 t : Vec Ideal S5000x128 .f32) p
      = Spec.row (V c main_v37 : S50000x128.Idx → EReal) ⟨5000 * t.val + p.val, hr⟩ :=
    funext fun k => blk1_apply V c t p k hr
  rw [h0, h1, blk2_eq V c t, blk3_eq V c t, blk4_eq V c t, blk5_eq V c t, blk6_eq V c t, blk7_eq V c t]
  rfl

/-- What point t writes back is block t of the node-result array. -/
theorem flushed_eq (c : Dev nD) (t : Fin cfg1.N) :
    (dat1 (F := Ideal) V c).flushed 8 t
      = ((cfg1.win 8).blk t).view.read (Elt Ideal)
          (Spec.FIN (N := 50000) (V c main_arg0) (V c main_v37) (V c main_arg18) (V c main_arg19) (V c main_arg20)
            (V c main_arg21) (V c main_arg22) (V c main_arg23)) := by
  show (cfg1.win 8).cut (grid1.coords t) ((dat1 V c).after 8 t) = _
  rw [after1_8]
  funext j
  obtain ⟨p, q, rfl⟩ : ∃ (p : Fin 5000) (q : Fin 128), j = ix2 p q := ⟨j 0, j 1, eq_ix2 j⟩
  have ht : t.val < 10 := lt_of_lt_of_eq t.isLt N_1
  have hr : 5000 * t.val + p.val < 50000 := by have := p.isLt; omega
  obtain ⟨-, -, -, -, e0, e1⟩ := rowIndex t
  -- the block is not cut at the array's end: its entry (p, q) is the staged entry (p, q)
  have hx : (cfg1.win 8).xinj (grid1.coords t) (ix2 p q) = ix2 p q :=
    funext fun a => by match a with | ⟨0, _⟩ => rfl | ⟨1, _⟩ => rfl
  -- and sits in the array at row 5000 t + p, column q
  have hemb : ((cfg1.win 8).blk t).view.emb (ix2 p q) = (ix2 ⟨5000 * t.val + p.val, hr⟩ q : S50000x128.Idx) := by
    funext a
    apply Fin.ext
    match a with
    | ⟨0, _⟩ => show win1_8.index t (0 : Fin 2) * 5000 + 1 * p.val = 5000 * t.val + p.val; rw [e0]; omega
    | ⟨1, _⟩ => show win1_8.index t (1 : Fin 2) * 128 + 1 * q.val = q.val; rw [e1]; omega
  rw [View.read_apply]
  show out1_8 (F := Ideal) (iblk1 V c 0 t) (iblk1 V c 1 t) (iblk1 V c 2 t) (iblk1 V c 3 t) (iblk1 V c 4 t) (iblk1 V c 5 t)
        (iblk1 V c 6 t) (iblk1 V c 7 t) ((cfg1.win 8).xinj (grid1.coords t) (ix2 p q))
      = Spec.FIN (N := 50000) (V c main_arg0) (V c main_v37) (V c main_arg18) (V c main_arg19) (V c main_arg20)
          (V c main_arg21) (V c main_arg22) (V c main_arg23) (((cfg1.win 8).blk t).view.emb (ix2 p q))
  rw [hx, hemb]
  exact after_apply V c t p q hr

/-! ## The 10 blocks tile the array -/

/-- An index of the array is in point t's block iff each coordinate is in the block's range on its axis. -/
theorem mem_blk (t : Fin cfg1.N) (i : S50000x128.Idx) :
    i ∈ ((cfg1.win 8).blk t).view.set
      ↔ ∀ a : Fin 2, win1_8.index t a * S5000x128.size a ≤ (i a).val
          ∧ (i a).val < win1_8.index t a * S5000x128.size a + S5000x128.size a := by
  show i ∈ ((View.whole main_v38).slice (win1_8.rect t)).set ↔ _
  rw [View.set_slice_whole, Rect.mem_set_unit]
  exact Iff.rfl

/-- Row r of the array lies in the block of point r / 5000, and every point writes its block back. -/
theorem covered (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 10 := N_1
  have hlt : (i 0).val / 5000 < cfg1.N := by rw [hN]; omega
  refine ⟨⟨(i 0).val / 5000, hlt⟩, flush1_8 _, ?_⟩
  rw [mem_blk]
  obtain ⟨-, -, -, -, e0, e1⟩ := rowIndex ⟨(i 0).val / 5000, hlt⟩
  intro a
  match a with
  | ⟨0, _⟩ =>
    show win1_8.index ⟨(i 0).val / 5000, hlt⟩ (0 : Fin 2) * 5000 ≤ (i 0).val
      ∧ (i 0).val < win1_8.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_8.index ⟨(i 0).val / 5000, hlt⟩ (1 : Fin 2) * 128 ≤ (i 1).val
      ∧ (i 1).val < win1_8.index ⟨(i 0).val / 5000, hlt⟩ (1 : Fin 2) * 128 + 128
    rw [e1]
    omega

/-- After region 1 its result array holds every node's result, computed from the agents, the received sums and the six
    weight arrays as the region finds them. -/
theorem final1 (c : Dev nD) :
    (dat1 (F := Ideal) V c).arrAt 8 cfg1.N
      = Spec.FIN (N := 50000) (V c main_arg0) (V c main_v37) (V c main_arg18) (V c main_arg19) (V c main_arg20)
          (V c main_arg21) (V c main_arg22) (V c main_arg23) :=
  (dat1 V c).arrAt_eq_of_cover 8
    (Spec.FIN (N := 50000) (V c main_arg0) (V c main_v37) (V c main_arg18) (V c main_arg19) (V c main_arg20)
      (V c main_arg21) (V c main_arg22) (V c main_arg23))
    (fun t _ => flushed_eq V c t) covered

end Cert.KernelIdeal.Finish

end
-- ==== Proof.LibScatterRead.lean ====
/-
  The two accumulating scatters and the row gather of a sparse-times-dense product, read at an index on the extended
  reals.

  An accumulating scatter leaves, at every element of its operand, that element plus the sum of the updates that land
  on it; an update lands where its start index, read signed and not clamped, plus its window coordinate says, and is
  dropped when that is outside the operand. Two layouts occur here. CELLS: the operand is a matrix [R, C], the start
  indices are pairs (row, column) in an array [N, 2], and update `k` of a vector [N] lands on the cell its pair names.
  ROWS: the operand is [R, B], the start indices a column [N, 1] of rows, and the updates an array [N, B] whose row
  `k` lands, entry by entry, on the operand row its start index names. The gather is the inverse reading: an operand
  [S, B] at a column [N, 1] of start indices gives [N, B], row `k` the operand's row at the start index, read signed
  and clamped into [0, S - 1].
-/
import Idealize.ShloMosaic.Lib.ValueIdx

noncomputable section

open scoped BigOperators

namespace Cert.SparseMM

open Idealize.ShloMosaic Idealize.ShloMosaic.ValueIdx

/-! ## Where an update lands, for any dimension numbers -/

/-- An update index lands on operand index `i` exactly when on every axis its start plus its window coordinate is
    `i`'s coordinate: inside the operand the landing index is those sums, and outside it there is none. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      rw [← e']
      exact (Int.toNat_of_nonneg (h a).1).symm
    · intro e
      refine congrArg some (funext fun a => Fin.ext ?_)
      show (d.start j idx a + (d.window j a : Int)).toNat = (i a).val
      rw [e a]
      exact Int.toNat_natCast _
  · rename_i h
    constructor
    · intro e
      cases e
    · intro e
      refine absurd (fun a => ?_) h
      rw [e a]
      exact ⟨Int.natCast_nonneg _, by exact_mod_cast (i a).isLt⟩

/-- A vector's indices are its positions. -/
def idxEquiv1 {n : Nat} : (⟨1, ![n]⟩ : Shape).Idx ≃ Fin n where
  toFun i := i 0
  invFun k := ix1 k
  left_inv i := (eq_ix1 i).symm
  right_inv _ := rfl

/-! ## Cells: pairs (row, column) name the cell each update lands on -/

section Cells

/-- The dimension numbers of the scatter onto cells: no window axes, both operand axes inserted and named, in order,
    by the two entries of a start index, the index vector along axis 1. -/
abbrev cellDims (R C N : Nat) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

variable {R C N w : Nat} (wf : ScatterDims.WF ⟨2, ![R, C]⟩ ⟨2, ![N, 2]⟩ ⟨1, ![N]⟩ [] [0, 1] [0, 1] 1)

/-- On the row axis update `k` starts at the first entry of its pair. -/
theorem cell_start0 (idx : IVec ⟨2, ![N, 2]⟩ w) (k : Fin N) :
    (cellDims R C N wf).start (ix1 k) idx 0 = (idx (ix2 k 0)).toInt := by
  unfold ScatterDims.start
  rw [dif_pos (show (0 : Fin 2) ∈ ([0, 1] : List (Fin 2)) by decide)]
  have hsi : (cellDims R C N wf).siIdx (ix1 k) ⟨List.idxOf (0 : Fin 2) (cellDims R C N wf).scatterDimsToOperandDims,
      List.idxOf_lt_length_iff.2 (show (0 : Fin 2) ∈ ([0, 1] : List (Fin 2)) by decide)⟩ = ix2 k 0 := by
    funext b; refine Fin.ext ?_
    match b with
    | ⟨0, _⟩ => rfl
    | ⟨1, _⟩ => rfl
  rw [hsi]

/-- On the column axis it starts at the second entry. -/
theorem cell_start1 (idx : IVec ⟨2, ![N, 2]⟩ w) (k : Fin N) :
    (cellDims R C N wf).start (ix1 k) idx 1 = (idx (ix2 k 1)).toInt := by
  unfold ScatterDims.start
  rw [dif_pos (show (1 : Fin 2) ∈ ([0, 1] : List (Fin 2)) by decide)]
  have hsi : (cellDims R C N wf).siIdx (ix1 k) ⟨List.idxOf (1 : Fin 2) (cellDims R C N wf).scatterDimsToOperandDims,
      List.idxOf_lt_length_iff.2 (show (1 : Fin 2) ∈ ([0, 1] : List (Fin 2)) by decide)⟩ = ix2 k 1 := by
    funext b; refine Fin.ext ?_
    match b with
    | ⟨0, _⟩ => rfl
    | ⟨1, _⟩ => rfl
  rw [hsi]

/-- There is no window: both operand axes are inserted. -/
theorem cell_window (j : (⟨1, ![N]⟩ : Shape).Idx) (a : Fin 2) : (cellDims R C N wf).window j a = 0 := by
  unfold ScatterDims.window
  refine dif_neg ?_
  show ¬ (a ∈ ((List.finRange 2).filter (· ∉ ([0, 1] : List (Fin 2)))))
  revert a
  decide

/-- Update `k` lands on cell (r, c) exactly when its pair, read signed, is (r, c). -/
theorem cell_lands_iff (idx : IVec ⟨2, ![N, 2]⟩ w) (k : Fin N) (r : Fin R) (c : Fin C) :
    (cellDims R C N wf).resultIdx? (ix1 k) idx = some (ix2 r c) ↔
      (idx (ix2 k 0)).toInt = (r.val : Int) ∧ (idx (ix2 k 1)).toInt = (c.val : Int) := by
  rw [resultIdx?_eq_some_iff]
  constructor
  · intro h
    have h0 := h 0
    have h1 := h 1
    rw [cell_start0, cell_window, Nat.cast_zero, add_zero] at h0
    rw [cell_start1, cell_window, Nat.cast_zero, add_zero] at h1
    exact ⟨h0, h1⟩
  · intro h a
    match a with
    | ⟨0, _⟩ =>
      show (cellDims R C N wf).start (ix1 k) idx 0 + ((cellDims R C N wf).window (ix1 k) 0 : Int) = (r.val : Int)
      rw [cell_start0, cell_window, Nat.cast_zero, add_zero]; exact h.1
    | ⟨1, _⟩ =>
      show (cellDims R C N wf).start (ix1 k) idx 1 + ((cellDims R C N wf).window (ix1 k) 1 : Int) = (c.val : Int)
      rw [cell_start1, cell_window, Nat.cast_zero, add_zero]; exact h.2

/-- THE SCATTER ONTO CELLS READ AT (r, c): the operand's cell plus the sum of the updates whose pair is (r, c). -/
theorem scatterAdd_cells_apply {φ : FTy} (x : FVec Ideal ⟨2, ![R, C]⟩ φ) (idx : IVec ⟨2, ![N, 2]⟩ w)
    (upd : FVec Ideal ⟨1, ![N]⟩ φ) (r : Fin R) (c : Fin C) :
    Host.scatterAdd (cellDims R C N wf) x idx upd (ix2 r c)
      = x (ix2 r c) + ∑ k ∈ Finset.univ.filter (fun k : Fin N =>
          (idx (ix2 k 0)).toInt = (r.val : Int) ∧ (idx (ix2 k 1)).toInt = (c.val : Int)), upd (ix1 k) := by
  show Ideal.hostScatterAdd (cellDims R C N wf) x idx upd (ix2 r c) = _
  unfold Ideal.hostScatterAdd
  refine congrArg (x (ix2 r c) + ·) ?_
  refine Finset.sum_equiv idxEquiv1 (fun j => ?_) (fun j _ => congrArg upd (eq_ix1 j))
  rw [Finset.mem_filter, Finset.mem_filter]
  refine and_congr (by simp) ?_
  rw [eq_ix1 j]
  exact cell_lands_iff wf idx (j 0) r c

end Cells

/-! ## Rows: a column of row numbers names the operand row each update row lands on -/

section Rows

/-- The dimension numbers of the scatter onto rows: the updates' axis 1 is the window, the operand's axis 0 is inserted
    and named by the one entry of a start index, the index vector along axis 1. -/
abbrev rowDims (R B N : Nat) (wf : ScatterDims.WF ⟨2, ![R, B]⟩ ⟨2, ![N, 1]⟩ ⟨2, ![N, B]⟩ [1] [0] [0] 1) :
    ScatterDims ⟨2, ![R, B]⟩ ⟨2, ![N, 1]⟩ ⟨2, ![N, B]⟩ where
  updateWindowDims := [1]
  insertedWindowDims := [0]
  scatterDimsToOperandDims := [0]
  indexVectorDim := 1
  wf := wf

variable {R B N w : Nat} (wf : ScatterDims.WF ⟨2, ![R, B]⟩ ⟨2, ![N, 1]⟩ ⟨2, ![N, B]⟩ [1] [0] [0] 1)

/-- On the row axis update (k, b) starts at entry `k` of the column of row numbers. -/
theorem row_start0 (idx : IVec ⟨2, ![N, 1]⟩ w) (k : Fin N) (b : Fin B) :
    (rowDims R B N wf).start (ix2 k b) idx 0 = (idx (ix2 k 0)).toInt := by
  unfold ScatterDims.start
  rw [dif_pos (show (0 : Fin 2) ∈ ([0] : List (Fin 2)) by decide)]
  have hsi : (rowDims R B N wf).siIdx (ix2 k b) ⟨List.idxOf (0 : Fin 2) (rowDims R B N wf).scatterDimsToOperandDims,
      List.idxOf_lt_length_iff.2 (show (0 : Fin 2) ∈ ([0] : List (Fin 2)) by decide)⟩ = ix2 k 0 := by
    funext a; refine Fin.ext ?_
    match a with
    | ⟨0, _⟩ => rfl
    | ⟨1, _⟩ => rfl
  rw [hsi]

/-- On the other axis it starts at zero: no entry names it. -/
theorem row_start1 (idx : IVec ⟨2, ![N, 1]⟩ w) (j : (⟨2, ![N, B]⟩ : Shape).Idx) :
    (rowDims R B N wf).start j idx 1 = 0 := by
  unfold ScatterDims.start
  exact dif_neg (show ¬ ((1 : Fin 2) ∈ ([0] : List (Fin 2))) by decide)

/-- The row axis is inserted: no window coordinate there. -/
theorem row_window0 (j : (⟨2, ![N, B]⟩ : Shape).Idx) : (rowDims R B N wf).window j 0 = 0 := by
  unfold ScatterDims.window
  exact dif_neg (show ¬ ((0 : Fin 2) ∈ ((List.finRange 2).filter (· ∉ ([0] : List (Fin 2))))) by decide)

/-- On the other axis the window coordinate is the update's own. -/
theorem row_window1 (k : Fin N) (b : Fin B) : (rowDims R B N wf).window (ix2 k b) 1 = b.val := by
  unfold ScatterDims.window
  have h1 : (1 : Fin 2) ∈ (rowDims R B N wf).sKept :=
    show (1 : Fin 2) ∈ ((List.finRange 2).filter (· ∉ ([0] : List (Fin 2)))) by decide
  rw [dif_pos h1]
  rfl

/-- Update (k, b') lands on (r, b) exactly when entry `k` of the row numbers, read signed, is `r`, and b' is b. -/
theorem row_lands_iff (idx : IVec ⟨2, ![N, 1]⟩ w) (k : Fin N) (b' : Fin B) (r : Fin R) (b : Fin B) :
    (rowDims R B N wf).resultIdx? (ix2 k b') idx = some (ix2 r b) ↔
      (idx (ix2 k 0)).toInt = (r.val : Int) ∧ b' = b := by
  rw [resultIdx?_eq_some_iff]
  constructor
  · intro h
    have h0 := h 0
    have h1 := h 1
    rw [row_start0, row_window0, Nat.cast_zero, add_zero] at h0
    rw [row_start1, row_window1, zero_add] at h1
    exact ⟨h0, Fin.ext (by exact_mod_cast h1)⟩
  · intro h a
    match a with
    | ⟨0, _⟩ =>
      show (rowDims R B N wf).start (ix2 k b') idx 0 + ((rowDims R B N wf).window (ix2 k b') 0 : Int) = (r.val : Int)
      rw [row_start0, row_window0, Nat.cast_zero, add_zero]; exact h.1
    | ⟨1, _⟩ =>
      show (rowDims R B N wf).start (ix2 k b') idx 1 + ((rowDims R B N wf).window (ix2 k b') 1 : Int) = (b.val : Int)
      rw [row_start1, row_window1, zero_add, h.2]

/-- THE SCATTER ONTO ROWS READ AT (r, b): the operand's entry plus the sum, over the update rows `k` whose row number is
    `r`, of entry `b` of update row `k`. -/
theorem scatterAdd_rows_apply {φ : FTy} (x : FVec Ideal ⟨2, ![R, B]⟩ φ) (idx : IVec ⟨2, ![N, 1]⟩ w)
    (upd : FVec Ideal ⟨2, ![N, B]⟩ φ) (r : Fin R) (b : Fin B) :
    Host.scatterAdd (rowDims R B N wf) x idx upd (ix2 r b)
      = x (ix2 r b) + ∑ k ∈ Finset.univ.filter (fun k : Fin N => (idx (ix2 k 0)).toInt = (r.val : Int)), upd (ix2 k b) := by
  show Ideal.hostScatterAdd (rowDims R B N wf) x idx upd (ix2 r b) = _
  unfold Ideal.hostScatterAdd
  refine congrArg (x (ix2 r b) + ·) ?_
  have lands : ∀ j : (⟨2, ![N, B]⟩ : Shape).Idx, (rowDims R B N wf).resultIdx? j idx = some (ix2 r b) →
      (idx (ix2 (j 0 : Fin N) 0)).toInt = (r.val : Int) ∧ (j 1 : Fin B) = b := by
    intro j hj
    rw [eq_ix2 j] at hj
    exact (row_lands_iff wf idx (j 0) (j 1) r b).mp hj
  refine Finset.sum_bij' (fun j _ => (j 0 : Fin N)) (fun k _ => ix2 k b) ?_ ?_ ?_ ?_ ?_
  · intro j hj
    exact Finset.mem_filter.mpr ⟨Finset.mem_univ _, (lands j (Finset.mem_filter.mp hj).2).1⟩
  · intro k hk
    exact Finset.mem_filter.mpr ⟨Finset.mem_univ _,
      (row_lands_iff wf idx k b r b).mpr ⟨(Finset.mem_filter.mp hk).2, rfl⟩⟩
  · intro j hj
    have hb := (lands j (Finset.mem_filter.mp hj).2).2
    show ix2 (j 0 : Fin N) b = j
    rw [← hb]
    exact (eq_ix2 j).symm
  · intro k _
    rfl
  · intro j hj
    have hb := (lands j (Finset.mem_filter.mp hj).2).2
    show upd j = upd (ix2 (j 0 : Fin N) b)
    rw [← hb]
    exact congrArg upd (eq_ix2 j)

end Rows

/-! ## The row gather -/

section RowGather
variable {α : Type}

/-- The dimension numbers of the row gather for an operand [S, B], start indices [N, 1] and a result [N, B]: the
    result's axis 1 is the offset axis, the operand's axis 0 is collapsed and named by the one entry of a start index,
    slices of shape [1, B]. -/
abbrev rowGatherDims (S B N : Nat)
    (wf : GatherDims.WF ⟨2, ![S, B]⟩ ⟨2, ![N, 1]⟩ ⟨2, ![N, B]⟩ [1] [0] [] [0] [] 1 ![1, B]) :
    GatherDims ⟨2, ![S, B]⟩ ⟨2, ![N, 1]⟩ ⟨2, ![N, B]⟩ where
  offsetDims := [1]
  collapsedSliceDims := [0]
  operandBatchingDims := []
  startIndicesBatchingDims := []
  startIndexMap := [0]
  indexVectorDim := 1
  sliceSizes := ![1, B]
  wf := wf

/-- THE ROW GATHER READ AT (k, b): the operand at the row start index `k` names, read signed and clamped into
    [0, S - 1], and at column `b`. -/
theorem gather_rows_apply {S B N w : Nat} (hS : 0 < S)
    (wf : GatherDims.WF ⟨2, ![S, B]⟩ ⟨2, ![N, 1]⟩ ⟨2, ![N, B]⟩ [1] [0] [] [0] [] 1 ![1, B])
    (x : (⟨2, ![S, B]⟩ : Shape).Idx → α) (idx : IVec ⟨2, ![N, 1]⟩ w) (k : Fin N) (b : Fin B) :
    Host.gather (rowGatherDims S B N wf) x idx (ix2 k b)
      = x (ix2 ⟨min (idx (ix2 k 0)).toInt.toNat (S - 1), by omega⟩ b) := by
  unfold Host.gather
  congr 1
  funext a
  refine Fin.ext ?_
  match a with
  | ⟨0, _⟩ =>
    show (rowGatherDims S B N wf).start (ix2 k b) idx 0 + (rowGatherDims S B N wf).batchCoord (ix2 k b) 0
      + (rowGatherDims S B N wf).offCoord (ix2 k b) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 2) ∈ ([0] : List (Fin 2)) by decide))]
    simp only [Nat.add_zero]
    unfold GatherDims.start
    rw [dif_pos (show (0 : Fin 2) ∈ ([0] : List (Fin 2)) by decide)]
    have hsi : (rowGatherDims S B N wf).siIdx (ix2 k b) ⟨List.idxOf (0 : Fin 2) (rowGatherDims S B N wf).startIndexMap,
        List.idxOf_lt_length_iff.2 (show (0 : Fin 2) ∈ ([0] : List (Fin 2)) by decide)⟩ = ix2 k 0 := by
      funext c; refine Fin.ext ?_
      match c with
      | ⟨0, _⟩ => rfl
      | ⟨1, _⟩ => rfl
    rw [hsi]
    rfl
  | ⟨1, _⟩ =>
    show (rowGatherDims S B N wf).start (ix2 k b) idx 1 + (rowGatherDims S B N wf).batchCoord (ix2 k b) 1
      + (rowGatherDims S B N wf).offCoord (ix2 k b) 1 = b.val
    rw [GatherDims.batchCoord_eq_zero _ _ _ List.not_mem_nil]
    unfold GatherDims.start GatherDims.offCoord
    rw [dif_neg (show ¬ ((1 : Fin 2) ∈ ([0] : List (Fin 2))) by decide),
      dif_pos ((GatherDims.mem_sKept _ _).mpr
        ⟨show ¬ ((1 : Fin 2) ∈ ([0] : List (Fin 2))) by decide, List.not_mem_nil⟩)]
    simp only [Nat.add_zero, Nat.zero_add]
    rfl

end RowGather

end Cert.SparseMM

end
-- ==== Proof.Glue.lean ====
/- The host operations around the two regions, read: what each region finds in its operand arrays, in terms of the launch
   memory, and with them the kernel program's result as the whole computation of the launch memory. -/
import proofs.«420649_j32882269618299_3_alg».proof.Proof.Gen.KernelIdeal.Frame
import proofs.«420649_j32882269618299_3_alg».proof.Proof.RefRead
import proofs.«420649_j32882269618299_3_alg».proof.Proof.Spec
import proofs.«420649_j32882269618299_3_alg».proof.Proof.EdgeValue
import proofs.«420649_j32882269618299_3_alg».proof.Proof.FinishValue
import proofs.«420649_j32882269618299_3_alg».proof.Proof.LibScatterRead
import Idealize.ShloMosaic.Lib.StableHlo.Run
import Idealize.ShloMosaic.PureOps.Ideal.Laws

set_option maxRecDepth 16384

noncomputable section

namespace Cert.KernelIdeal.Glue

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat Cfg Window)

variable (m : (ℓ : Loc nD τ sig) → Buf (Elt Ideal) ℓ) (ρ : Dev nD → PrngReg)

/-! ## Before region 0: the three gathered edge arrays are the reference's own terms of the launch memory, the weights are as launched -/

theorem V1_v14 (c : Dev nD) : V1 m ρ c main_v14
    = Cert.ReferenceIdeal.Read.val_main_v14 (F := Ideal) (m ((c.tc : Thread nD τ).loc main_arg2)) (m ((c.tc : Thread nD τ).loc main_arg3)) (m ((c.tc : Thread nD τ).loc main_arg4)) (m ((c.tc : Thread nD τ).loc main_arg5)) := by
  show StableHlo.after hostOps0 (W0 m ρ c) (Proc.devRef .tc main_v14) = _
  after_results_simp <;> rfl

theorem V1_v21 (c : Dev nD) : V1 m ρ c main_v21
    = Cert.ReferenceIdeal.Read.val_main_v52 (F := Ideal) (m ((c.tc : Thread nD τ).loc main_arg0)) (m ((c.tc : Thread nD τ).loc main_arg4)) := by
  show StableHlo.after hostOps0 (W0 m ρ c) (Proc.devRef .tc main_v21) = _
  after_results_simp <;> rfl

theorem V1_v28 (c : Dev nD) : V1 m ρ c main_v28
    = Cert.ReferenceIdeal.Read.val_main_v85 (F := Ideal) (m ((c.tc : Thread nD τ).loc main_arg1)) (m ((c.tc : Thread nD τ).loc main_arg5)) := by
  show StableHlo.after hostOps0 (W0 m ρ c) (Proc.devRef .tc main_v28) = _
  after_results_simp <;> rfl

theorem V1_arg0' (c : Dev nD) : W1 m ρ c (Proc.devRef .tc main_arg0) = m ((c.tc : Thread nD τ).loc main_arg0) := by
  show StableHlo.after hostOps0 (W0 m ρ c) (Proc.devRef .tc main_arg0) = _
  after_results_simp <;> rfl
theorem V1_arg4' (c : Dev nD) : W1 m ρ c (Proc.devRef .tc main_arg4) = m ((c.tc : Thread nD τ).loc main_arg4) := by
  show StableHlo.after hostOps0 (W0 m ρ c) (Proc.devRef .tc main_arg4) = _
  after_results_simp <;> rfl
theorem V1_arg6' (c : Dev nD) : W1 m ρ c (Proc.devRef .tc main_arg6) = m ((c.tc : Thread nD τ).loc main_arg6) := by
  show StableHlo.after hostOps0 (W0 m ρ c) (Proc.devRef .tc main_arg6) = _
  after_results_simp <;> rfl
theorem V1_arg7' (c : Dev nD) : W1 m ρ c (Proc.devRef .tc main_arg7) = m ((c.tc : Thread nD τ).loc main_arg7) := by
  show StableHlo.after hostOps0 (W0 m ρ c) (Proc.devRef .tc main_arg7) = _
  after_results_simp <;> rfl
theorem V1_arg8' (c : Dev nD) : W1 m ρ c (Proc.devRef .tc main_arg8) = m ((c.tc : Thread nD τ).loc main_arg8) := by
  show StableHlo.after hostOps0 (W0 m ρ c) (Proc.devRef .tc main_arg8) = _
  after_results_simp <;> rfl
theorem V1_arg9' (c : Dev nD) : W1 m ρ c (Proc.devRef .tc main_arg9) = m ((c.tc : Thread nD τ).loc main_arg9) := by
  show StableHlo.after hostOps0 (W0 m ρ c) (Proc.devRef .tc main_arg9) = _
  after_results_simp <;> rfl
theorem V1_arg10' (c : Dev nD) : W1 m ρ c (Proc.devRef .tc main_arg10) = m ((c.tc : Thread nD τ).loc main_arg10) := by
  show StableHlo.after hostOps0 (W0 m ρ c) (Proc.devRef .tc main_arg10) = _
  after_results_simp <;> rfl
theorem V1_arg11' (c : Dev nD) : W1 m ρ c (Proc.devRef .tc main_arg11) = m ((c.tc : Thread nD τ).loc main_arg11) := by
  show StableHlo.after hostOps0 (W0 m ρ c) (Proc.devRef .tc main_arg11) = _
  after_results_simp <;> rfl
theorem V1_arg12' (c : Dev nD) : W1 m ρ c (Proc.devRef .tc main_arg12) = m ((c.tc : Thread nD τ).loc main_arg12) := by
  show StableHlo.after hostOps0 (W0 m ρ c) (Proc.devRef .tc main_arg12) = _
  after_results_simp <;> rfl
theorem V1_arg13' (c : Dev nD) : W1 m ρ c (Proc.devRef .tc main_arg13) = m ((c.tc : Thread nD τ).loc main_arg13) := by
  show StableHlo.after hostOps0 (W0 m ρ c) (Proc.devRef .tc main_arg13) = _
  after_results_simp <;> rfl
theorem V1_arg14' (c : Dev nD) : W1 m ρ c (Proc.devRef .tc main_arg14) = m ((c.tc : Thread nD τ).loc main_arg14) := by
  show StableHlo.after hostOps0 (W0 m ρ c) (Proc.devRef .tc main_arg14) = _
  after_results_simp <;> rfl
theorem V1_arg15' (c : Dev nD) : W1 m ρ c (Proc.devRef .tc main_arg15) = m ((c.tc : Thread nD τ).loc main_arg15) := by
  show StableHlo.after hostOps0 (W0 m ρ c) (Proc.devRef .tc main_arg15) = _
  after_results_simp <;> rfl
theorem V1_arg16' (c : Dev nD) : W1 m ρ c (Proc.devRef .tc main_arg16) = m ((c.tc : Thread nD τ).loc main_arg16) := by
  show StableHlo.after hostOps0 (W0 m ρ c) (Proc.devRef .tc main_arg16) = _
  after_results_simp <;> rfl
theorem V1_arg17' (c : Dev nD) : W1 m ρ c (Proc.devRef .tc main_arg17) = m ((c.tc : Thread nD τ).loc main_arg17) := by
  show StableHlo.after hostOps0 (W0 m ρ c) (Proc.devRef .tc main_arg17) = _
  after_results_simp <;> rfl
theorem V1_arg18' (c : Dev nD) : W1 m ρ c (Proc.devRef .tc main_arg18) = m ((c.tc : Thread nD τ).loc main_arg18) := by
  show StableHlo.after hostOps0 (W0 m ρ c) (Proc.devRef .tc main_arg18) = _
  after_results_simp <;> rfl
theorem V1_arg19' (c : Dev nD) : W1 m ρ c (Proc.devRef .tc main_arg19) = m ((c.tc : Thread nD τ).loc main_arg19) := by
  show StableHlo.after hostOps0 (W0 m ρ c) (Proc.devRef .tc main_arg19) = _
  after_results_simp <;> rfl
theorem V1_arg20' (c : Dev nD) : W1 m ρ c (Proc.devRef .tc main_arg20) = m ((c.tc : Thread nD τ).loc main_arg20) := by
  show StableHlo.after hostOps0 (W0 m ρ c) (Proc.devRef .tc main_arg20) = _
  after_results_simp <;> rfl
theorem V1_arg21' (c : Dev nD) : W1 m ρ c (Proc.devRef .tc main_arg21) = m ((c.tc : Thread nD τ).loc main_arg21) := by
  show StableHlo.after hostOps0 (W0 m ρ c) (Proc.devRef .tc main_arg21) = _
  after_results_simp <;> rfl
theorem V1_arg22' (c : Dev nD) : W1 m ρ c (Proc.devRef .tc main_arg22) = m ((c.tc : Thread nD τ).loc main_arg22) := by
  show StableHlo.after hostOps0 (W0 m ρ c) (Proc.devRef .tc main_arg22) = _
  after_results_simp <;> rfl
theorem V1_arg23' (c : Dev nD) : W1 m ρ c (Proc.devRef .tc main_arg23) = m ((c.tc : Thread nD τ).loc main_arg23) := by
  show StableHlo.after hostOps0 (W0 m ρ c) (Proc.devRef .tc main_arg23) = _
  after_results_simp <;> rfl

/-! ## Between the regions: region 1 finds the agents and its weights as launched, and the scatter of region 0's result onto zeros -/

theorem V3_arg0 (c : Dev nD) : V3 m ρ c main_arg0 = m ((c.tc : Thread nD τ).loc main_arg0) := by
  show StableHlo.after hostOps1 (W2 m ρ c) (Proc.devRef .tc main_arg0) = _
  after_results_simp
  exact (W2_of_ne m ρ c main_arg0 (by decide)).trans (V1_arg0' m ρ c)
theorem V3_arg18 (c : Dev nD) : V3 m ρ c main_arg18 = m ((c.tc : Thread nD τ).loc main_arg18) := by
  show StableHlo.after hostOps1 (W2 m ρ c) (Proc.devRef .tc main_arg18) = _
  after_results_simp
  exact (W2_of_ne m ρ c main_arg18 (by decide)).trans (V1_arg18' m ρ c)
theorem V3_arg19 (c : Dev nD) : V3 m ρ c main_arg19 = m ((c.tc : Thread nD τ).loc main_arg19) := by
  show StableHlo.after hostOps1 (W2 m ρ c) (Proc.devRef .tc main_arg19) = _
  after_results_simp
  exact (W2_of_ne m ρ c main_arg19 (by decide)).trans (V1_arg19' m ρ c)
theorem V3_arg20 (c : Dev nD) : V3 m ρ c main_arg20 = m ((c.tc : Thread nD τ).loc main_arg20) := by
  show StableHlo.after hostOps1 (W2 m ρ c) (Proc.devRef .tc main_arg20) = _
  after_results_simp
  exact (W2_of_ne m ρ c main_arg20 (by decide)).trans (V1_arg20' m ρ c)
theorem V3_arg21 (c : Dev nD) : V3 m ρ c main_arg21 = m ((c.tc : Thread nD τ).loc main_arg21) := by
  show StableHlo.after hostOps1 (W2 m ρ c) (Proc.devRef .tc main_arg21) = _
  after_results_simp
  exact (W2_of_ne m ρ c main_arg21 (by decide)).trans (V1_arg21' m ρ c)
theorem V3_arg22 (c : Dev nD) : V3 m ρ c main_arg22 = m ((c.tc : Thread nD τ).loc main_arg22) := by
  show StableHlo.after hostOps1 (W2 m ρ c) (Proc.devRef .tc main_arg22) = _
  after_results_simp
  exact (W2_of_ne m ρ c main_arg22 (by decide)).trans (V1_arg22' m ρ c)
theorem V3_arg23 (c : Dev nD) : V3 m ρ c main_arg23 = m ((c.tc : Thread nD τ).loc main_arg23) := by
  show StableHlo.after hostOps1 (W2 m ρ c) (Proc.devRef .tc main_arg23) = _
  after_results_simp
  exact (W2_of_ne m ρ c main_arg23 (by decide)).trans (V1_arg23' m ρ c)

/-- The column of row numbers the kernel program's scatter takes is the reference's. -/
theorem V3_v37 (c : Dev nD) : V3 m ρ c main_v37
    = Host.scatterAdd scatter_S50000x128_S500000x1_S500000x128_1_0_0_1
        (broadcastInDim S50000x128 ![] Facts₀.bcast_S_S50000x128 (constant (F := Ideal) S_ .f32 0x00000000#32))
        (Cert.ReferenceIdeal.Read.val_main_v120 (F := Ideal) (m ((c.tc : Thread nD τ).loc main_arg4)))
        ((dat0 (F := Ideal) (V1 m ρ) c).arrAt 15 cfg0.N) := by
  show StableHlo.after hostOps1 (W2 m ρ c) (Proc.devRef .tc main_v37) = _
  after_results_simp
  rw [show W2 m ρ c (Proc.devRef .tc main_arg4) = m ((c.tc : Thread nD τ).loc main_arg4) from
        (W2_of_ne m ρ c main_arg4 (by decide)).trans (V1_arg4' m ρ c),
      show W2 m ρ c (Proc.devRef .tc main_v29) = (dat0 (F := Ideal) (V1 m ρ) c).arrAt 15 cfg0.N from W2_arr m ρ c 15]
  rfl

/-- A scatter-add onto zeros reads, at every entry, as the sum of the updates that land there. -/
theorem scatter_zero (idx : IVec S500000x1 32) (U : FVec Ideal S500000x128 .f32) :
    Host.scatterAdd scatter_S50000x128_S500000x1_S500000x128_1_0_0_1
        (broadcastInDim S50000x128 ![] Facts₀.bcast_S_S50000x128 (constant (F := Ideal) S_ .f32 0x00000000#32)) idx U
      = Spec.SCAT (E := 500000) (N := 50000) idx U := by
  funext i
  obtain ⟨r, b, rfl⟩ : ∃ (r : Fin 50000) (b : Fin 128), i = ix2 r b := ⟨i 0, i 1, eq_ix2 i⟩
  refine (Cert.SparseMM.scatterAdd_rows_apply (R := 50000) (B := 128) (N := 500000) Facts₀.scatter_S50000x128_S500000x1_S500000x128_1_0_0_1_wf _ idx U r b).trans ?_
  have hz : (broadcastInDim S50000x128 ![] Facts₀.bcast_S_S50000x128 (constant (F := Ideal) S_ .f32 0x00000000#32)) (ix2 r b) = (0 : EReal) := by
    show Ideal.ofBits .f32 0x00000000#32 = 0
    exact Ideal.ofBits_zero_f32
  rw [hz, zero_add]
  rfl

/-! ## The kernel program's result -/

set_option maxHeartbeats 4000000 in
/-- What the result buffer holds at the end: the whole computation, of the launch memory's agents and weights, the
    reference's own three gathered arrays and its column of row numbers. -/
theorem kernel_value (c : Dev nD) :
    W4 m ρ c (Proc.devRef .tc main_v38)
      = Spec.OUT (E := 500000) (N := 50000) (m ((c.tc : Thread nD τ).loc main_arg0))
          (Cert.ReferenceIdeal.Read.val_main_v14 (F := Ideal) (m ((c.tc : Thread nD τ).loc main_arg2)) (m ((c.tc : Thread nD τ).loc main_arg3)) (m ((c.tc : Thread nD τ).loc main_arg4)) (m ((c.tc : Thread nD τ).loc main_arg5)))
          (Cert.ReferenceIdeal.Read.val_main_v52 (F := Ideal) (m ((c.tc : Thread nD τ).loc main_arg0)) (m ((c.tc : Thread nD τ).loc main_arg4)))
          (Cert.ReferenceIdeal.Read.val_main_v85 (F := Ideal) (m ((c.tc : Thread nD τ).loc main_arg1)) (m ((c.tc : Thread nD τ).loc main_arg5)))
          (Cert.ReferenceIdeal.Read.val_main_v120 (F := Ideal) (m ((c.tc : Thread nD τ).loc main_arg4)))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := by
  refine (W4_arr m ρ c 8).trans ?_
  rw [Cert.KernelIdeal.Finish.final1 (V3 m ρ) c]
  rw [V3_arg0, V3_v37, V3_arg18, V3_arg19, V3_arg20, V3_arg21, V3_arg22, V3_arg23]
  rw [Cert.KernelIdeal.Edge.final0 (V1 m ρ) c]
  rw [V1_v14, V1_v21, V1_v28]
  rw [show V1 m ρ c main_arg6 = _ from V1_arg6' m ρ c, show V1 m ρ c main_arg7 = _ from V1_arg7' m ρ c,
      show V1 m ρ c main_arg8 = _ from V1_arg8' m ρ c, show V1 m ρ c main_arg9 = _ from V1_arg9' m ρ c,
      show V1 m ρ c main_arg10 = _ from V1_arg10' m ρ c, show V1 m ρ c main_arg11 = _ from V1_arg11' m ρ c,
      show V1 m ρ c main_arg12 = _ from V1_arg12' m ρ c, show V1 m ρ c main_arg13 = _ from V1_arg13' m ρ c,
      show V1 m ρ c main_arg14 = _ from V1_arg14' m ρ c, show V1 m ρ c main_arg15 = _ from V1_arg15' m ρ c,
      show V1 m ρ c main_arg16 = _ from V1_arg16' m ρ c, show V1 m ρ c main_arg17 = _ from V1_arg17' m ρ c]
  rw [scatter_zero]
  rfl

end Cert.KernelIdeal.Glue

end
-- ==== Proof.RefMsg.lean ====
/- The reference's message stages read at an index: its message array is the message function of its three gathered arrays. -/
import proofs.«420649_j32882269618299_3_alg».proof.Proof.RefRead
import proofs.«420649_j32882269618299_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefMsg

open Cert.ReferenceIdeal Cert.ReferenceIdeal.Gen Cert.ReferenceIdeal.Read Idealize.ShloMosaic Idealize.ShloMosaic.TcCoe Idealize.SL.Sem Idealize.ShloMosaic.ValueIdx Idealize.ShloMosaic.StableHlo

/-! ## The reference's array operations, named once -/

/-- An f32 array of shape s at the ideal values. -/
abbrev Arr (s : Shape) : Type := FVec Ideal s .f32

/-- Every entry's maximum with the zero word. -/
def reluA (Y : Arr S500000x128) : Arr S500000x128 :=
  maximumf Y (broadcastInDim S500000x128 ![] bcast_S_S500000x128 (constant (F := Ideal) S_ .f32 0x00000000#32))

/-- Each row's sum, started from the zero word. -/
def rowSum (Y : Arr S500000x128) : Arr S500000 :=
  Host.reduceAdd (F := Ideal) Y (constant (F := Ideal) S_ .f32 0x00000000#32) reducesTo_S500000x128_S500000_d1 h_S_

/-- A vector as a column. -/
def col (v : Arr S500000) : Arr S500000x1 := broadcastInDim S500000x1 ![0] bcast_S500000_S500000x1_0 v

/-- The column whose every entry is the word w. -/
def cstCol (w : BitVec 32) : Arr S500000x1 := broadcastInDim S500000x1 ![] bcast_S_S500000x1 (constant (F := Ideal) S_ .f32 w)

/-- A column repeated along 128 columns. -/
def wide (c : Arr S500000x1) : Arr S500000x128 := broadcastInDim S500000x128 ![0, 1] bcast_S500000x1_S500000x128_0_1 c

/-- A vector of 128 entries repeated along the rows. -/
def rowB (g : Arr S128) : Arr S500000x128 :=
  broadcastInDim S500000x128 ![0, 1] bcast_S1x128_S500000x128_0_1 (broadcastInDim S1x128 ![1] bcast_S128_S1x128_1 g)

/-- Each row's mean, as a column. -/
def meanA (Y : Arr S500000x128) : Arr S500000x1 := Host.divf (F := Ideal) (col (rowSum Y)) (cstCol 0x43000000#32)

/-- Each entry less its row's mean. -/
def cenA (Y : Arr S500000x128) : Arr S500000x128 := subf Y (wide (meanA Y))

/-- Each row's variance, as a column. -/
def varA (Y : Arr S500000x128) : Arr S500000x1 :=
  Host.divf (F := Ideal) (col (rowSum (mulf (cenA Y) (cenA Y)))) (cstCol 0x43000000#32)

/-- Each row normalised, scaled by g and shifted by b. -/
def gnA (Y : Arr S500000x128) (g b : Arr S128) : Arr S500000x128 :=
  addf (mulf (mulf (cenA Y) (wide (Host.rsqrt (F := Ideal) (addf (varA Y) (cstCol 0x3727C5AC#32))))) (rowB g)) (rowB b)

theorem reluA_apply (Y : Arr S500000x128) (i : S500000x128.Idx) : reluA Y i = Spec.relu (Y i) := by
  unfold reluA Spec.relu
  show max (Y i) _ = max (Y i) 0
  refine congrArg (max (Y i)) ?_
  refine (broadcastInDim_apply _ bcast_S_S500000x128 _ i (fun a => a.elim0) (fun a => a.elim0)).trans ?_
  exact Ideal.ofBits_zero_f32

theorem rowSum_apply (Y : Arr S500000x128) (e : Fin 500000) : rowSum Y (ix1 e) = ∑ k : Fin 128, Y (ix2 e k) := by
  unfold rowSum
  simp only [Host.reduceAdd, Ideal.hostReduceAdd_def]
  rw [Ideal.hostReduceAdd_single reducesTo_S500000x128_S500000_d1 (by decide)]
  refine (congrArg (· + _) (show constant (F := Ideal) S_ .f32 0x00000000#32 (Shape.Idx.first h_S_) = 0 from Ideal.ofBits_zero_f32)).trans ?_
  rw [zero_add]
  refine Finset.sum_congr rfl fun k _ => ?_
  exact congrArg Y (funext fun a => Fin.ext (by match a with | ⟨0, _⟩ => rfl | ⟨1, _⟩ => rfl))

theorem col_apply (v : Arr S500000) (e : Fin 500000) (z : Fin 1) : col v (ix2 e z) = v (ix1 e) := by
  unfold col
  exact broadcastInDim_apply _ bcast_S500000_S500000x1_0 v (ix2 e z) (ix1 e) (fun a => match a with
    | ⟨0, _⟩ => by show e.val = if (500000 : Nat) = 1 then 0 else e.val; rw [if_neg (by decide)])

theorem cstCol_apply (w : BitVec 32) (i : S500000x1.Idx) : cstCol w i = Ideal.ofBits .f32 w := by
  unfold cstCol
  exact broadcastInDim_apply _ bcast_S_S500000x1 _ i (fun a => a.elim0) (fun a => a.elim0)

theorem wide_apply (c : Arr S500000x1) (e : Fin 500000) (j : Fin 128) : wide c (ix2 e j) = c (ix2 e 0) := by
  unfold wide
  exact broadcastInDim_apply _ bcast_S500000x1_S500000x128_0_1 c (ix2 e j) (ix2 e 0) (fun a => match a with
    | ⟨0, _⟩ => by show e.val = if (500000 : Nat) = 1 then 0 else e.val; rw [if_neg (by decide)]
    | ⟨1, _⟩ => by show 0 = if (1 : Nat) = 1 then 0 else j.val; rw [if_pos rfl])

theorem rowB_apply (g : Arr S128) (e : Fin 500000) (j : Fin 128) : rowB g (ix2 e j) = g (ix1 j) := by
  unfold rowB
  refine (broadcastInDim_apply _ bcast_S1x128_S500000x128_0_1 _ (ix2 e j) (ix2 0 j) (fun a => match a with
    | ⟨0, _⟩ => by show 0 = if (1 : Nat) = 1 then 0 else e.val; rw [if_pos rfl]
    | ⟨1, _⟩ => by show j.val = if (128 : Nat) = 1 then 0 else j.val; rw [if_neg (by decide)])).trans ?_
  exact broadcastInDim_apply _ bcast_S128_S1x128_1 g (ix2 0 j) (ix1 j) (fun a => match a with
    | ⟨0, _⟩ => by show j.val = if (128 : Nat) = 1 then 0 else j.val; rw [if_neg (by decide)])

theorem meanA_apply (Y : Arr S500000x128) (e : Fin 500000) : meanA Y (ix2 e 0) = Spec.mean (fun k => Y (ix2 e k)) := by
  unfold meanA Spec.mean
  show Ideal.div (col (rowSum Y) (ix2 e 0)) (cstCol 0x43000000#32 (ix2 e 0)) = _
  rw [col_apply, rowSum_apply, cstCol_apply]

theorem cenA_apply (Y : Arr S500000x128) (e : Fin 500000) (j : Fin 128) :
    cenA Y (ix2 e j) = Y (ix2 e j) - Spec.mean (fun k => Y (ix2 e k)) := by
  unfold cenA
  show Y (ix2 e j) - wide (meanA Y) (ix2 e j) = _
  rw [wide_apply, meanA_apply]

theorem varA_apply (Y : Arr S500000x128) (e : Fin 500000) : varA Y (ix2 e 0) = Spec.var (fun k => Y (ix2 e k)) := by
  unfold varA Spec.var
  show Ideal.div (col (rowSum (mulf (cenA Y) (cenA Y))) (ix2 e 0)) (cstCol 0x43000000#32 (ix2 e 0)) = _
  rw [col_apply, rowSum_apply, cstCol_apply]
  refine congrArg (fun s => Ideal.div s _) (Finset.sum_congr rfl fun k _ => ?_)
  show cenA Y (ix2 e k) * cenA Y (ix2 e k) = _
  rw [cenA_apply]

theorem gnA_apply (Y : Arr S500000x128) (g b : Arr S128) (e : Fin 500000) (j : Fin 128) :
    gnA Y g b (ix2 e j) = Spec.gn (fun k => Y (ix2 e k)) (Spec.vec g) (Spec.vec b) j := by
  unfold gnA Spec.gn
  show cenA Y (ix2 e j) * wide (Host.rsqrt (F := Ideal) (addf (varA Y) (cstCol 0x3727C5AC#32))) (ix2 e j) * rowB g (ix2 e j) + rowB b (ix2 e j) = _
  rw [wide_apply, rowB_apply, rowB_apply, cenA_apply]
  show (_ - _) * Ideal.rsqrt (varA Y (ix2 e 0) + cstCol 0x3727C5AC#32 (ix2 e 0)) * _ + _ = _
  rw [varA_apply, cstCol_apply]

/-- The three arrays joined along the columns, read at row e and column k: the joined row. -/
theorem cat_apply (A B C : Arr S500000x128) (e : Fin 500000) (k : Fin 384) :
    concatenate S500000x384 1 [⟨S500000x128, A⟩, ⟨S500000x128, B⟩, ⟨S500000x128, C⟩]
        concatenates_S500000x128_S500000x128_S500000x128_S500000x384_d1 (ix2 e k)
      = Spec.cat3 (fun k => A (ix2 e k)) (fun k => B (ix2 e k)) (fun k => C (ix2 e k)) k := by
  unfold Spec.cat3
  by_cases h1 : k.val < 128
  · rw [dif_pos h1]
    exact concatenate_apply_piece _ _ _ (ix2 e k) 0 (by show 0 < 3; omega) S500000x128 A rfl rfl 0 rfl (ix2 e ⟨k.val, h1⟩)
      (fun b hb => by match b with
        | ⟨0, _⟩ => rfl
        | ⟨1, _⟩ => exact absurd (Fin.ext rfl) hb)
      (by show 0 + k.val = k.val; omega)
  · rw [dif_neg h1]
    by_cases h2 : k.val < 256
    · rw [dif_pos h2]
      exact concatenate_apply_piece _ _ _ (ix2 e k) 1 (by show 1 < 3; omega) S500000x128 B rfl rfl 128 rfl (ix2 e ⟨k.val - 128, by omega⟩)
        (fun b hb => by match b with
          | ⟨0, _⟩ => rfl
          | ⟨1, _⟩ => exact absurd (Fin.ext rfl) hb)
        (by show 128 + (k.val - 128) = k.val; omega)
    · rw [dif_neg h2]
      have hk : k.val < 384 := k.isLt
      exact concatenate_apply_piece _ _ _ (ix2 e k) 2 (by show 2 < 3; omega) S500000x128 C rfl rfl 256 rfl (ix2 e ⟨k.val - 256, by omega⟩)
        (fun b hb => by match b with
          | ⟨0, _⟩ => rfl
          | ⟨1, _⟩ => exact absurd (Fin.ext rfl) hb)
        (by show 256 + (k.val - 256) = k.val; omega)

/-! ## The index functions of the five products, at an index given by its coordinates -/

theorem lidx15 (e : Fin 500000) (j : Fin 128) (k : Fin 2) : lidx_main_v15 (ix2 e j) k = ix2 e k := funext fun a => Fin.ext (by match a with | ⟨0, _⟩ => rfl | ⟨1, _⟩ => rfl)
theorem ridx15 (e : Fin 500000) (j : Fin 128) (k : Fin 2) : ridx_main_v15 (ix2 e j) k = ix2 k j := funext fun a => Fin.ext (by match a with | ⟨0, _⟩ => rfl | ⟨1, _⟩ => rfl)
theorem lidx20 (e : Fin 500000) (j k : Fin 128) : lidx_main_v20 (ix2 e j) k = ix2 e k := funext fun a => Fin.ext (by match a with | ⟨0, _⟩ => rfl | ⟨1, _⟩ => rfl)
theorem ridx20 (e : Fin 500000) (j k : Fin 128) : ridx_main_v20 (ix2 e j) k = ix2 k j := funext fun a => Fin.ext (by match a with | ⟨0, _⟩ => rfl | ⟨1, _⟩ => rfl)
theorem lidx53 (e : Fin 500000) (j k : Fin 128) : lidx_main_v53 (ix2 e j) k = ix2 e k := funext fun a => Fin.ext (by match a with | ⟨0, _⟩ => rfl | ⟨1, _⟩ => rfl)
theorem ridx53 (e : Fin 500000) (j k : Fin 128) : ridx_main_v53 (ix2 e j) k = ix2 k j := funext fun a => Fin.ext (by match a with | ⟨0, _⟩ => rfl | ⟨1, _⟩ => rfl)
theorem lidx87 (e : Fin 500000) (j : Fin 128) (k : Fin 384) : lidx_main_v87 (ix2 e j) k = ix2 e k := funext fun a => Fin.ext (by match a with | ⟨0, _⟩ => rfl | ⟨1, _⟩ => rfl)
theorem ridx87 (e : Fin 500000) (j : Fin 128) (k : Fin 384) : ridx_main_v87 (ix2 e j) k = ix2 k j := funext fun a => Fin.ext (by match a with | ⟨0, _⟩ => rfl | ⟨1, _⟩ => rfl)
theorem lidx113 (e : Fin 500000) (j k : Fin 128) : lidx_main_v113 (ix2 e j) k = ix2 e k := funext fun a => Fin.ext (by match a with | ⟨0, _⟩ => rfl | ⟨1, _⟩ => rfl)
theorem ridx113 (e : Fin 500000) (j k : Fin 128) : ridx_main_v113 (ix2 e j) k = ix2 k j := funext fun a => Fin.ext (by match a with | ⟨0, _⟩ => rfl | ⟨1, _⟩ => rfl)
theorem idx1617 (e : Fin 500000) (j : Fin 128) : idx_main_v16 (idx_main_v17 (ix2 e j)) = ix1 j :=
  funext fun a => Fin.ext (by match a with | ⟨0, _⟩ => rfl)

variable (x0 x1 : (⟨S50000x128, .f32⟩ : BufTy).Contents (Elt Ideal)) (x2 x3 : (⟨S50000x2, .f32⟩ : BufTy).Contents (Elt Ideal)) (x4 x5 : (⟨S500000, .i32⟩ : BufTy).Contents (Elt Ideal))
  (x6 : (⟨S2x128, .f32⟩ : BufTy).Contents (Elt Ideal)) (x7 : (⟨S128, .f32⟩ : BufTy).Contents (Elt Ideal)) (x8 : (⟨S128x128, .f32⟩ : BufTy).Contents (Elt Ideal)) (x9 x10 : (⟨S128, .f32⟩ : BufTy).Contents (Elt Ideal))
  (x11 : (⟨S128x128, .f32⟩ : BufTy).Contents (Elt Ideal)) (x12 x13 : (⟨S128, .f32⟩ : BufTy).Contents (Elt Ideal)) (x14 : (⟨S384x128, .f32⟩ : BufTy).Contents (Elt Ideal)) (x15 x16 : (⟨S128, .f32⟩ : BufTy).Contents (Elt Ideal))
  (x17 : (⟨S128x128, .f32⟩ : BufTy).Contents (Elt Ideal))

/-! ## The stages are the named operations of their operands (definitions unfolded, nothing computed) -/

theorem v19_eq : val_main_v19 (F := Ideal) x2 x3 x4 x5 x6 x7 = reluA (val_main_v18 (F := Ideal) x2 x3 x4 x5 x6 x7) := rfl
theorem v45_eq : val_main_v45 (F := Ideal) x2 x3 x4 x5 x6 x7 x8 x9 x10 = reluA (gnA (val_main_v20 (F := Ideal) x2 x3 x4 x5 x6 x7 x8) x9 x10) := rfl
theorem v78_eq : val_main_v78 (F := Ideal) x0 x4 x11 x12 x13 = reluA (gnA (val_main_v53 (F := Ideal) x0 x4 x11) x12 x13) := rfl
theorem v112_eq : val_main_v112 (F := Ideal) x0 x1 x2 x3 x4 x5 x6 x7 x8 x9 x10 x11 x12 x13 x14 x15 x16 = reluA (gnA (val_main_v87 (F := Ideal) x0 x1 x2 x3 x4 x5 x6 x7 x8 x9 x10 x11 x12 x13 x14) x15 x16) := rfl

/-! ## Row e of each stage -/

/-- The first layer: the two distance entries times the two rows of W_d1, plus the bias, then max with zero. -/
theorem row19 (e : Fin 500000) :
    (fun k => val_main_v19 (F := Ideal) x2 x3 x4 x5 x6 x7 (ix2 e k))
      = fun k => Spec.relu (val_main_v14 (F := Ideal) x2 x3 x4 x5 (ix2 e 0) * x6 (ix2 0 k) + val_main_v14 (F := Ideal) x2 x3 x4 x5 (ix2 e 1) * x6 (ix2 1 k) + x7 (ix1 k)) := by
  funext k
  rw [v19_eq, reluA_apply, val_main_v18_apply, val_main_v17_apply, val_main_v16_apply, val_main_v15_apply, Fin.sum_univ_two,
    lidx15, lidx15, ridx15, ridx15, idx1617]
  rfl

theorem row20 (e : Fin 500000) :
    (fun k => val_main_v20 (F := Ideal) x2 x3 x4 x5 x6 x7 x8 (ix2 e k)) = Spec.lin (fun k => val_main_v19 (F := Ideal) x2 x3 x4 x5 x6 x7 (ix2 e k)) (Spec.mat x8) := by
  funext j
  rw [val_main_v20_apply]
  exact Finset.sum_congr rfl fun k _ => by rw [lidx20, ridx20]

theorem row45 (e : Fin 500000) :
    (fun k => val_main_v45 (F := Ideal) x2 x3 x4 x5 x6 x7 x8 x9 x10 (ix2 e k))
      = fun k => Spec.relu (Spec.gn (Spec.lin (fun k => val_main_v19 (F := Ideal) x2 x3 x4 x5 x6 x7 (ix2 e k)) (Spec.mat x8)) (Spec.vec x9) (Spec.vec x10) k) := by
  funext k
  rw [v45_eq, reluA_apply, gnA_apply, row20]

theorem row53 (e : Fin 500000) :
    (fun k => val_main_v53 (F := Ideal) x0 x4 x11 (ix2 e k)) = Spec.lin (fun k => val_main_v52 (F := Ideal) x0 x4 (ix2 e k)) (Spec.mat x11) := by
  funext j
  rw [val_main_v53_apply]
  exact Finset.sum_congr rfl fun k _ => by rw [lidx53, ridx53]

theorem row78 (e : Fin 500000) :
    (fun k => val_main_v78 (F := Ideal) x0 x4 x11 x12 x13 (ix2 e k))
      = fun k => Spec.relu (Spec.gn (Spec.lin (fun k => val_main_v52 (F := Ideal) x0 x4 (ix2 e k)) (Spec.mat x11)) (Spec.vec x12) (Spec.vec x13) k) := by
  funext k
  rw [v78_eq, reluA_apply, gnA_apply, row53]

/-- The joined row: row e of the three arrays side by side. -/
theorem row86 (e : Fin 500000) :
    (fun k => val_main_v86 (F := Ideal) x0 x1 x2 x3 x4 x5 x6 x7 x8 x9 x10 x11 x12 x13 (ix2 e k))
      = Spec.cat3 (fun k => val_main_v45 (F := Ideal) x2 x3 x4 x5 x6 x7 x8 x9 x10 (ix2 e k)) (fun k => val_main_v78 (F := Ideal) x0 x4 x11 x12 x13 (ix2 e k)) (fun k => val_main_v85 (F := Ideal) x1 x5 (ix2 e k)) := by
  funext k
  unfold val_main_v86
  exact cat_apply _ _ _ e k

/-- The product with the tall matrix, as the three products with its three blocks of rows. -/
theorem row87 (e : Fin 500000) :
    (fun k => val_main_v87 (F := Ideal) x0 x1 x2 x3 x4 x5 x6 x7 x8 x9 x10 x11 x12 x13 x14 (ix2 e k))
      = fun k => Spec.lin (fun k => val_main_v45 (F := Ideal) x2 x3 x4 x5 x6 x7 x8 x9 x10 (ix2 e k)) (Spec.top (Spec.mat x14)) k
          + Spec.lin (fun k => val_main_v78 (F := Ideal) x0 x4 x11 x12 x13 (ix2 e k)) (Spec.mid (Spec.mat x14)) k
          + Spec.lin (fun k => val_main_v85 (F := Ideal) x1 x5 (ix2 e k)) (Spec.bot (Spec.mat x14)) k := by
  funext j
  rw [val_main_v87_apply, ← Spec.lin_cat3, ← row86]
  exact Finset.sum_congr rfl fun k _ => by rw [lidx87, ridx87]

theorem row112 (e : Fin 500000) :
    (fun k => val_main_v112 (F := Ideal) x0 x1 x2 x3 x4 x5 x6 x7 x8 x9 x10 x11 x12 x13 x14 x15 x16 (ix2 e k))
      = fun k => Spec.relu (Spec.gn (fun k => val_main_v87 (F := Ideal) x0 x1 x2 x3 x4 x5 x6 x7 x8 x9 x10 x11 x12 x13 x14 (ix2 e k)) (Spec.vec x15) (Spec.vec x16) k) := by
  funext k
  rw [v112_eq, reluA_apply, gnA_apply]

theorem row113 (e : Fin 500000) :
    (fun k => val_main_v113 (F := Ideal) x0 x1 x2 x3 x4 x5 x6 x7 x8 x9 x10 x11 x12 x13 x14 x15 x16 x17 (ix2 e k)) = Spec.lin (fun k => val_main_v112 (F := Ideal) x0 x1 x2 x3 x4 x5 x6 x7 x8 x9 x10 x11 x12 x13 x14 x15 x16 (ix2 e k)) (Spec.mat x17) := by
  funext j
  rw [val_main_v113_apply]
  exact Finset.sum_congr rfl fun k _ => by rw [lidx113, ridx113]

/-- The reference's message array (the stage before its scatter) is the message function of its three gathered arrays. -/
theorem msg_eq :
    val_main_v113 (F := Ideal) x0 x1 x2 x3 x4 x5 x6 x7 x8 x9 x10 x11 x12 x13 x14 x15 x16 x17
      = Spec.MSG (E := 500000) (val_main_v14 (F := Ideal) x2 x3 x4 x5) (val_main_v52 (F := Ideal) x0 x4) (val_main_v85 (F := Ideal) x1 x5)
          x6 x7 x8 x9 x10 x11 x12 x13 x14 x15 x16 x17 := by
  funext i
  obtain ⟨e, j, rfl⟩ : ∃ (e : Fin 500000) (j : Fin 128), i = ix2 e j := ⟨i 0, i 1, eq_ix2 i⟩
  refine (congrFun (row113 x0 x1 x2 x3 x4 x5 x6 x7 x8 x9 x10 x11 x12 x13 x14 x15 x16 x17 e) j).trans ?_
  rw [row112, row87, row45, row78, row19]
  rfl

end Cert.ReferenceIdeal.RefMsg

end
-- ==== Proof.RefValue.lean ====
/- The reference's stages read at an index: its messages are the message function of its gathered arrays, and its result the whole computation. -/
import proofs.«420649_j32882269618299_3_alg».proof.Proof.RefRead
import proofs.«420649_j32882269618299_3_alg».proof.Proof.Spec
import proofs.«420649_j32882269618299_3_alg».proof.Proof.RefMsg
import proofs.«420649_j32882269618299_3_alg».proof.Proof.LibScatterRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.ValueIdx

/-! ## The reference's array operations on an array of 50000 rows of 128 entries, each read at coordinates -/

/-- The sums of the rows, kept as a column: the add-reduction over the second axis from the zero word, then the column
    form of the vector of sums. -/
def rowSum (Y : FVec Ideal S50000x128 .f32) : FVec Ideal S50000x1 .f32 :=
  broadcastInDim S50000x1 ![0] bcast_S50000_S50000x1_0
    (Host.reduceAdd Y (constant (F := Ideal) S_ .f32 0x00000000#32) reducesTo_S50000x128_S50000_d1 h_S_)

/-- Entry r of the column of row sums is the sum of row r. -/
theorem rowSum_at (Y : FVec Ideal S50000x128 .f32) (r : Fin 50000) :
    rowSum Y (ix2 r (0 : Fin 1)) = ∑ k : Fin 128, Y (ix2 r k) := by
  unfold rowSum
  refine (broadcastInDim_apply _ bcast_S50000_S50000x1_0 _ (ix2 r (0 : Fin 1)) (ix1 r) (fun a => match a with
    | ⟨0, _⟩ => by show r.val = if (50000 : Nat) = 1 then 0 else r.val; rw [if_neg (by decide)])).trans ?_
  simp only [Host.reduceAdd, Ideal.hostReduceAdd_def]
  rw [Ideal.hostReduceAdd_single reducesTo_S50000x128_S50000_d1 (by decide)]
  have hz : (constant (F := Ideal) S_ .f32 0x00000000#32) (Shape.Idx.first h_S_) = (0 : EReal) := Ideal.ofBits_zero_f32
  rw [hz, zero_add]
  refine Finset.sum_congr rfl fun k _ => congrArg Y ?_
  exact funext fun a => Fin.ext (by match a with | ⟨0, _⟩ => rfl | ⟨1, _⟩ => rfl)

/-- A column that holds one f32 word everywhere. -/
def colConst (w : BitVec 32) : FVec Ideal S50000x1 .f32 :=
  broadcastInDim S50000x1 ![] bcast_S_S50000x1 (constant (F := Ideal) S_ .f32 w)

/-- Every entry of it is the word read as an extended real. -/
theorem colConst_at (w : BitVec 32) (i : S50000x1.Idx) : colConst w i = Ideal.ofBits .f32 w := by
  unfold colConst
  exact broadcastInDim_apply _ bcast_S_S50000x1 _ i (fun a => a.elim0) (fun a => a.elim0)

/-- A column repeated along 128 columns. -/
def spread (y : FVec Ideal S50000x1 .f32) : FVec Ideal S50000x128 .f32 :=
  broadcastInDim S50000x128 ![0, 1] bcast_S50000x1_S50000x128_0_1 y

/-- Its entry (r, b) is entry r of the column. -/
theorem spread_at (y : FVec Ideal S50000x1 .f32) (r : Fin 50000) (b : Fin 128) :
    spread y (ix2 r b) = y (ix2 r (0 : Fin 1)) := by
  unfold spread
  exact broadcastInDim_apply _ bcast_S50000x1_S50000x128_0_1 y (ix2 r b) (ix2 r (0 : Fin 1)) (fun a => match a with
    | ⟨0, _⟩ => by show r.val = if (50000 : Nat) = 1 then 0 else r.val; rw [if_neg (by decide)]
    | ⟨1, _⟩ => by show 0 = if (1 : Nat) = 1 then 0 else b.val; rw [if_pos rfl])

/-- A vector of 128 entries repeated along 50000 rows (through its one-row form, as the reference does it). -/
def rowVec (g : FVec Ideal S128 .f32) : FVec Ideal S50000x128 .f32 :=
  broadcastInDim S50000x128 ![0, 1] bcast_S1x128_S50000x128_0_1 (broadcastInDim S1x128 ![1] bcast_S128_S1x128_1 g)

/-- Its entry (r, b) is entry b of the vector. -/
theorem rowVec_at (g : FVec Ideal S128 .f32) (r : Fin 50000) (b : Fin 128) : rowVec g (ix2 r b) = g (ix1 b) := by
  unfold rowVec
  refine (broadcastInDim_apply _ bcast_S1x128_S50000x128_0_1 _ (ix2 r b) (ix2 (0 : Fin 1) b) (fun a => match a with
    | ⟨0, _⟩ => by show 0 = if (1 : Nat) = 1 then 0 else r.val; rw [if_pos rfl]
    | ⟨1, _⟩ => by show b.val = if (128 : Nat) = 1 then 0 else b.val; rw [if_neg (by decide)])).trans ?_
  exact broadcastInDim_apply _ bcast_S128_S1x128_1 g (ix2 (0 : Fin 1) b) (ix1 b) (fun a => match a with
    | ⟨0, _⟩ => by show b.val = if (128 : Nat) = 1 then 0 else b.val; rw [if_neg (by decide)])

/-- The column of row means: the row sums divided by the word of 128. -/
def meanCol (Y : FVec Ideal S50000x128 .f32) : FVec Ideal S50000x1 .f32 :=
  Host.divf (rowSum Y) (colConst 0x43000000#32)

/-- Entry r of it is the mean of row r. -/
theorem meanCol_at (Y : FVec Ideal S50000x128 .f32) (r : Fin 50000) :
    meanCol Y (ix2 r (0 : Fin 1)) = Spec.mean (Spec.row Y r) := by
  show Ideal.div (rowSum Y (ix2 r (0 : Fin 1))) (colConst 0x43000000#32 (ix2 r (0 : Fin 1))) = _
  rw [rowSum_at, colConst_at]
  rfl

/-- The column of row variances: the row sums of the squared differences from the mean, divided by the word of 128. -/
def varCol (Y : FVec Ideal S50000x128 .f32) : FVec Ideal S50000x1 .f32 :=
  Host.divf (rowSum (mulf (subf Y (spread (meanCol Y))) (subf Y (spread (meanCol Y))))) (colConst 0x43000000#32)

/-- Entry r of it is the variance of row r. -/
theorem varCol_at (Y : FVec Ideal S50000x128 .f32) (r : Fin 50000) :
    varCol Y (ix2 r (0 : Fin 1)) = Spec.var (Spec.row Y r) := by
  show Ideal.div (rowSum (mulf (subf Y (spread (meanCol Y))) (subf Y (spread (meanCol Y)))) (ix2 r (0 : Fin 1)))
    (colConst 0x43000000#32 (ix2 r (0 : Fin 1))) = _
  rw [rowSum_at, colConst_at]
  unfold Spec.var
  refine congrArg (fun s => Ideal.div s Spec.c128) (Finset.sum_congr rfl fun k _ => ?_)
  show (Y (ix2 r k) - spread (meanCol Y) (ix2 r k)) * (Y (ix2 r k) - spread (meanCol Y) (ix2 r k)) = _
  rw [spread_at, meanCol_at]

/-- The normalisation of every row: the difference from the row mean, times the reciprocal square root of the row
    variance plus the epsilon word, times the scale vector, plus the shift vector. -/
def normArr (Y : FVec Ideal S50000x128 .f32) (g b : FVec Ideal S128 .f32) : FVec Ideal S50000x128 .f32 :=
  addf (mulf (mulf (subf Y (spread (meanCol Y)))
      (spread (Host.rsqrt (addf (varCol Y) (colConst 0x3727C5AC#32))))) (rowVec g)) (rowVec b)

/-- Row r of the normalised array is the normalisation of row r. -/
theorem normArr_at (Y : FVec Ideal S50000x128 .f32) (g b : FVec Ideal S128 .f32) (r : Fin 50000) (q : Fin 128) :
    normArr Y g b (ix2 r q) = Spec.gn (Spec.row Y r) (Spec.vec g) (Spec.vec b) q := by
  show (Y (ix2 r q) - spread (meanCol Y) (ix2 r q))
      * spread (Host.rsqrt (addf (varCol Y) (colConst 0x3727C5AC#32))) (ix2 r q) * rowVec g (ix2 r q) + rowVec b (ix2 r q) = _
  rw [spread_at, spread_at, meanCol_at, rowVec_at, rowVec_at]
  show (Y (ix2 r q) - Spec.mean (Spec.row Y r))
      * Ideal.rsqrt (varCol Y (ix2 r (0 : Fin 1)) + colConst 0x3727C5AC#32 (ix2 r (0 : Fin 1))) * g (ix1 q) + b (ix1 q) = _
  rw [varCol_at, colConst_at]
  rfl

/-- max with zero of every entry: the maximum with the array that holds the zero word everywhere. -/
def reluArr (Y : FVec Ideal S50000x128 .f32) : FVec Ideal S50000x128 .f32 :=
  maximumf Y (broadcastInDim S50000x128 ![] bcast_S_S50000x128 (constant (F := Ideal) S_ .f32 0x00000000#32))

/-- At every index it is max with zero of the entry. -/
theorem reluArr_at (Y : FVec Ideal S50000x128 .f32) (i : S50000x128.Idx) : reluArr Y i = Spec.relu (Y i) := by
  show max (Y i) ((broadcastInDim S50000x128 ![] bcast_S_S50000x128 (constant (F := Ideal) S_ .f32 0x00000000#32)) i) = _
  rw [broadcastInDim_apply _ bcast_S_S50000x128 _ i (fun a => a.elim0) (fun a => a.elim0)]
  show max (Y i) (Ideal.ofBits .f32 0x00000000#32) = _
  rw [Ideal.ofBits_zero_f32]
  rfl

/-- The product with a matrix of 128 rows and 128 columns, as the reference's dimension numbers spell it. -/
def dotArr (A : FVec Ideal S50000x128 .f32) (W : FVec Ideal S128x128 .f32) : FVec Ideal S50000x128 .f32 :=
  Host.dotGeneral dot_S50000x128_S128x128_S50000x128_1_0_0_1_n_n none A W

/-- Its entry (r, b) is row r of the left array times the matrix, at column b. -/
theorem dotArr_at (A : FVec Ideal S50000x128 .f32) (W : FVec Ideal S128x128 .f32) (r : Fin 50000) (b : Fin 128) :
    dotArr A W (ix2 r b) = Spec.lin (Spec.row A r) (Spec.mat W) b := by
  refine (val_main_v114_apply A W (ix2 r b)).trans ?_
  unfold Spec.lin
  refine Finset.sum_congr rfl fun k _ => ?_
  have el : lidx_main_v114 (ix2 r b) k = ix2 r k :=
    funext fun a => Fin.ext (by match a with | ⟨0, _⟩ => rfl | ⟨1, _⟩ => rfl)
  have er : ridx_main_v114 (ix2 r b) k = ix2 k b :=
    funext fun a => Fin.ext (by match a with | ⟨0, _⟩ => rfl | ⟨1, _⟩ => rfl)
  rw [el, er]

/-! ## Rows of the arrays these operations give -/

theorem row_norm (Y : FVec Ideal S50000x128 .f32) (g b : FVec Ideal S128 .f32) (r : Fin 50000) :
    Spec.row (normArr Y g b) r = Spec.gn (Spec.row Y r) (Spec.vec g) (Spec.vec b) :=
  funext fun q => normArr_at Y g b r q

theorem row_relu (Y : FVec Ideal S50000x128 .f32) (r : Fin 50000) :
    Spec.row (reluArr Y) r = fun k => Spec.relu (Spec.row Y r k) :=
  funext fun k => reluArr_at Y (ix2 r k)

theorem row_dot (A : FVec Ideal S50000x128 .f32) (W : FVec Ideal S128x128 .f32) (r : Fin 50000) :
    Spec.row (dotArr A W) r = Spec.lin (Spec.row A r) (Spec.mat W) :=
  funext fun b => dotArr_at A W r b

/-- The accumulating scatter onto rows, read at (r, b): the operand's entry plus what node r receives at column b. -/
theorem scatter_at (X : FVec Ideal S50000x128 .f32) (idx : IVec S500000x1 32) (U : FVec Ideal S500000x128 .f32)
    (r : Fin 50000) (b : Fin 128) :
    Host.scatterAdd scatter_S50000x128_S500000x1_S500000x128_1_0_0_1 X idx U (ix2 r b)
      = X (ix2 r b) + Spec.SCAT (E := 500000) (N := 50000) idx U (ix2 r b) :=
  Cert.SparseMM.scatterAdd_rows_apply (R := 50000) (B := 128) (N := 500000)
    Facts₀.scatter_S50000x128_S500000x1_S500000x128_1_0_0_1_wf X idx U r b

/-! ## The reference's stages as these operations -/

variable (x0 x1 : (⟨S50000x128, .f32⟩ : BufTy).Contents (Elt Ideal)) (x2 x3 : (⟨S50000x2, .f32⟩ : BufTy).Contents (Elt Ideal)) (x4 x5 : (⟨S500000, .i32⟩ : BufTy).Contents (Elt Ideal))
  (x6 : (⟨S2x128, .f32⟩ : BufTy).Contents (Elt Ideal)) (x7 : (⟨S128, .f32⟩ : BufTy).Contents (Elt Ideal)) (x8 : (⟨S128x128, .f32⟩ : BufTy).Contents (Elt Ideal)) (x9 x10 : (⟨S128, .f32⟩ : BufTy).Contents (Elt Ideal))
  (x11 : (⟨S128x128, .f32⟩ : BufTy).Contents (Elt Ideal)) (x12 x13 : (⟨S128, .f32⟩ : BufTy).Contents (Elt Ideal)) (x14 : (⟨S384x128, .f32⟩ : BufTy).Contents (Elt Ideal)) (x15 x16 : (⟨S128, .f32⟩ : BufTy).Contents (Elt Ideal))
  (x17 x18 : (⟨S128x128, .f32⟩ : BufTy).Contents (Elt Ideal)) (x19 x20 : (⟨S128, .f32⟩ : BufTy).Contents (Elt Ideal)) (x21 : (⟨S128x128, .f32⟩ : BufTy).Contents (Elt Ideal)) (x22 x23 : (⟨S128, .f32⟩ : BufTy).Contents (Elt Ideal))

/-- Row r of the stage the first normalisation takes: the agents' row times the first weight matrix, plus, column by
    column, the sum of the messages whose row number is r. -/
theorem row_pre (r : Fin 50000) :
    Spec.row (val_main_v121 (F := Ideal) x0 x1 x2 x3 x4 x5 x6 x7 x8 x9 x10 x11 x12 x13 x14 x15 x16 x17 x18) r
      = fun k => Spec.lin (Spec.row x0 r) (Spec.mat x18) k
          + Spec.row (Spec.SCAT (E := 500000) (N := 50000) (val_main_v120 (F := Ideal) x4)
              (val_main_v113 (F := Ideal) x0 x1 x2 x3 x4 x5 x6 x7 x8 x9 x10 x11 x12 x13 x14 x15 x16 x17)) r k := by
  funext k
  show val_main_v121 (F := Ideal) x0 x1 x2 x3 x4 x5 x6 x7 x8 x9 x10 x11 x12 x13 x14 x15 x16 x17 x18 (ix2 r k) = _
  unfold val_main_v121
  refine (scatter_at _ _ _ r k).trans ?_
  exact congrArg (· + _) (dotArr_at x0 x18 r k)

/-- The first normalisation's stage is the normalisation of the stage it takes, with the first scale and shift vectors. -/
theorem norm1_shape :
    val_main_v145 (F := Ideal) x0 x1 x2 x3 x4 x5 x6 x7 x8 x9 x10 x11 x12 x13 x14 x15 x16 x17 x18 x19 x20
      = normArr (val_main_v121 (F := Ideal) x0 x1 x2 x3 x4 x5 x6 x7 x8 x9 x10 x11 x12 x13 x14 x15 x16 x17 x18) x19 x20 := by
  unfold val_main_v145 val_main_v144 val_main_v143 val_main_v142 val_main_v141 val_main_v140 val_main_v139 val_main_v138
    val_main_v137 val_main_v136 val_main_v135 val_main_cst_27 val_main_v134 val_main_v133 val_main_v132 val_main_v131
    val_main_cst_26 val_main_v130 val_main_v129 val_main_cst_25 val_main_v128 val_main_v127 val_main_v126 val_main_v125
    val_main_v124 val_main_cst_24 val_main_v123 val_main_v122 val_main_cst_23
  rfl

/-- The stage after it is max with zero of it. -/
theorem relu1_shape :
    val_main_v146 (F := Ideal) x0 x1 x2 x3 x4 x5 x6 x7 x8 x9 x10 x11 x12 x13 x14 x15 x16 x17 x18 x19 x20
      = reluArr (val_main_v145 (F := Ideal) x0 x1 x2 x3 x4 x5 x6 x7 x8 x9 x10 x11 x12 x13 x14 x15 x16 x17 x18 x19 x20) := by
  unfold val_main_v146 val_main_call4_v0 val_main_call4_cst
  rfl

/-- The next is its product with the second weight matrix. -/
theorem lin2_shape :
    val_main_v147 (F := Ideal) x0 x1 x2 x3 x4 x5 x6 x7 x8 x9 x10 x11 x12 x13 x14 x15 x16 x17 x18 x19 x20 x21
      = dotArr (val_main_v146 (F := Ideal) x0 x1 x2 x3 x4 x5 x6 x7 x8 x9 x10 x11 x12 x13 x14 x15 x16 x17 x18 x19 x20) x21 := by
  unfold val_main_v147
  rfl

/-- The second normalisation's stage is the normalisation of that product, with the second scale and shift vectors. -/
theorem norm2_shape :
    val_main_v171 (F := Ideal) x0 x1 x2 x3 x4 x5 x6 x7 x8 x9 x10 x11 x12 x13 x14 x15 x16 x17 x18 x19 x20 x21 x22 x23
      = normArr (val_main_v147 (F := Ideal) x0 x1 x2 x3 x4 x5 x6 x7 x8 x9 x10 x11 x12 x13 x14 x15 x16 x17 x18 x19 x20 x21) x22 x23 := by
  unfold val_main_v171 val_main_v170 val_main_v169 val_main_v168 val_main_v167 val_main_v166 val_main_v165 val_main_v164
    val_main_v163 val_main_v162 val_main_v161 val_main_cst_32 val_main_v160 val_main_v159 val_main_v158 val_main_v157
    val_main_cst_31 val_main_v156 val_main_v155 val_main_cst_30 val_main_v154 val_main_v153 val_main_v152 val_main_v151
    val_main_v150 val_main_cst_29 val_main_v149 val_main_v148 val_main_cst_28
  rfl

/-- The result is max with zero of the second normalisation plus the agents. -/
theorem result_shape :
    val_main_v173 (F := Ideal) x0 x1 x2 x3 x4 x5 x6 x7 x8 x9 x10 x11 x12 x13 x14 x15 x16 x17 x18 x19 x20 x21 x22 x23
      = reluArr (addf (val_main_v171 (F := Ideal) x0 x1 x2 x3 x4 x5 x6 x7 x8 x9 x10 x11 x12 x13 x14 x15 x16 x17 x18 x19 x20 x21 x22 x23) x0) := by
  unfold val_main_v173 val_main_v172 val_main_call5_v0 val_main_call5_cst
  rfl

/-! ## The whole computation -/

/-- The reference's result is the whole computation of the agents, its gathered arrays, its column of row numbers and the weights. -/
theorem out_eq :
    val_main_v173 (F := Ideal) x0 x1 x2 x3 x4 x5 x6 x7 x8 x9 x10 x11 x12 x13 x14 x15 x16 x17 x18 x19 x20 x21 x22 x23
      = Spec.OUT (E := 500000) (N := 50000) x0 (val_main_v14 (F := Ideal) x2 x3 x4 x5) (val_main_v52 (F := Ideal) x0 x4)
          (val_main_v85 (F := Ideal) x1 x5) (val_main_v120 (F := Ideal) x4)
          x6 x7 x8 x9 x10 x11 x12 x13 x14 x15 x16 x17 x18 x19 x20 x21 x22 x23 := by
  funext i
  obtain ⟨r, j, rfl⟩ : ∃ (r : Fin 50000) (j : Fin 128), i = ix2 r j := ⟨i 0, i 1, eq_ix2 i⟩
  rw [result_shape, reluArr_at]
  show Spec.relu (val_main_v171 (F := Ideal) x0 x1 x2 x3 x4 x5 x6 x7 x8 x9 x10 x11 x12 x13 x14 x15 x16 x17 x18 x19 x20 x21 x22 x23 (ix2 r j)
    + x0 (ix2 r j)) = _
  rw [norm2_shape, normArr_at, lin2_shape, row_dot, relu1_shape, row_relu, norm1_shape, row_norm, row_pre, RefMsg.msg_eq]
  rfl

end Cert.ReferenceIdeal.RefValue

end
-- ==== Proof.lean ====
/- The proof of the claim.

   Both programs compute, for every node n and column j,
     relu (gn (lin (relu (gn (lin x_n Wa + s_n) g b)) Wl) g' b' + x_n)  at j,
   where x_n is the node's agent row and s_n the sum of the messages of the edges whose row number is n; an edge's message is
   the two-layer function of its distance row, its gathered agent row and its gathered context row that Proof/Spec.lean writes
   out. The kernel program computes the messages block by block in its first region (rows of edges are independent, so block t
   is rows 5000 t .. 5000 t + 4999 of one whole-array function), scatters them onto zeros on the host and adds the agents'
   product inside its second region; the reference scatters onto the agents' product directly. At the extended reals the
   scatter-add reads as "the operand's entry plus the sum of the updates landing there", so the two differ by 0 + s = s; the
   kernel's three products against the row blocks of Wc1 are the reference's one product of the joined row (a sum over 384
   entries split in three). Nothing needs the inputs to be finite.

   The frames of the two kernel programs are generated; the reference's is its generated run with the result dropped.
   The idealization rewrote nothing, so there is nothing to preserve. -/
import proofs.«420649_j32882269618299_3_alg».proof.Defs
import proofs.«420649_j32882269618299_3_alg».proof.Proof.Gen.Kernel
import proofs.«420649_j32882269618299_3_alg».proof.Proof.Gen.Kernel.Skeleton
import proofs.«420649_j32882269618299_3_alg».proof.Proof.Gen.Kernel.Launch
import proofs.«420649_j32882269618299_3_alg».proof.Proof.Gen.Kernel.Points
import proofs.«420649_j32882269618299_3_alg».proof.Proof.Gen.Kernel.Frame
import proofs.«420649_j32882269618299_3_alg».proof.Proof.Gen.KernelIdeal
import proofs.«420649_j32882269618299_3_alg».proof.Proof.Gen.KernelIdeal.Skeleton
import proofs.«420649_j32882269618299_3_alg».proof.Proof.Gen.KernelIdeal.Launch
import proofs.«420649_j32882269618299_3_alg».proof.Proof.Gen.KernelIdeal.Points
import proofs.«420649_j32882269618299_3_alg».proof.Proof.Gen.KernelIdeal.Frame
import proofs.«420649_j32882269618299_3_alg».proof.Proof.Gen.ReferenceIdeal
import proofs.«420649_j32882269618299_3_alg».proof.Proof.RefRead
import proofs.«420649_j32882269618299_3_alg».proof.Proof.RefRun
import proofs.«420649_j32882269618299_3_alg».proof.Proof.Gen.Pre_finite_inputs
import proofs.«420649_j32882269618299_3_alg».proof.Proof.KernelRun
import proofs.«420649_j32882269618299_3_alg».proof.Proof.Glue
import proofs.«420649_j32882269618299_3_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end at the same array: the kernel program's result is the
    whole computation of its launch memory, the reference's is the same function of its own, and the memories agree. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Glue.kernel_value m ρ c), (h c).2⟩)
    (Cert.KernelIdeal.KRun.run_main (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23⟩ := hagree c
  rw [Cert.ReferenceIdeal.Value.res_main_v173_eq, Cert.ReferenceIdeal.RefValue.out_eq,
    h0, h1, h2, h3, h4, h5, h6, h7, h8, h9, h10, h11, h12, h13, h14, h15, h16, h17, h18, h19, h20, h21, h22, h23]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
